-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x4096 : Shape := ⟨3, ![2, 1024, 4096]⟩
abbrev S14336x4096 : Shape := ⟨2, ![14336, 4096]⟩
abbrev S112x32 : Shape := ⟨2, ![112, 32]⟩
abbrev S4096x14336 : Shape := ⟨2, ![4096, 14336]⟩
abbrev S32x112 : Shape := ⟨2, ![32, 112]⟩
abbrev S_ : Shape := ⟨0, ![]⟩

class Facts : Prop where
  bcast_S_S2x1024x4096 : S_.BroadcastsInDim S2x1024x4096 (![] : Fin 0 → Fin S2x1024x4096.rank)
  reducesTo_S2x1024x4096_S_d0_1_2 : S2x1024x4096.ReducesTo [0, 1, 2] S_
  h_S_ : 0 < S_.numel
  bcast_S_S14336x4096 : S_.BroadcastsInDim S14336x4096 (![] : Fin 0 → Fin S14336x4096.rank)
  reducesTo_S14336x4096_S_d0_1 : S14336x4096.ReducesTo [0, 1] S_
  bcast_S_S112x32 : S_.BroadcastsInDim S112x32 (![] : Fin 0 → Fin S112x32.rank)
  reducesTo_S112x32_S_d0_1 : S112x32.ReducesTo [0, 1] S_
  bcast_S_S4096x14336 : S_.BroadcastsInDim S4096x14336 (![] : Fin 0 → Fin S4096x14336.rank)
  reducesTo_S4096x14336_S_d0_1 : S4096x14336.ReducesTo [0, 1] S_
  bcast_S_S32x112 : S_.BroadcastsInDim S32x112 (![] : Fin 0 → Fin S32x112.rank)
  reducesTo_S32x112_S_d0_1 : S32x112.ReducesTo [0, 1] S_

variable [Facts]

def fn_part1 {F : FTy → Type} [FloatOps F] (main_arg4 : FVec F S112x32 .f32) (main_arg5 : FVec F S4096x14336 .f32) (main_arg6 : FVec F S32x112 .f32) (main_v13 : IVec S_ 1) (main_v16 : IVec S14336x4096 1) : IVec S_ 1 :=
  let main_c_5 : IVec S_ 1 := constantI S_ 1 1#1
  let main_v17 : IVec S_ 1 := (fun x v => Host.reduce IntOp.andi x v reducesTo_S14336x4096_S_d0_1 h_S_) main_v16 main_c_5
  let main_v18 : IVec S_ 1 := andi main_v13 main_v17
  let main_v19 : FVec F S112x32 .f32 := Host.absf main_arg4
  let main_cst_6 : FVec F S_ .f32 := constant S_ .f32 0x7F800000#32
  let main_v20 : FVec F S112x32 .f32 := broadcastInDim S112x32 ![] bcast_S_S112x32 main_cst_6
  let main_v21 : IVec S112x32 1 := cmpf .olt main_v19 main_v20
  let main_c_7 : IVec S_ 1 := constantI S_ 1 1#1
  let main_v22 : IVec S_ 1 := (fun x v => Host.reduce IntOp.andi x v reducesTo_S112x32_S_d0_1 h_S_) main_v21 main_c_7
  let main_v23 : IVec S_ 1 := andi main_v18 main_v22
  let main_v24 : FVec F S4096x14336 .f32 := Host.absf main_arg5
  let main_cst_8 : FVec F S_ .f32 := constant S_ .f32 0x7F800000#32
  let main_v25 : FVec F S4096x14336 .f32 := broadcastInDim S4096x14336 ![] bcast_S_S4096x14336 main_cst_8
  let main_v26 : IVec S4096x14336 1 := cmpf .olt main_v24 main_v25
  let main_c_9 : IVec S_ 1 := constantI S_ 1 1#1
  let main_v27 : IVec S_ 1 := (fun x v => Host.reduce IntOp.andi x v reducesTo_S4096x14336_S_d0_1 h_S_) main_v26 main_c_9
  let main_v28 : IVec S_ 1 := andi main_v23 main_v27
  let main_v29 : FVec F S32x112 .f32 := Host.absf main_arg6
  let main_cst_10 : FVec F S_ .f32 := constant S_ .f32 0x7F800000#32
  let main_v30 : FVec F S32x112 .f32 := broadcastInDim S32x112 ![] bcast_S_S32x112 main_cst_10
  let main_v31 : IVec S32x112 1 := cmpf .olt main_v29 main_v30
  let main_c_11 : IVec S_ 1 := constantI S_ 1 1#1
  let main_v32 : IVec S_ 1 := (fun x v => Host.reduce IntOp.andi x v reducesTo_S32x112_S_d0_1 h_S_) main_v31 main_c_11
  let main_v33 : IVec S_ 1 := andi main_v28 main_v32
  main_v33

def fn {F : FTy → Type} [FloatOps F] (main_arg0 : FVec F S2x1024x4096 .f32) (main_arg1 : FVec F S14336x4096 .f32) (main_arg2 : FVec F S112x32 .f32) (main_arg3 : FVec F S14336x4096 .f32) (main_arg4 : FVec F S112x32 .f32) (main_arg5 : FVec F S4096x14336 .f32) (main_arg6 : FVec F S32x112 .f32) : IVec S_ 1 :=
  let main_v0 : FVec F S2x1024x4096 .f32 := Host.absf main_arg0
  let main_cst : FVec F S_ .f32 := constant S_ .f32 0x7F800000#32
  let main_v1 : FVec F S2x1024x4096 .f32 := broadcastInDim S2x1024x4096 ![] bcast_S_S2x1024x4096 main_cst
  let main_v2 : IVec S2x1024x4096 1 := cmpf .olt main_v0 main_v1
  let main_c : IVec S_ 1 := constantI S_ 1 1#1
  let main_v3 : IVec S_ 1 := (fun x v => Host.reduce IntOp.andi x v reducesTo_S2x1024x4096_S_d0_1_2 h_S_) main_v2 main_c
  let main_v4 : FVec F S14336x4096 .f32 := Host.absf main_arg1
  let main_cst_0 : FVec F S_ .f32 := constant S_ .f32 0x7F800000#32
  let main_v5 : FVec F S14336x4096 .f32 := broadcastInDim S14336x4096 ![] bcast_S_S14336x4096 main_cst_0
  let main_v6 : IVec S14336x4096 1 := cmpf .olt main_v4 main_v5
  let main_c_1 : IVec S_ 1 := constantI S_ 1 1#1
  let main_v7 : IVec S_ 1 := (fun x v => Host.reduce IntOp.andi x v reducesTo_S14336x4096_S_d0_1 h_S_) main_v6 main_c_1
  let main_v8 : IVec S_ 1 := andi main_v3 main_v7
  let main_v9 : FVec F S112x32 .f32 := Host.absf main_arg2
  let main_cst_2 : FVec F S_ .f32 := constant S_ .f32 0x7F800000#32
  let main_v10 : FVec F S112x32 .f32 := broadcastInDim S112x32 ![] bcast_S_S112x32 main_cst_2
  let main_v11 : IVec S112x32 1 := cmpf .olt main_v9 main_v10
  let main_c_3 : IVec S_ 1 := constantI S_ 1 1#1
  let main_v12 : IVec S_ 1 := (fun x v => Host.reduce IntOp.andi x v reducesTo_S112x32_S_d0_1 h_S_) main_v11 main_c_3
  let main_v13 : IVec S_ 1 := andi main_v8 main_v12
  let main_v14 : FVec F S14336x4096 .f32 := Host.absf main_arg3
  let main_cst_4 : FVec F S_ .f32 := constant S_ .f32 0x7F800000#32
  let main_v15 : FVec F S14336x4096 .f32 := broadcastInDim S14336x4096 ![] bcast_S_S14336x4096 main_cst_4
  let main_v16 : IVec S14336x4096 1 := cmpf .olt main_v14 main_v15
  fn_part1 (F := F) main_arg4 main_arg5 main_arg6 main_v13 main_v16
-- ==== Kernel.lean ====
abbrev S2x1024x4096 : Shape := ⟨3, ![2, 1024, 4096]⟩
abbrev S14336x4096 : Shape := ⟨2, ![14336, 4096]⟩
abbrev S112x32 : Shape := ⟨2, ![112, 32]⟩
abbrev S4096x14336 : Shape := ⟨2, ![4096, 14336]⟩
abbrev S32x112 : Shape := ⟨2, ![32, 112]⟩
abbrev S2048x4096 : Shape := ⟨2, ![2048, 4096]⟩
abbrev S1024x4096 : Shape := ⟨2, ![1024, 4096]⟩
abbrev S8x32 : Shape := ⟨2, ![8, 32]⟩
abbrev S8x128x32x128 : Shape := ⟨4, ![8, 128, 32, 128]⟩
abbrev S8x1x32x1 : Shape := ⟨4, ![8, 1, 32, 1]⟩
abbrev S4096x1024 : Shape := ⟨2, ![4096, 1024]⟩
abbrev S32x8 : Shape := ⟨2, ![32, 8]⟩
abbrev S32x128x8x128 : Shape := ⟨4, ![32, 128, 8, 128]⟩
abbrev S32x1x8x1 : Shape := ⟨4, ![32, 1, 8, 1]⟩
abbrev S2048x14336 : Shape := ⟨2, ![2048, 14336]⟩
abbrev S512x2048 : Shape := ⟨2, ![512, 2048]⟩
abbrev S1024x2048 : Shape := ⟨2, ![1024, 2048]⟩
abbrev S512x1024 : Shape := ⟨2, ![512, 1024]⟩
abbrev S1024x1024 : Shape := ⟨2, ![1024, 1024]⟩

abbrev nBuf : Space → Nat
  | .hbm => 16
  | .vmem => 32
  | .smem => 0
  | _ => 0

abbrev bufTy : (tb : Table) → Fin (tcTables nBuf tb) → BufTy
  | .hbm, ⟨0, _⟩ => ⟨S2x1024x4096, .f32⟩
  | .hbm, ⟨1, _⟩ => ⟨S14336x4096, .f32⟩
  | .hbm, ⟨2, _⟩ => ⟨S112x32, .f32⟩
  | .hbm, ⟨3, _⟩ => ⟨S14336x4096, .f32⟩
  | .hbm, ⟨4, _⟩ => ⟨S112x32, .f32⟩
  | .hbm, ⟨5, _⟩ => ⟨S4096x14336, .f32⟩
  | .hbm, ⟨6, _⟩ => ⟨S32x112, .f32⟩
  | .hbm, ⟨7, _⟩ => ⟨S2048x4096, .f32⟩
  | .hbm, ⟨8, _⟩ => ⟨S2048x4096, .bf16⟩
  | .hbm, ⟨9, _⟩ => ⟨S14336x4096, .bf16⟩
  | .hbm, ⟨10, _⟩ => ⟨S14336x4096, .bf16⟩
  | .hbm, ⟨11, _⟩ => ⟨S112x32, .f32⟩
  | .hbm, ⟨12, _⟩ => ⟨S4096x14336, .bf16⟩
  | .hbm, ⟨13, _⟩ => ⟨S2048x14336, .bf16⟩
  | .hbm, ⟨14, _⟩ => ⟨S2048x4096, .f32⟩
  | .hbm, ⟨15, _⟩ => ⟨S2x1024x4096, .f32⟩
  | .local _ .vmem, ⟨0, _⟩ => ⟨S1024x4096, .f32⟩
  | .local _ .vmem, ⟨1, _⟩ => ⟨S8x32, .f32⟩
  | .local _ .vmem, ⟨2, _⟩ => ⟨S8x32, .f32⟩
  | .local _ .vmem, ⟨3, _⟩ => ⟨S1024x4096, .bf16⟩
  | .local _ .vmem, ⟨4, _⟩ => ⟨S1024x4096, .bf16⟩
  | .local _ .vmem, ⟨5, _⟩ => ⟨S1024x4096, .f32⟩
  | .local _ .vmem, ⟨6, _⟩ => ⟨S8x32, .f32⟩
  | .local _ .vmem, ⟨7, _⟩ => ⟨S8x32, .f32⟩
  | .local _ .vmem, ⟨8, _⟩ => ⟨S1024x4096, .bf16⟩
  | .local _ .vmem, ⟨9, _⟩ => ⟨S1024x4096, .bf16⟩
  | .local _ .vmem, ⟨10, _⟩ => ⟨S4096x1024, .f32⟩
  | .local _ .vmem, ⟨11, _⟩ => ⟨S8x32, .f32⟩
  | .local _ .vmem, ⟨12, _⟩ => ⟨S8x32, .f32⟩
  | .local _ .vmem, ⟨13, _⟩ => ⟨S4096x1024, .bf16⟩
  | .local _ .vmem, ⟨14, _⟩ => ⟨S4096x1024, .bf16⟩
  | .local _ .vmem, ⟨15, _⟩ => ⟨S512x2048, .bf16⟩
  | .local _ .vmem, ⟨16, _⟩ => ⟨S512x2048, .bf16⟩
  | .local _ .vmem, ⟨17, _⟩ => ⟨S1024x2048, .bf16⟩
  | .local _ .vmem, ⟨18, _⟩ => ⟨S1024x2048, .bf16⟩
  | .local _ .vmem, ⟨19, _⟩ => ⟨S1024x2048, .bf16⟩
  | .local _ .vmem, ⟨20, _⟩ => ⟨S1024x2048, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .f32⟩
  | .local _ .vmem, ⟨24, _⟩ => ⟨S512x1024, .f32⟩
  | .local _ .vmem, ⟨25, _⟩ => ⟨S1024x2048, .bf16⟩
  | .local _ .vmem, ⟨26, _⟩ => ⟨S1024x2048, .bf16⟩
  | .local _ .vmem, ⟨27, _⟩ => ⟨S1024x2048, .bf16⟩
  | .local _ .vmem, ⟨28, _⟩ => ⟨S1024x2048, .bf16⟩
  | .local _ .vmem, ⟨29, _⟩ => ⟨S1024x1024, .f32⟩
  | .local _ .vmem, ⟨30, _⟩ => ⟨S1024x1024, .f32⟩
  | .local _ .vmem, ⟨31, _⟩ => ⟨S1024x1024, .f32⟩
  | _, _ => ⟨S2x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc3_scratch0 : Ref sig .tc := ⟨.vmem, 23, rfl⟩
abbrev cc3_scratch1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc4_scratch0 : Ref sig .tc := ⟨.vmem, 31, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem2_1 : DmaSem sig := 28

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 2 → Memref sig .tc .vmem S8x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![14], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1024x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 2 → Memref sig .tc .vmem S8x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![14], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S4096x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 2 → Memref sig .tc .vmem S8x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨3, ![4, 14, 2], ![false, false, false]⟩

def k3_cond2 (i : grid3.Coords) : BitVec 1 :=
  let arg2 : BitVec 32 := BitVec.ofNat 32 (i 2).val
  let c1_i32 : BitVec 32 := 1#32
  let v21 : BitVec 1 := Scalar.cmpi .eq arg2 c1_i32
  let v22 : BitVec 32 := Scalar.extui v21
  let c0_i32_15 : BitVec 32 := 0#32
  let v23 : BitVec 1 := Scalar.cmpi .ne v22 c0_i32_15
  v23

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, true]

abbrev stage3_3 : Fin 2 → Memref sig .tc .vmem S512x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![2, 4, 7], ![false, false, false]⟩

def k4_cond2 (i : grid4.Coords) : BitVec 1 :=
  let arg2 : BitVec 32 := BitVec.ofNat 32 (i 2).val
  let c6_i32 : BitVec 32 := 6#32
  let v13 : BitVec 1 := Scalar.cmpi .eq arg2 c6_i32
  let v14 : BitVec 32 := Scalar.extui v13
  let c0_i32_8 : BitVec 32 := 0#32
  let v15 : BitVec 1 := Scalar.cmpi .ne v14 c0_i32_8
  v15

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

class Facts₀ : Prop where
  shapeCasts_S2x1024x4096_S2048x4096 : S2x1024x4096.ShapeCasts S2048x4096
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  inb_S8x32_S8x32_0_0 : ∀ a, (![0, 0] : Fin 2 → Nat) a + S8x32.size a ≤ S8x32.size a
  h_S8x32 : 0 < S8x32.numel
  shapeCasts_S1024x4096_S8x128x32x128 : S1024x4096.ShapeCasts S8x128x32x128
  shapeCasts_S8x32_S8x1x32x1 : S8x32.ShapeCasts S8x1x32x1
  broadcasts_S8x1x32x1_S8x128x32x128 : S8x1x32x1.Broadcasts S8x128x32x128
  shapeCasts_S8x128x32x128_S1024x4096 : S8x128x32x128.ShapeCasts S1024x4096
  packedbf16_S1024x4096_S1024x4096_0_0 : (Rect.unit (s := S1024x4096) ![0, 0] S1024x4096.size inb_S1024x4096_S1024x4096_0_0).PackedRows (EltTy.packing .bf16)
  transposes_S32x112_S112x32_1_0 : S32x112.Transposes [1, 0] S112x32
  inb_S4096x1024_S4096x1024_0_0 : ∀ a, (![0, 0] : Fin 2 → Nat) a + S4096x1024.size a ≤ S4096x1024.size a
  h_S4096x1024 : 0 < S4096x1024.numel
  shapeCasts_S8x32_S8x32 : S8x32.ShapeCasts S8x32
  transposes_S8x32_p1_0_S32x8 : S8x32.Transposes [1, 0] S32x8
  shapeCasts_S4096x1024_S32x128x8x128 : S4096x1024.ShapeCasts S32x128x8x128
  shapeCasts_S32x8_S32x1x8x1 : S32x8.ShapeCasts S32x1x8x1
  broadcasts_S32x1x8x1_S32x128x8x128 : S32x1x8x1.Broadcasts S32x128x8x128
  shapeCasts_S32x128x8x128_S4096x1024 : S32x128x8x128.ShapeCasts S4096x1024
  packedbf16_S4096x1024_S4096x1024_0_0 : (Rect.unit (s := S4096x1024) ![0, 0] S4096x1024.size inb_S4096x1024_S4096x1024_0_0).PackedRows (EltTy.packing .bf16)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  packedbf16_S512x1024_S512x1024_0_0 : (Rect.unit (s := S512x1024) ![0, 0] S512x1024.size inb_S512x1024_S512x1024_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S2048x4096_S2x1024x4096 : S2048x4096.ShapeCasts S2x1024x4096
  dot_S512x2048_S1024x2048_S512x1024_1_1_0_0_n_n_wf : DotDims.WF S512x2048 S1024x2048 S512x1024 [1] [1] [0] [0] [] []
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S14336x4096.size a
  hwx0_0 : ∀ i : grid0.Coords, EltTy.bits .f32 = 32 ∨ (Rect.block (s := S14336x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x32.size a ≤ S112x32.size a
  hwx0_1 : ∀ i : grid0.Coords, EltTy.bits .f32 = 32 ∨ (Rect.block (s := S112x32) S8x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S14336x4096.size a
  hwx0_2 : ∀ i : grid0.Coords, EltTy.bits .bf16 = 32 ∨ (Rect.block (s := S14336x4096) S1024x4096.size (cc0_transform_2 i) (hinb0_2 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S14336x4096.size a
  hwx1_0 : ∀ i : grid1.Coords, EltTy.bits .f32 = 32 ∨ (Rect.block (s := S14336x4096) S1024x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x32.size a ≤ S112x32.size a
  hwx1_1 : ∀ i : grid1.Coords, EltTy.bits .f32 = 32 ∨ (Rect.block (s := S112x32) S8x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x4096.size a ≤ S14336x4096.size a
  hwx1_2 : ∀ i : grid1.Coords, EltTy.bits .bf16 = 32 ∨ (Rect.block (s := S14336x4096) S1024x4096.size (cc1_transform_2 i) (hinb1_2 i)).WholeWords (EltTy.packing .bf16)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S4096x1024.size a ≤ S4096x14336.size a
  hwx2_0 : ∀ i : grid2.Coords, EltTy.bits .f32 = 32 ∨ (Rect.block (s := S4096x14336) S4096x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8x32.size a ≤ S112x32.size a
  hwx2_1 : ∀ i : grid2.Coords, EltTy.bits .f32 = 32 ∨ (Rect.block (s := S112x32) S8x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x1024.size a ≤ S4096x14336.size a
  hwx2_2 : ∀ i : grid2.Coords, EltTy.bits .bf16 = 32 ∨ (Rect.block (s := S4096x14336) S4096x1024.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x2048.size a ≤ S2048x4096.size a
  hwx3_0 : ∀ i : grid3.Coords, EltTy.bits .bf16 = 32 ∨ (Rect.block (s := S2048x4096) S512x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x2048.size a ≤ S14336x4096.size a
  hwx3_1 : ∀ i : grid3.Coords, EltTy.bits .bf16 = 32 ∨ (Rect.block (s := S14336x4096) S1024x2048.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x2048.size a ≤ S14336x4096.size a
  hwx3_2 : ∀ i : grid3.Coords, EltTy.bits .bf16 = 32 ∨ (Rect.block (s := S14336x4096) S1024x2048.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x1024.size a ≤ S2048x14336.size a
  hwx3_3 : ∀ i : grid3.Coords, EltTy.bits .bf16 = 32 ∨ (Rect.block (s := S2048x14336) S512x1024.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x2048.size a ≤ S2048x14336.size a
  hwx4_0 : ∀ i : grid4.Coords, EltTy.bits .bf16 = 32 ∨ (Rect.block (s := S2048x14336) S1024x2048.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x2048.size a ≤ S4096x14336.size a
  hwx4_1 : ∀ i : grid4.Coords, EltTy.bits .bf16 = 32 ∨ (Rect.block (s := S4096x14336) S1024x2048.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x1024.size a ≤ S2048x4096.size a
  hwx4_2 : ∀ i : grid4.Coords, EltTy.bits .f32 = 32 ∨ (Rect.block (s := S2048x4096) S1024x1024.size (cc4_transform_2 i) (hinb4_2 i)).WholeWords (EltTy.packing .f32)

variable [Facts₀]

def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf
def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_arg1) S1024x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg3) S1024x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S8x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg5) S4096x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v4) S8x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S4096x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v1) S512x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S1024x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v3) S1024x2048.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v6) S512x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v6) S1024x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v5) S1024x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v7) S1024x1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S2x1024x4096 : Shape := ⟨3, ![2, 1024, 4096]⟩
abbrev S14336x4096 : Shape := ⟨2, ![14336, 4096]⟩
abbrev S112x32 : Shape := ⟨2, ![112, 32]⟩
abbrev S4096x14336 : Shape := ⟨2, ![4096, 14336]⟩
abbrev S32x112 : Shape := ⟨2, ![32, 112]⟩
abbrev S2048x4096 : Shape := ⟨2, ![2048, 4096]⟩
abbrev S2048x32x128 : Shape := ⟨3, ![2048, 32, 128]⟩
abbrev S_ : Shape := ⟨0, ![]⟩
abbrev S2048x32 : Shape := ⟨2, ![2048, 32]⟩
abbrev S2048x32x1 : Shape := ⟨3, ![2048, 32, 1]⟩
abbrev S112x128x32x128 : Shape := ⟨4, ![112, 128, 32, 128]⟩
abbrev S112x1x32x1 : Shape := ⟨4, ![112, 1, 32, 1]⟩
abbrev S2048x14336 : Shape := ⟨2, ![2048, 14336]⟩
abbrev S2048x112x128 : Shape := ⟨3, ![2048, 112, 128]⟩
abbrev S2048x112 : Shape := ⟨2, ![2048, 112]⟩
abbrev S2048x112x1 : Shape := ⟨3, ![2048, 112, 1]⟩
abbrev S32x128x112x128 : Shape := ⟨4, ![32, 128, 112, 128]⟩
abbrev S32x1x112x1 : Shape := ⟨4, ![32, 1, 112, 1]⟩

abbrev nBuf : Space → Nat
  | .hbm => 97
  | .vmem => 0
  | .smem => 0
  | _ => 0

abbrev bufTy : (tb : Table) → Fin (tcTables nBuf tb) → BufTy
  | .hbm, ⟨0, _⟩ => ⟨S2x1024x4096, .f32⟩
  | .hbm, ⟨1, _⟩ => ⟨S14336x4096, .f32⟩
  | .hbm, ⟨2, _⟩ => ⟨S112x32, .f32⟩
  | .hbm, ⟨3, _⟩ => ⟨S14336x4096, .f32⟩
  | .hbm, ⟨4, _⟩ => ⟨S112x32, .f32⟩
  | .hbm, ⟨5, _⟩ => ⟨S4096x14336, .f32⟩
  | .hbm, ⟨6, _⟩ => ⟨S32x112, .f32⟩
  | .hbm, ⟨7, _⟩ => ⟨S2048x4096, .f32⟩
  | .hbm, ⟨8, _⟩ => ⟨S2048x32x128, .f32⟩
  | .hbm, ⟨9, _⟩ => ⟨S2048x32x128, .f32⟩
  | .hbm, ⟨10, _⟩ => ⟨S_, .f32⟩
  | .hbm, ⟨11, _⟩ => ⟨S2048x32, .f32⟩
  | .hbm, ⟨12, _⟩ => ⟨S_, .f32⟩
  | .hbm, ⟨13, _⟩ => ⟨S2048x32, .f32⟩
  | .hbm, ⟨14, _⟩ => ⟨S2048x32, .f32⟩
  | .hbm, ⟨15, _⟩ => ⟨S_, .f32⟩
  | .hbm, ⟨16, _⟩ => ⟨S2048x32, .f32⟩
  | .hbm, ⟨17, _⟩ => ⟨S2048x32, .f32⟩
  | .hbm, ⟨18, _⟩ => ⟨S2048x32x1, .f32⟩
  | .hbm, ⟨19, _⟩ => ⟨S2048x32x128, .f32⟩
  | .hbm, ⟨20, _⟩ => ⟨S2048x32x128, .f32⟩
  | .hbm, ⟨21, _⟩ => ⟨S2048x4096, .f32⟩
  | .hbm, ⟨22, _⟩ => ⟨S2048x32x128, .f32⟩
  | .hbm, ⟨23, _⟩ => ⟨S2048x32x1, .f32⟩
  | .hbm, ⟨24, _⟩ => ⟨S2048x32x128, .f32⟩
  | .hbm, ⟨25, _⟩ => ⟨S2048x32x128, .f32⟩
  | .hbm, ⟨26, _⟩ => ⟨S2048x4096, .f32⟩
  | .hbm, ⟨27, _⟩ => ⟨S112x128x32x128, .f32⟩
  | .hbm, ⟨28, _⟩ => ⟨S112x1x32x1, .f32⟩
  | .hbm, ⟨29, _⟩ => ⟨S112x128x32x128, .f32⟩
  | .hbm, ⟨30, _⟩ => ⟨S112x128x32x128, .f32⟩
  | .hbm, ⟨31, _⟩ => ⟨S14336x4096, .f32⟩
  | .hbm, ⟨32, _⟩ => ⟨S4096x14336, .f32⟩
  | .hbm, ⟨33, _⟩ => ⟨S2048x14336, .f32⟩
  | .hbm, ⟨34, _⟩ => ⟨S2048x32x128, .f32⟩
  | .hbm, ⟨35, _⟩ => ⟨S2048x32x128, .f32⟩
  | .hbm, ⟨36, _⟩ => ⟨S_, .f32⟩
  | .hbm, ⟨37, _⟩ => ⟨S2048x32, .f32⟩
  | .hbm, ⟨38, _⟩ => ⟨S_, .f32⟩
  | .hbm, ⟨39, _⟩ => ⟨S2048x32, .f32⟩
  | .hbm, ⟨40, _⟩ => ⟨S2048x32, .f32⟩
  | .hbm, ⟨41, _⟩ => ⟨S_, .f32⟩
  | .hbm, ⟨42, _⟩ => ⟨S2048x32, .f32⟩
  | .hbm, ⟨43, _⟩ => ⟨S2048x32, .f32⟩
  | .hbm, ⟨44, _⟩ => ⟨S2048x32x1, .f32⟩
  | .hbm, ⟨45, _⟩ => ⟨S2048x32x128, .f32⟩
  | .hbm, ⟨46, _⟩ => ⟨S2048x32x128, .f32⟩
  | .hbm, ⟨47, _⟩ => ⟨S2048x4096, .f32⟩
  | .hbm, ⟨48, _⟩ => ⟨S2048x32x128, .f32⟩
  | .hbm, ⟨49, _⟩ => ⟨S2048x32x1, .f32⟩
  | .hbm, ⟨50, _⟩ => ⟨S2048x32x128, .f32⟩
  | .hbm, ⟨51, _⟩ => ⟨S2048x32x128, .f32⟩
  | .hbm, ⟨52, _⟩ => ⟨S2048x4096, .f32⟩
  | .hbm, ⟨53, _⟩ => ⟨S112x128x32x128, .f32⟩
  | .hbm, ⟨54, _⟩ => ⟨S112x1x32x1, .f32⟩
  | .hbm, ⟨55, _⟩ => ⟨S112x128x32x128, .f32⟩
  | .hbm, ⟨56, _⟩ => ⟨S112x128x32x128, .f32⟩
  | .hbm, ⟨57, _⟩ => ⟨S14336x4096, .f32⟩
  | .hbm, ⟨58, _⟩ => ⟨S4096x14336, .f32⟩
  | .hbm, ⟨59, _⟩ => ⟨S2048x14336, .f32⟩
  | .hbm, ⟨60, _⟩ => ⟨S2048x14336, .f32⟩
  | .hbm, ⟨61, _⟩ => ⟨S2048x14336, .f32⟩
  | .hbm, ⟨62, _⟩ => ⟨S_, .f32⟩
  | .hbm, ⟨63, _⟩ => ⟨S2048x14336, .f32⟩
  | .hbm, ⟨64, _⟩ => ⟨S2048x14336, .f32⟩
  | .hbm, ⟨65, _⟩ => ⟨S_, .f32⟩
  | .hbm, ⟨66, _⟩ => ⟨S2048x14336, .f32⟩
  | .hbm, ⟨67, _⟩ => ⟨S2048x14336, .f32⟩
  | .hbm, ⟨68, _⟩ => ⟨S2048x14336, .f32⟩
  | .hbm, ⟨69, _⟩ => ⟨S2048x14336, .f32⟩
  | .hbm, ⟨70, _⟩ => ⟨S2048x112x128, .f32⟩
  | .hbm, ⟨71, _⟩ => ⟨S2048x112x128, .f32⟩
  | .hbm, ⟨72, _⟩ => ⟨S_, .f32⟩
  | .hbm, ⟨73, _⟩ => ⟨S2048x112, .f32⟩
  | .hbm, ⟨74, _⟩ => ⟨S_, .f32⟩
  | .hbm, ⟨75, _⟩ => ⟨S2048x112, .f32⟩
  | .hbm, ⟨76, _⟩ => ⟨S2048x112, .f32⟩
  | .hbm, ⟨77, _⟩ => ⟨S_, .f32⟩
  | .hbm, ⟨78, _⟩ => ⟨S2048x112, .f32⟩
  | .hbm, ⟨79, _⟩ => ⟨S2048x112, .f32⟩
  | .hbm, ⟨80, _⟩ => ⟨S2048x112x1, .f32⟩
  | .hbm, ⟨81, _⟩ => ⟨S2048x112x128, .f32⟩
  | .hbm, ⟨82, _⟩ => ⟨S2048x112x128, .f32⟩
  | .hbm, ⟨83, _⟩ => ⟨S2048x14336, .f32⟩
  | .hbm, ⟨84, _⟩ => ⟨S2048x112x128, .f32⟩
  | .hbm, ⟨85, _⟩ => ⟨S2048x112x1, .f32⟩
  | .hbm, ⟨86, _⟩ => ⟨S2048x112x128, .f32⟩
  | .hbm, ⟨87, _⟩ => ⟨S2048x112x128, .f32⟩
  | .hbm, ⟨88, _⟩ => ⟨S2048x14336, .f32⟩
  | .hbm, ⟨89, _⟩ => ⟨S32x128x112x128, .f32⟩
  | .hbm, ⟨90, _⟩ => ⟨S32x1x112x1, .f32⟩
  | .hbm, ⟨91, _⟩ => ⟨S32x128x112x128, .f32⟩
  | .hbm, ⟨92, _⟩ => ⟨S32x128x112x128, .f32⟩
  | .hbm, ⟨93, _⟩ => ⟨S4096x14336, .f32⟩
  | .hbm, ⟨94, _⟩ => ⟨S14336x4096, .f32⟩
  | .hbm, ⟨95, _⟩ => ⟨S2048x4096, .f32⟩
  | .hbm, ⟨96, _⟩ => ⟨S2x1024x4096, .f32⟩
  | _, _ => ⟨S2x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_call0_v5 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_5 : Ref sig .tc := ⟨.hbm, 72, rfl⟩
abbrev main_v51 : Ref sig .tc := ⟨.hbm, 73, rfl⟩
abbrev main_cst_6 : Ref sig .tc := ⟨.hbm, 74, rfl⟩
abbrev main_v52 : Ref sig .tc := ⟨.hbm, 75, rfl⟩
abbrev main_v53 : Ref sig .tc := ⟨.hbm, 76, rfl⟩
abbrev main_cst_7 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩

abbrev nD : Nat := 1
abbrev τ : Topo := Topo.v7x

variable {F : FTy → Type} [FloatOps F]

class Facts₀ : Prop where
  shapeCasts_S2x1024x4096_S2048x4096 : S2x1024x4096.ShapeCasts S2048x4096
  shapeCasts_S2048x4096_S2048x32x128 : S2048x4096.ShapeCasts S2048x32x128
  reducesTo_S2048x32x128_S2048x32_d2 : S2048x32x128.ReducesTo [2] S2048x32
  h_S_ : 0 < S_.numel
  bcast_S_S2048x32 : S_.BroadcastsInDim S2048x32 (![] : Fin 0 → Fin S2048x32.rank)
  bcast_S2048x32_S2048x32x1_0_1 : S2048x32.BroadcastsInDim S2048x32x1 (![0, 1] : Fin 2 → Fin S2048x32x1.rank)
  bcast_S2048x32x1_S2048x32x128_0_1_2 : S2048x32x1.BroadcastsInDim S2048x32x128 (![0, 1, 2] : Fin 3 → Fin S2048x32x128.rank)
  shapeCasts_S2048x32x128_S2048x4096 : S2048x32x128.ShapeCasts S2048x4096
  shapeCasts_S14336x4096_S112x128x32x128 : S14336x4096.ShapeCasts S112x128x32x128
  bcast_S112x32_S112x1x32x1_0_2 : S112x32.BroadcastsInDim S112x1x32x1 (![0, 2] : Fin 2 → Fin S112x1x32x1.rank)
  bcast_S112x1x32x1_S112x128x32x128_0_1_2_3 : S112x1x32x1.BroadcastsInDim S112x128x32x128 (![0, 1, 2, 3] : Fin 4 → Fin S112x128x32x128.rank)
  shapeCasts_S112x128x32x128_S14336x4096 : S112x128x32x128.ShapeCasts S14336x4096
  transposes_S14336x4096_S4096x14336_1_0 : S14336x4096.Transposes [1, 0] S4096x14336
  bcast_S_S2048x14336 : S_.BroadcastsInDim S2048x14336 (![] : Fin 0 → Fin S2048x14336.rank)
  shapeCasts_S2048x14336_S2048x112x128 : S2048x14336.ShapeCasts S2048x112x128
  reducesTo_S2048x112x128_S2048x112_d2 : S2048x112x128.ReducesTo [2] S2048x112
  bcast_S_S2048x112 : S_.BroadcastsInDim S2048x112 (![] : Fin 0 → Fin S2048x112.rank)
  bcast_S2048x112_S2048x112x1_0_1 : S2048x112.BroadcastsInDim S2048x112x1 (![0, 1] : Fin 2 → Fin S2048x112x1.rank)
  bcast_S2048x112x1_S2048x112x128_0_1_2 : S2048x112x1.BroadcastsInDim S2048x112x128 (![0, 1, 2] : Fin 3 → Fin S2048x112x128.rank)
  shapeCasts_S2048x112x128_S2048x14336 : S2048x112x128.ShapeCasts S2048x14336
  shapeCasts_S4096x14336_S32x128x112x128 : S4096x14336.ShapeCasts S32x128x112x128
  bcast_S32x112_S32x1x112x1_0_2 : S32x112.BroadcastsInDim S32x1x112x1 (![0, 2] : Fin 2 → Fin S32x1x112x1.rank)
  bcast_S32x1x112x1_S32x128x112x128_0_1_2_3 : S32x1x112x1.BroadcastsInDim S32x128x112x128 (![0, 1, 2, 3] : Fin 4 → Fin S32x128x112x128.rank)
  shapeCasts_S32x128x112x128_S4096x14336 : S32x128x112x128.ShapeCasts S4096x14336
  transposes_S4096x14336_S14336x4096_1_0 : S4096x14336.Transposes [1, 0] S14336x4096
  shapeCasts_S2048x4096_S2x1024x4096 : S2048x4096.ShapeCasts S2x1024x4096
  dot_S2048x4096_S4096x14336_S2048x14336_1_0_0_1_n_n_wf : DotDims.WF S2048x4096 S4096x14336 S2048x14336 [1] [0] [0] [1] [] []
  dot_S2048x14336_S14336x4096_S2048x4096_1_0_0_1_n_n_wf : DotDims.WF S2048x14336 S14336x4096 S2048x4096 [1] [0] [0] [1] [] []

variable [Facts₀]

def dot_S2048x4096_S4096x14336_S2048x14336_1_0_0_1_n_n : DotDims S2048x4096 S4096x14336 S2048x14336 where
  lhsContracting := [1]
  rhsContracting := [0]
  lhsNonContracting := [0]
  rhsNonContracting := [1]
  lhsBatch := []
  rhsBatch := []
  wf := dot_S2048x4096_S4096x14336_S2048x14336_1_0_0_1_n_n_wf
def dot_S2048x14336_S14336x4096_S2048x4096_1_0_0_1_n_n : DotDims S2048x14336 S14336x4096 S2048x4096 where
  lhsContracting := [1]
  rhsContracting := [0]
  lhsNonContracting := [0]
  rhsNonContracting := [1]
  lhsBatch := []
  rhsBatch := []
  wf := dot_S2048x14336_S14336x4096_S2048x4096_1_0_0_1_n_n_wf

class Facts : Prop extends Facts₀ where

variable [Facts]
-- ==== Proof.K.R0.lean ====
/-
  Region 0: one weight matrix scaled block by block. At grid point t the body reads a 1024 × 4096 slab of the
  weights and the 8 × 32 tile of scales that belongs to it, multiplies every 128 × 128 block of the slab by its own
  scale, and stores the slab of products. Stated at the contents `V` the region is entered with: what each window's
  staging buffer holds after the body, the body's triple, the proof data and the obligation at a generic point.
-/
import proofs.«169556_j22153441312857_1_alg».proof.Proof.Gen.Kernel.Launch
import proofs.«169556_j22153441312857_1_alg».proof.Proof.Gen.Kernel.Skeleton
import proofs.«169556_j22153441312857_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight slab's staging buffer holds the slab of point `t` whenever the body runs there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The scale tile's staging buffer holds the tile of point `t` whenever the body runs there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-- The whole slab and the whole scale tile, as the rectangles the body loads and stores through. -/
abbrev rSlab0 : Rect S1024x4096 := Rect.unit (s := S1024x4096) ![0, 0] S1024x4096.size inb_S1024x4096_S1024x4096_0_0
abbrev rTile0 : Rect S8x32 := Rect.unit (s := S8x32) ![0, 0] S8x32.size inb_S8x32_S8x32_0_0

/-- What the body leaves in the output's staging buffer: its one store, the scaled slab computed from the loaded slab and tile. -/
def out0_2 (x0 : Vec F S1024x4096 .f32) (x1 : Vec F S8x32 .f32) : Vec F S1024x4096 .bf16 :=
  View.canon [⟨rSlab0, k0_pay1 (View.ld x0 rSlab0) (View.ld x1 rTile0)⟩]

/-- That one store writes the whole buffer. -/
theorem cover0_2 (p0 : Vec F S1024x4096 .bf16) (y : S1024x4096.Idx) :
    ∃ pc ∈ ([⟨rSlab0, p0⟩] : List (View.Piece (Elt F) S1024x4096 .bf16)), y ∈ pc.1.set :=
  View.cover_of_tiled [⟨rSlab0, p0⟩] S1024x4096.size (by rfl) y

set_option maxHeartbeats 2000000 in
/-- The body on whole staging buffers: with the slab buffer at `x0` and the tile buffer at `x1`, whatever the output's
    buffer held, it ends with both inputs as they were and the output's buffer at `out0_2 x0 x1`. -/
theorem sound_kernel0 (c : Dev nD) (E : Set ℕ) (i : grid0.Coords)
    (arg1 : Memref sig .tc .vmem S1024x4096 .f32) (harg1 : arg1.IsWhole) (arg2 : Memref sig .tc .vmem S8x32 .f32) (harg2 : arg2.IsWhole)
    (arg3 : Memref sig .tc .vmem S1024x4096 .bf16) (harg3 : arg3.IsWhole)
    (x0 : Vec F S1024x4096 .f32) (x1 : Vec F S8x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__dequant_body i arg1 harg1 arg2 harg2 arg3 harg3) K := by
  simp only [cc0__dequant_body_eq_skeleton]; unfold cc0__dequant_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

section
variable (V : (c : Dev nD) → (b : Ref sig .tc) → Buf (Elt F) ((c : Thread nD τ).loc b))

/-- The region's proof data on core `c`: the arrays as entered; after the body at point `t` the two inputs' buffers at
    their blocks and the output's at the scaled slab of those blocks; nothing carried between points, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and the core's
    dues pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch asks for, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.K.R1.lean ====
/-
  Region 1: one weight matrix scaled block by block. At grid point t the body reads a 1024 × 4096 slab of the
  weights and the 8 × 32 tile of scales that belongs to it, multiplies every 128 × 128 block of the slab by its own
  scale, and stores the slab of products. Stated at the contents `V` the region is entered with: what each window's
  staging buffer holds after the body, the body's triple, the proof data and the obligation at a generic point.
-/
import proofs.«169556_j22153441312857_1_alg».proof.Proof.Gen.Kernel.Launch
import proofs.«169556_j22153441312857_1_alg».proof.Proof.Gen.Kernel.Skeleton
import proofs.«169556_j22153441312857_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, cut out of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The weight slab's staging buffer holds the slab of point `t` whenever the body runs there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The scale tile's staging buffer holds the tile of point `t` whenever the body runs there. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-- The whole slab and the whole scale tile, as the rectangles the body loads and stores through. -/
abbrev rSlab1 : Rect S1024x4096 := Rect.unit (s := S1024x4096) ![0, 0] S1024x4096.size inb_S1024x4096_S1024x4096_0_0
abbrev rTile1 : Rect S8x32 := Rect.unit (s := S8x32) ![0, 0] S8x32.size inb_S8x32_S8x32_0_0

/-- What the body leaves in the output's staging buffer: its one store, the scaled slab computed from the loaded slab and tile. -/
def out1_2 (x0 : Vec F S1024x4096 .f32) (x1 : Vec F S8x32 .f32) : Vec F S1024x4096 .bf16 :=
  View.canon [⟨rSlab1, k1_pay1 (View.ld x0 rSlab1) (View.ld x1 rTile1)⟩]

/-- That one store writes the whole buffer. -/
theorem cover1_2 (p0 : Vec F S1024x4096 .bf16) (y : S1024x4096.Idx) :
    ∃ pc ∈ ([⟨rSlab1, p0⟩] : List (View.Piece (Elt F) S1024x4096 .bf16)), y ∈ pc.1.set :=
  View.cover_of_tiled [⟨rSlab1, p0⟩] S1024x4096.size (by rfl) y

set_option maxHeartbeats 2000000 in
/-- The body on whole staging buffers: with the slab buffer at `x0` and the tile buffer at `x1`, whatever the output's
    buffer held, it ends with both inputs as they were and the output's buffer at `out1_2 x0 x1`. -/
theorem sound_kernel1 (c : Dev nD) (E : Set ℕ) (i : grid1.Coords)
    (arg1 : Memref sig .tc .vmem S1024x4096 .f32) (harg1 : arg1.IsWhole) (arg2 : Memref sig .tc .vmem S8x32 .f32) (harg2 : arg2.IsWhole)
    (arg3 : Memref sig .tc .vmem S1024x4096 .bf16) (harg3 : arg3.IsWhole)
    (x0 : Vec F S1024x4096 .f32) (x1 : Vec F S8x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__dequant_body i arg1 harg1 arg2 harg2 arg3 harg3) K := by
  simp only [cc1__dequant_body_eq_skeleton]; unfold cc1__dequant_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

section
variable (V : (c : Dev nD) → (b : Ref sig .tc) → Buf (Elt F) ((c : Thread nD τ).loc b))

/-- The region's proof data on core `c`: the arrays as entered; after the body at point `t` the two inputs' buffers at
    their blocks and the output's at the scaled slab of those blocks; nothing carried between points, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the triple applies; the invariant and the core's
    dues pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch asks for, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.K.R2.lean ====
/-
  Region 2: one weight matrix scaled block by block. At grid point t the body reads a 4096 × 1024 slab of the
  weights and the 8 × 32 tile of scales that belongs to it, multiplies every 128 × 128 block of the slab by its own
  scale, and stores the slab of products. Stated at the contents `V` the region is entered with: what each window's
  staging buffer holds after the body, the body's triple, the proof data and the obligation at a generic point.
-/
import proofs.«169556_j22153441312857_1_alg».proof.Proof.Gen.Kernel.Launch
import proofs.«169556_j22153441312857_1_alg».proof.Proof.Gen.Kernel.Skeleton
import proofs.«169556_j22153441312857_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, cut out of its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The weight slab's staging buffer holds the slab of point `t` whenever the body runs there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The scale tile's staging buffer holds the tile of point `t` whenever the body runs there. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end

/-- The whole slab and the whole scale tile, as the rectangles the body loads and stores through. -/
abbrev rSlab2 : Rect S4096x1024 := Rect.unit (s := S4096x1024) ![0, 0] S4096x1024.size inb_S4096x1024_S4096x1024_0_0
abbrev rTile2 : Rect S8x32 := Rect.unit (s := S8x32) ![0, 0] S8x32.size inb_S8x32_S8x32_0_0

/-- What the body leaves in the output's staging buffer: its one store, the scaled slab computed from the loaded slab and tile. -/
def out2_2 (x0 : Vec F S4096x1024 .f32) (x1 : Vec F S8x32 .f32) : Vec F S4096x1024 .bf16 :=
  View.canon [⟨rSlab2, k2_pay1 (View.ld x0 rSlab2) (View.ld x1 rTile2)⟩]

/-- That one store writes the whole buffer. -/
theorem cover2_2 (p0 : Vec F S4096x1024 .bf16) (y : S4096x1024.Idx) :
    ∃ pc ∈ ([⟨rSlab2, p0⟩] : List (View.Piece (Elt F) S4096x1024 .bf16)), y ∈ pc.1.set :=
  View.cover_of_tiled [⟨rSlab2, p0⟩] S4096x1024.size (by rfl) y

set_option maxHeartbeats 2000000 in
/-- The body on whole staging buffers: with the slab buffer at `x0` and the tile buffer at `x1`, whatever the output's
    buffer held, it ends with both inputs as they were and the output's buffer at `out2_2 x0 x1`. -/
theorem sound_kernel2 (c : Dev nD) (E : Set ℕ) (i : grid2.Coords)
    (arg1 : Memref sig .tc .vmem S4096x1024 .f32) (harg1 : arg1.IsWhole) (arg2 : Memref sig .tc .vmem S8x32 .f32) (harg2 : arg2.IsWhole)
    (arg3 : Memref sig .tc .vmem S4096x1024 .bf16) (harg3 : arg3.IsWhole)
    (x0 : Vec F S4096x1024 .f32) (x1 : Vec F S8x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__dequant_body i arg1 harg1 arg2 harg2 arg3 harg3) K := by
  simp only [cc2__dequant_body_eq_skeleton]; unfold cc2__dequant_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

section
variable (V : (c : Dev nD) → (b : Ref sig .tc) → Buf (Elt F) ((c : Thread nD τ).loc b))

/-- The region's proof data on core `c`: the arrays as entered; after the body at point `t` the two inputs' buffers at
    their blocks and the output's at the scaled slab of those blocks; nothing carried between points, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the triple applies; the invariant and the core's
    dues pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch asks for, at every point. -/
theorem body_obligation2 (c : Dev nD) : BodyObligation (dat2 (F := F) V c) (defs₀ (F := F)) Variants.none () Set.univ := fun t => by
  rw [bigSep_W2, bigSep_W2]
  exact sound_body2 V c t

end

end Cert.Kernel.Hand

end
-- ==== Proof.K.R3.lean ====
/-
  Region 3: the gated product h = (g · logistic g) · u with g = x·w1ᵀ and u = x·w3ᵀ. The grid is 4 × 14 × 2 and the
  last axis splits the contraction in two halves of 2048: at a point whose last coordinate is 0 the two accumulators
  are cleared and the first half's products are added; at a point whose last coordinate is 1 the second half's
  products are added and the gated product of the two sums is stored into the output block. The accumulators are
  the kernel's own buffers and are carried from the even point to the odd point after it. Stated at the contents
  `V` the region is entered with: what the output's staging buffer and the two accumulators hold after each point,
  the body's triple in each of the two cases, the proof data, the obligation at a generic point.
-/
import proofs.«169556_j22153441312857_1_alg».proof.Proof.Gen.Kernel.Launch
import proofs.«169556_j22153441312857_1_alg».proof.Proof.Gen.Kernel.Skeleton
import proofs.«169556_j22153441312857_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, cut out of its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The activations' staging buffer holds the block of point `t` whenever the body runs there. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The first weight's staging buffer holds the block of point `t` whenever the body runs there. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The second weight's staging buffer holds the block of point `t` whenever the body runs there. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

end

/-! ## The two branches, decided by the parity of the point -/

/-- The body clears the accumulators exactly when the last grid coordinate is 0, -/
abbrev zeroing3 (i : grid3.Coords) : Prop :=
  (Scalar.cmpi .ne (Scalar.extui (Scalar.cmpi .eq (BitVec.ofNat 32 (i 2).val) 0#32)) 0#32) = 1#1
/-- that is at the even points; -/
theorem zeroing3_iff : ∀ t : Fin cfg3.N, zeroing3 (grid3.coords t) ↔ t.val % 2 = 0 :=
  (by decide +kernel : ∀ t : Fin grid3.N, zeroing3 (grid3.coords t) ↔ t.val % 2 = 0)

/-- it stores the output block exactly when the last grid coordinate is 1, -/
abbrev storing3 (i : grid3.Coords) : Prop := k3_cond2 i = 1#1
/-- that is at the odd points. -/
theorem storing3_iff : ∀ t : Fin cfg3.N, storing3 (grid3.coords t) ↔ t.val % 2 = 1 :=
  (by decide +kernel : ∀ t : Fin grid3.N, storing3 (grid3.coords t) ↔ t.val % 2 = 1)

theorem not_storing3_of_even (t : Fin cfg3.N) (h : t.val % 2 = 0) : ¬storing3 (grid3.coords t) :=
  fun hs => by have := (storing3_iff t).mp hs; omega
theorem not_zeroing3_of_odd (t : Fin cfg3.N) (h : t.val % 2 = 1) : ¬zeroing3 (grid3.coords t) :=
  fun hz => by have := (zeroing3_iff t).mp hz; omega

/-- The three inputs are read at every point. -/
theorem live3_0 (t : Fin cfg3.N) : cfg3.idle 0 (grid3.coords t) = false := rfl
theorem live3_1 (t : Fin cfg3.N) : cfg3.idle 1 (grid3.coords t) = false := rfl
theorem live3_2 (t : Fin cfg3.N) : cfg3.idle 2 (grid3.coords t) = false := rfl
/-- At an even point nothing is stored into the output block, and the block is not written back; -/
theorem idle3_3_even : ∀ t : Fin cfg3.N, t.val % 2 = 0 → cfg3.idle 3 (grid3.coords t) = true :=
  (by decide +kernel : ∀ t : Fin grid3.N, t.val % 2 = 0 → idle3 3 (grid3.coords t) = true)
theorem noFlush3_3_even (t : Fin cfg3.N) (h : t.val % 2 = 0) : (cfg3.win 3).flush t = false := by
  cases hf : (cfg3.win 3).flush t with
  | false => rfl
  | true => have := (flush3_3 t).mp hf; omega
/-- at an odd point it is stored. -/
theorem live3_3_odd : ∀ t : Fin cfg3.N, t.val % 2 = 1 → cfg3.idle 3 (grid3.coords t) = false :=
  (by decide +kernel : ∀ t : Fin grid3.N, t.val % 2 = 1 → idle3 3 (grid3.coords t) = false)

/-! ## The staging buffers at a point, the accumulators, and the invariant the launch hands over -/

abbrev ms3_0 (t : Fin cfg3.N) : Memref sig .tc .vmem S512x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x2048 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x2048 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S512x1024 .bf16 := win3_3.stage (cfg3.slots t 3)
abbrev hs3_3 (t : Fin cfg3.N) : (ms3_3 t).IsWhole := hstage3_3 ((cfg3.slots t 3).cast nbuf3_3)

/-- The accumulator of x·w1ᵀ and the accumulator of x·w3ᵀ: whole buffers of the kernel's own. -/
abbrev accG3 : Memref sig .tc .vmem S512x1024 .f32 := Memref.whole cc3_scratch0
abbrev accU3 : Memref sig .tc .vmem S512x1024 .f32 := Memref.whole cc3_scratch1

/-- Every other scoped buffer of the core that is no staging buffer of this region, at some contents each. -/
def others3 (c : Dev nD) : sProp 𝕄 :=
  Pipeline.scopedRestBut (Ix := Unit) (Name := ℕ) (U := UR sig nD τ) (Lvl := ℕ) (Val := Elt F) spec3 c [cc3_scratch0, cc3_scratch1]

/-- What the launch hands the region, with the two accumulators taken out of the scoped rest and owned as memrefs. -/
theorem PhiA3_eq (c : Dev nD) :
    (Pipeline.ΦA spec3 c : sProp 𝕄)
      = iprop((((∃ d, owns (c : Thread nD τ) accG3 fullShare d) ∗ (∃ d, owns (c : Thread nD τ) accU3 fullShare d)) ∗ others3 c)
          ∗ (∃ r, prngReg c r)) := by
  unfold Pipeline.ΦA others3
  rw [Pipeline.scopedRest_split_of_list spec3 c [cc3_scratch0, cc3_scratch1] (by decide) (by decide)]
  simp only [accG3, accU3, owns_whole, bigSepL_cons_cons, bigSepL_singleton]; try rfl

/-- The zero offsets of a load or store through a whole 512 × 1024 buffer. -/
theorem zeroOff3 : (![0, 0] : Fin S512x1024.rank → ℕ) = fun _ => 0 := by
  funext a; fin_cases a <;> rfl
theorem zeroOff3x : (![0, 0] : Fin S512x2048.rank → ℕ) = fun _ => 0 := by
  funext a; fin_cases a <;> rfl
theorem zeroOff3w : (![0, 0] : Fin S1024x2048.rank → ℕ) = fun _ => 0 := by
  funext a; fin_cases a <;> rfl

/-! ## The body on whole buffers, case by case

Each case's run of the body also FINDS, as lists of written pieces (last first), what the body's stores leave in the
buffers it writes: the lists are fixed when the run hands each buffer to the continuation. -/

set_option maxHeartbeats 4000000 in
/-- AT AN EVEN POINT (the accumulators are cleared, the output block is left alone): with the three inputs' buffers
    at `x0`, `x1`, `x2`, the output's at any `xi` and the accumulators at anything, the body ends with the inputs and
    the output's buffer as they were and each accumulator with its pieces written. -/
noncomputable def kernelRun3_E (c : Dev nD) (i : grid3.Coords)
    (arg3 : Memref sig .tc .vmem S512x2048 .bf16) (harg3 : arg3.IsWhole) (arg4 : Memref sig .tc .vmem S1024x2048 .bf16) (harg4 : arg4.IsWhole)
    (arg5 : Memref sig .tc .vmem S1024x2048 .bf16) (harg5 : arg5.IsWhole) (arg6 : Memref sig .tc .vmem S512x1024 .bf16) (harg6 : arg6.IsWhole)
    (arg7 : Memref sig .tc .vmem S512x1024 .f32) (harg7 : arg7.IsWhole) (arg8 : Memref sig .tc .vmem S512x1024 .f32) (harg8 : arg8.IsWhole)
    (hc0 : zeroing3 i) (hc1 : ¬storing3 i)
    (x0 : Vec F S512x2048 .bf16) (x1 : Vec F S1024x2048 .bf16) (x2 : Vec F S1024x2048 .bf16) :
    Σ' (LG : List (View.Piece (Elt F) S512x1024 .f32)), { LU : List (View.Piece (Elt F) S512x1024 .f32) //
      ∀ (xi : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi
                ∗ (∃ f, arg7.view.loc (c : Thread nD τ) ↦[arg7.view.set]{fullShare} arg7.view.writes (Elt F) f LG)
                ∗ (∃ f, arg8.view.loc (c : Thread nD τ) ↦[arg8.view.set]{fullShare} arg8.view.writes (Elt F) f LU)) -∗ K ⟨⟩))
          ⊢ wp frame (wpE (defs₀ (F := F)) Variants.none c none) E (cc3__gated_body i arg3 harg3 arg4 harg4 arg5 harg5 arg6 harg6 arg7 harg7 arg8 harg8) K } := by
  refine ⟨?_, ?_, fun xi E K => ?run⟩
  case run =>
    simp only [cc3__gated_body_eq_skeleton]; unfold cc3__gated_body_skel
    unfold owns
    iintro ⟨⟨%f0, %hf0, H0⟩, ⟨%f1, %hf1, H1⟩, ⟨%f2, %hf2, H2⟩, ⟨%f3, %hf3, H3⟩, ⟨%dg, %fg, -, HG⟩, ⟨%du, %fu, -, HU⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HG]; · iexists _; iexact HG
    iexists _; iexact HU

set_option maxHeartbeats 4000000 in
/-- AT AN ODD POINT (nothing is cleared, the output block is stored): with the three inputs' buffers at `x0`, `x1`,
    `x2`, the accumulators at `g` and `u` and the output's buffer at anything, the body ends with the inputs as they
    were and the output's buffer and each accumulator with its pieces written. -/
noncomputable def kernelRun3_O (c : Dev nD) (i : grid3.Coords)
    (arg3 : Memref sig .tc .vmem S512x2048 .bf16) (harg3 : arg3.IsWhole) (arg4 : Memref sig .tc .vmem S1024x2048 .bf16) (harg4 : arg4.IsWhole)
    (arg5 : Memref sig .tc .vmem S1024x2048 .bf16) (harg5 : arg5.IsWhole) (arg6 : Memref sig .tc .vmem S512x1024 .bf16) (harg6 : arg6.IsWhole)
    (arg7 : Memref sig .tc .vmem S512x1024 .f32) (harg7 : arg7.IsWhole) (arg8 : Memref sig .tc .vmem S512x1024 .f32) (harg8 : arg8.IsWhole)
    (hc0 : ¬zeroing3 i) (hc1 : storing3 i)
    (x0 : Vec F S512x2048 .bf16) (x1 : Vec F S1024x2048 .bf16) (x2 : Vec F S1024x2048 .bf16)
    (g : Vec F S512x1024 .f32) (u : Vec F S512x1024 .f32) :
    Σ' (LH : List (View.Piece (Elt F) S512x1024 .bf16)) (LG : List (View.Piece (Elt F) S512x1024 .f32)), { LU : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare g ∗ owns (c : Thread nD τ) arg8 fullShare u
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f LH)
                ∗ (∃ f, arg7.view.loc (c : Thread nD τ) ↦[arg7.view.set]{fullShare} arg7.view.writes (Elt F) f LG)
                ∗ (∃ f, arg8.view.loc (c : Thread nD τ) ↦[arg8.view.set]{fullShare} arg8.view.writes (Elt F) f LU)) -∗ K ⟨⟩))
          ⊢ wp frame (wpE (defs₀ (F := F)) Variants.none c none) E (cc3__gated_body i arg3 harg3 arg4 harg4 arg5 harg5 arg6 harg6 arg7 harg7 arg8 harg8) K } := by
  refine ⟨?_, ?_, ?_, fun E K => ?run⟩
  case run =>
    simp only [cc3__gated_body_eq_skeleton]; unfold cc3__gated_body_skel
    unfold owns
    iintro ⟨⟨%f0, %hf0, H0⟩, ⟨%f1, %hf1, H1⟩, ⟨%f2, %hf2, H2⟩, ⟨%d3, %f3, -, H3⟩, ⟨%fg, %hfg, HG⟩, ⟨%fu, %hfu, HU⟩, Hk⟩
    obtain rfl := harg3.eq_unread hf0; obtain rfl := harg4.eq_unread hf1; obtain rfl := harg5.eq_unread hf2
    obtain rfl := harg7.eq_unread hfg; obtain rfl := harg8.eq_unread hfu
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HG]; · iexists _; iexact HG
    iexists _; iexact HU

/-! ## What each case's pieces amount to -/

section pieces
variable (c : Dev nD) (i : grid3.Coords)
    (arg3 : Memref sig .tc .vmem S512x2048 .bf16) (harg3 : arg3.IsWhole) (arg4 : Memref sig .tc .vmem S1024x2048 .bf16) (harg4 : arg4.IsWhole)
    (arg5 : Memref sig .tc .vmem S1024x2048 .bf16) (harg5 : arg5.IsWhole) (arg6 : Memref sig .tc .vmem S512x1024 .bf16) (harg6 : arg6.IsWhole)
    (arg7 : Memref sig .tc .vmem S512x1024 .f32) (harg7 : arg7.IsWhole) (arg8 : Memref sig .tc .vmem S512x1024 .f32) (harg8 : arg8.IsWhole)

/-- Each list of pieces tiles its buffer: one whole-buffer store is the last write in it. -/
theorem coverE_G (hc0 : zeroing3 i) (hc1 : ¬storing3 i) (x0 : Vec F S512x2048 .bf16) (x1 : Vec F S1024x2048 .bf16) (x2 : Vec F S1024x2048 .bf16)
    (y : S512x1024.Idx) : ∃ pc ∈ (kernelRun3_E c i arg3 harg3 arg4 harg4 arg5 harg5 arg6 harg6 arg7 harg7 arg8 harg8 hc0 hc1 x0 x1 x2).1, y ∈ pc.1.set :=
  View.cover_of_tiledL (kernelRun3_E c i arg3 harg3 arg4 harg4 arg5 harg5 arg6 harg6 arg7 harg7 arg8 harg8 hc0 hc1 x0 x1 x2).1 S512x1024.size (by sl_kernel_rfl) y
theorem coverE_U (hc0 : zeroing3 i) (hc1 : ¬storing3 i) (x0 : Vec F S512x2048 .bf16) (x1 : Vec F S1024x2048 .bf16) (x2 : Vec F S1024x2048 .bf16)
    (y : S512x1024.Idx) : ∃ pc ∈ (kernelRun3_E c i arg3 harg3 arg4 harg4 arg5 harg5 arg6 harg6 arg7 harg7 arg8 harg8 hc0 hc1 x0 x1 x2).2.1, y ∈ pc.1.set :=
  View.cover_of_tiledL (kernelRun3_E c i arg3 harg3 arg4 harg4 arg5 harg5 arg6 harg6 arg7 harg7 arg8 harg8 hc0 hc1 x0 x1 x2).2.1 S512x1024.size (by sl_kernel_rfl) y
theorem coverO_H (hc0 : ¬zeroing3 i) (hc1 : storing3 i) (x0 : Vec F S512x2048 .bf16) (x1 : Vec F S1024x2048 .bf16) (x2 : Vec F S1024x2048 .bf16)
    (g u : Vec F S512x1024 .f32) (y : S512x1024.Idx) : ∃ pc ∈ (kernelRun3_O c i arg3 harg3 arg4 harg4 arg5 harg5 arg6 harg6 arg7 harg7 arg8 harg8 hc0 hc1 x0 x1 x2 g u).1, y ∈ pc.1.set :=
  View.cover_of_tiledL (kernelRun3_O c i arg3 harg3 arg4 harg4 arg5 harg5 arg6 harg6 arg7 harg7 arg8 harg8 hc0 hc1 x0 x1 x2 g u).1 S512x1024.size (by sl_kernel_rfl) y
theorem coverO_G (hc0 : ¬zeroing3 i) (hc1 : storing3 i) (x0 : Vec F S512x2048 .bf16) (x1 : Vec F S1024x2048 .bf16) (x2 : Vec F S1024x2048 .bf16)
    (g u : Vec F S512x1024 .f32) (y : S512x1024.Idx) : ∃ pc ∈ (kernelRun3_O c i arg3 harg3 arg4 harg4 arg5 harg5 arg6 harg6 arg7 harg7 arg8 harg8 hc0 hc1 x0 x1 x2 g u).2.1, y ∈ pc.1.set :=
  View.cover_of_tiledL (kernelRun3_O c i arg3 harg3 arg4 harg4 arg5 harg5 arg6 harg6 arg7 harg7 arg8 harg8 hc0 hc1 x0 x1 x2 g u).2.1 S512x1024.size (by sl_kernel_rfl) y
theorem coverO_U (hc0 : ¬zeroing3 i) (hc1 : storing3 i) (x0 : Vec F S512x2048 .bf16) (x1 : Vec F S1024x2048 .bf16) (x2 : Vec F S1024x2048 .bf16)
    (g u : Vec F S512x1024 .f32) (y : S512x1024.Idx) : ∃ pc ∈ (kernelRun3_O c i arg3 harg3 arg4 harg4 arg5 harg5 arg6 harg6 arg7 harg7 arg8 harg8 hc0 hc1 x0 x1 x2 g u).2.2.1, y ∈ pc.1.set :=
  View.cover_of_tiledL (kernelRun3_O c i arg3 harg3 arg4 harg4 arg5 harg5 arg6 harg6 arg7 harg7 arg8 harg8 hc0 hc1 x0 x1 x2 g u).2.2.1 S512x1024.size (by sl_kernel_rfl) y

/-- At an even point the first accumulator ends at the first half's products added to zero, -/
theorem leftE_G (hc0 : zeroing3 i) (hc1 : ¬storing3 i) (x0 : Vec F S512x2048 .bf16) (x1 : Vec F S1024x2048 .bf16) (x2 : Vec F S1024x2048 .bf16)
    (v : View sig .tc .vmem S512x1024 .f32) (f : v.ty.Contents (Elt F)) :
    v.read (Elt F) (v.writes (Elt F) f (kernelRun3_E c i arg3 harg3 arg4 harg4 arg5 harg5 arg6 harg6 arg7 harg7 arg8 harg8 hc0 hc1 x0 x1 x2).1) = k3_pay4 x0 x1 (k3_pay1 (F := F)) := by
  rw [View.read_writes_eq_canon _ _ _ (coverE_G c i arg3 harg3 arg4 harg4 arg5 harg5 arg6 harg6 arg7 harg7 arg8 harg8 hc0 hc1 x0 x1 x2)]
  unfold kernelRun3_E; dsimp only; sl_unfold_words
  rw [View.canon_cons_unit_zero (S := S512x1024) zeroOff3, View.readCov_unit_zero (S := S512x1024) _ zeroOff3]
  simp only [View.readAt_eq_ld, harg3.read_unread, harg4.read_unread, harg5.read_unread, View.ld_unit_zero (S := S512x2048) zeroOff3x, View.ld_unit_zero (S := S1024x2048) zeroOff3w]
/-- and the second likewise. -/
theorem leftE_U (hc0 : zeroing3 i) (hc1 : ¬storing3 i) (x0 : Vec F S512x2048 .bf16) (x1 : Vec F S1024x2048 .bf16) (x2 : Vec F S1024x2048 .bf16)
    (v : View sig .tc .vmem S512x1024 .f32) (f : v.ty.Contents (Elt F)) :
    v.read (Elt F) (v.writes (Elt F) f (kernelRun3_E c i arg3 harg3 arg4 harg4 arg5 harg5 arg6 harg6 arg7 harg7 arg8 harg8 hc0 hc1 x0 x1 x2).2.1) = k3_pay5 x0 x2 (k3_pay2 (F := F)) := by
  rw [View.read_writes_eq_canon _ _ _ (coverE_U c i arg3 harg3 arg4 harg4 arg5 harg5 arg6 harg6 arg7 harg7 arg8 harg8 hc0 hc1 x0 x1 x2)]
  unfold kernelRun3_E; dsimp only; sl_unfold_words
  rw [View.canon_cons_unit_zero (S := S512x1024) zeroOff3, View.readCov_unit_zero (S := S512x1024) _ zeroOff3]
  simp only [View.readAt_eq_ld, harg3.read_unread, harg4.read_unread, harg5.read_unread, View.ld_unit_zero (S := S512x2048) zeroOff3x, View.ld_unit_zero (S := S1024x2048) zeroOff3w]

/-- At an odd point each accumulator ends at the second half's products added to what it held, -/
theorem leftO_G (hc0 : ¬zeroing3 i) (hc1 : storing3 i) (x0 : Vec F S512x2048 .bf16) (x1 : Vec F S1024x2048 .bf16) (x2 : Vec F S1024x2048 .bf16)
    (g u : Vec F S512x1024 .f32) (v : View sig .tc .vmem S512x1024 .f32) (f : v.ty.Contents (Elt F)) :
    v.read (Elt F) (v.writes (Elt F) f (kernelRun3_O c i arg3 harg3 arg4 harg4 arg5 harg5 arg6 harg6 arg7 harg7 arg8 harg8 hc0 hc1 x0 x1 x2 g u).2.1) = k3_pay4 x0 x1 g := by
  rw [View.read_writes_eq_canon _ _ _ (coverO_G c i arg3 harg3 arg4 harg4 arg5 harg5 arg6 harg6 arg7 harg7 arg8 harg8 hc0 hc1 x0 x1 x2 g u)]
  unfold kernelRun3_O; dsimp only; sl_unfold_words
  rw [View.canon_unit_zero (S := S512x1024) zeroOff3]
  simp only [View.readAt_eq_ld, harg3.read_unread, harg4.read_unread, harg5.read_unread, harg7.read_unread, harg8.read_unread, View.ld_unit_zero (S := S512x2048) zeroOff3x, View.ld_unit_zero (S := S1024x2048) zeroOff3w, View.ld_unit_zero (S := S512x1024) zeroOff3]
theorem leftO_U (hc0 : ¬zeroing3 i) (hc1 : storing3 i) (x0 : Vec F S512x2048 .bf16) (x1 : Vec F S1024x2048 .bf16) (x2 : Vec F S1024x2048 .bf16)
    (g u : Vec F S512x1024 .f32) (v : View sig .tc .vmem S512x1024 .f32) (f : v.ty.Contents (Elt F)) :
    v.read (Elt F) (v.writes (Elt F) f (kernelRun3_O c i arg3 harg3 arg4 harg4 arg5 harg5 arg6 harg6 arg7 harg7 arg8 harg8 hc0 hc1 x0 x1 x2 g u).2.2.1) = k3_pay5 x0 x2 u := by
  rw [View.read_writes_eq_canon _ _ _ (coverO_U c i arg3 harg3 arg4 harg4 arg5 harg5 arg6 harg6 arg7 harg7 arg8 harg8 hc0 hc1 x0 x1 x2 g u)]
  unfold kernelRun3_O; dsimp only; sl_unfold_words
  rw [View.canon_unit_zero (S := S512x1024) zeroOff3]
  simp only [View.readAt_eq_ld, harg3.read_unread, harg4.read_unread, harg5.read_unread, harg7.read_unread, harg8.read_unread, View.ld_unit_zero (S := S512x2048) zeroOff3x, View.ld_unit_zero (S := S1024x2048) zeroOff3w, View.ld_unit_zero (S := S512x1024) zeroOff3]
/-- and the output's buffer at the gated product of the two sums just stored. -/
theorem leftO_H (hc0 : ¬zeroing3 i) (hc1 : storing3 i) (x0 : Vec F S512x2048 .bf16) (x1 : Vec F S1024x2048 .bf16) (x2 : Vec F S1024x2048 .bf16)
    (g u : Vec F S512x1024 .f32) (v : View sig .tc .vmem S512x1024 .bf16) (f : v.ty.Contents (Elt F)) :
    v.read (Elt F) (v.writes (Elt F) f (kernelRun3_O c i arg3 harg3 arg4 harg4 arg5 harg5 arg6 harg6 arg7 harg7 arg8 harg8 hc0 hc1 x0 x1 x2 g u).1) = k3_pay6 (k3_pay4 x0 x1 g) (k3_pay5 x0 x2 u) := by
  rw [View.read_writes_eq_canon _ _ _ (coverO_H c i arg3 harg3 arg4 harg4 arg5 harg5 arg6 harg6 arg7 harg7 arg8 harg8 hc0 hc1 x0 x1 x2 g u)]
  unfold kernelRun3_O; dsimp only; sl_unfold_words
  rw [View.canon_unit_zero (S := S512x1024) zeroOff3]
  simp only [View.readAt_eq_ld, View.readCov_unit_zero (S := S512x1024) _ zeroOff3, harg3.read_unread, harg4.read_unread, harg5.read_unread, harg7.read_unread, harg8.read_unread, View.ld_unit_zero (S := S512x2048) zeroOff3x, View.ld_unit_zero (S := S1024x2048) zeroOff3w, View.ld_unit_zero (S := S512x1024) zeroOff3]

end pieces

section
variable (V : (c : Dev nD) → (b : Ref sig .tc) → Buf (Elt F) ((c : Thread nD τ).loc b))

/-! ## What the output's buffer and the accumulators hold after each point -/

/-- Where the output's buffer is left alone its contents are never consulted: any value will do. -/
def untouched3 : Vec F S512x1024 .bf16 := View.canon []

/-- After an even point: the output's buffer untouched, each accumulator at the first half's products over zero. -/
def evenAt3 (c : Dev nD) (t : Fin cfg3.N) : Vec F S512x1024 .bf16 × Vec F S512x1024 .f32 × Vec F S512x1024 .f32 :=
  (untouched3, k3_pay4 (iblk3 V c 0 t) (iblk3 V c 1 t) (k3_pay1 (F := F)), k3_pay5 (iblk3 V c 0 t) (iblk3 V c 2 t) (k3_pay2 (F := F)))

/-- After an odd point that found the accumulators at `g` and `u`: each accumulator with the second half's products
    added, and the output's buffer at the gated product of the two. -/
def oddAt3 (c : Dev nD) (t : Fin cfg3.N) (g u : Vec F S512x1024 .f32) : Vec F S512x1024 .bf16 × Vec F S512x1024 .f32 × Vec F S512x1024 .f32 :=
  (k3_pay6 (k3_pay4 (iblk3 V c 0 t) (iblk3 V c 1 t) g) (k3_pay5 (iblk3 V c 0 t) (iblk3 V c 2 t) u),
    k3_pay4 (iblk3 V c 0 t) (iblk3 V c 1 t) g, k3_pay5 (iblk3 V c 0 t) (iblk3 V c 2 t) u)

/-- THE ACCUMULATION, point by point: (the output's staging buffer, the accumulator of x·w1ᵀ, the accumulator of x·w3ᵀ)
    after the body at position `n`. An even point starts afresh; an odd point continues from the point before it. -/
def outsAt3 (c : Dev nD) : (n : ℕ) → n < cfg3.N → Vec F S512x1024 .bf16 × Vec F S512x1024 .f32 × Vec F S512x1024 .f32
  | 0, hn => evenAt3 V c ⟨0, hn⟩
  | n + 1, hn =>
    if (n + 1) % 2 = 0 then evenAt3 V c ⟨n + 1, hn⟩
    else oddAt3 V c ⟨n + 1, hn⟩ (outsAt3 c n (Nat.lt_of_succ_lt hn)).2.1 (outsAt3 c n (Nat.lt_of_succ_lt hn)).2.2

theorem outsAt3_even (c : Dev nD) (t : Fin cfg3.N) (h : t.val % 2 = 0) : outsAt3 V c t.val t.isLt = evenAt3 V c t := by
  obtain ⟨n, hn⟩ := t
  cases n with
  | zero => rfl
  | succ n => exact if_pos h

theorem outsAt3_odd (c : Dev nD) (t : Fin cfg3.N) (h : t.val % 2 = 1) :
    outsAt3 V c t.val t.isLt = oddAt3 V c t (outsAt3 V c (t.val - 1) (Nat.lt_of_le_of_lt (Nat.sub_le _ _) t.isLt)).2.1
      (outsAt3 V c (t.val - 1) (Nat.lt_of_le_of_lt (Nat.sub_le _ _) t.isLt)).2.2 := by
  obtain ⟨n, hn⟩ := t
  cases n with
  | zero => exact absurd h (show ¬((0 : ℕ) % 2 = 1) from by decide)
  | succ n => exact if_neg (by (try dsimp only at h); omega)

/-! ## The accumulation read at each parity -/

theorem g3_even (c : Dev nD) (t : Fin cfg3.N) (h : t.val % 2 = 0) :
    (outsAt3 V c t.val t.isLt).2.1 = k3_pay4 (iblk3 V c 0 t) (iblk3 V c 1 t) (k3_pay1 (F := F)) := by
  rw [outsAt3_even V c t h]; rfl
theorem u3_even (c : Dev nD) (t : Fin cfg3.N) (h : t.val % 2 = 0) :
    (outsAt3 V c t.val t.isLt).2.2 = k3_pay5 (iblk3 V c 0 t) (iblk3 V c 2 t) (k3_pay2 (F := F)) := by
  rw [outsAt3_even V c t h]; rfl
theorem g3_odd (c : Dev nD) (t : Fin cfg3.N) (h : t.val % 2 = 1) :
    (outsAt3 V c t.val t.isLt).2.1 = k3_pay4 (iblk3 V c 0 t) (iblk3 V c 1 t) (outsAt3 V c (t.val - 1) (by omega)).2.1 := by
  rw [outsAt3_odd V c t h]; rfl
theorem u3_odd (c : Dev nD) (t : Fin cfg3.N) (h : t.val % 2 = 1) :
    (outsAt3 V c t.val t.isLt).2.2 = k3_pay5 (iblk3 V c 0 t) (iblk3 V c 2 t) (outsAt3 V c (t.val - 1) (by omega)).2.2 := by
  rw [outsAt3_odd V c t h]; rfl
theorem h3_odd (c : Dev nD) (t : Fin cfg3.N) (h : t.val % 2 = 1) :
    (outsAt3 V c t.val t.isLt).1 = k3_pay6 (outsAt3 V c t.val t.isLt).2.1 (outsAt3 V c t.val t.isLt).2.2 := by
  rw [outsAt3_odd V c t h]; rfl

/-! ## The invariant and the proof data -/

/-- Before position `n`: at the first point what the launch hands over; afterwards the two accumulators at what the
    point before left in them, the other scoped buffers at anything, the generator register at some state. -/
def PhiS3 (c : Dev nD) : (n : ℕ) → n ≤ cfg3.N → sProp 𝕄
  | 0, _ => Pipeline.ΦA spec3 c
  | n + 1, hn => iprop(((owns (c : Thread nD τ) accG3 fullShare (outsAt3 V c n hn).2.1 ∗ owns (c : Thread nD τ) accU3 fullShare (outsAt3 V c n hn).2.2) ∗ others3 c)
      ∗ (∃ r, prngReg c r))

theorem PhiS3_succ (c : Dev nD) (n : ℕ) (hn : n < cfg3.N) :
    PhiS3 V c (n + 1) hn = iprop(((owns (c : Thread nD τ) accG3 fullShare (outsAt3 V c n hn).2.1 ∗ owns (c : Thread nD τ) accU3 fullShare (outsAt3 V c n hn).2.2) ∗ others3 c)
      ∗ (∃ r, prngReg c r)) := rfl

theorem PhiS3_pos (c : Dev nD) (n : ℕ) (h : n ≤ cfg3.N) (hz : n ≠ 0) :
    PhiS3 V c n h = iprop(((owns (c : Thread nD τ) accG3 fullShare (outsAt3 V c (n - 1) (by omega)).2.1
        ∗ owns (c : Thread nD τ) accU3 fullShare (outsAt3 V c (n - 1) (by omega)).2.2) ∗ others3 c) ∗ (∃ r, prngReg c r)) := by
  cases n with
  | zero => exact absurd rfl hz
  | succ n => rfl

/-- At any position the invariant gives back what the launch handed over: the accumulators' contents are forgotten. -/
theorem PhiS3_forget (c : Dev nD) (n : ℕ) (h : n ≤ cfg3.N) : PhiS3 V c n h ⊢ Pipeline.ΦA spec3 c := by
  cases n with
  | zero => exact Idealize.SL.BI.Entails.refl _
  | succ n =>
    rw [PhiS3_succ, PhiA3_eq]
    iintro ⟨⟨⟨HG, HU⟩, HR⟩, Hg⟩
    isplitl [HG HU HR]
    · isplitl [HG HU]
      · isplitl [HG]
        · iexists _; iexact HG
        · iexists _; iexact HU
      · iexact HR
    · iexact Hg

/-- The same with the two accumulators taken out as memrefs, each at some contents. -/
theorem PhiS3_open (c : Dev nD) (n : ℕ) (h : n ≤ cfg3.N) :
    PhiS3 V c n h ⊢ iprop((((∃ d, owns (c : Thread nD τ) accG3 fullShare d) ∗ (∃ d, owns (c : Thread nD τ) accU3 fullShare d)) ∗ others3 c)
      ∗ (∃ r, prngReg c r)) :=
  (PhiS3_forget V c n h).trans (Entails.of_eq (PhiA3_eq c))

/-- The region's proof data on core `c`: the arrays as entered; after the body at point `t` the three inputs' buffers
    at their blocks and the output's at the first component of the accumulation; the invariant above; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

theorem PhiS3_castSucc (c : Dev nD) (t : Fin cfg3.N) :
    (dat3 V c).Φ t.castSucc = PhiS3 V c t.val (Nat.le_of_lt t.isLt) := by
  dsimp only [dat3]; simp only [Fin.coe_castSucc]

/-! ## The body obligation at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point. The inputs' buffers hold their blocks. At an even point the accumulators are taken at
    anything (the invariant forgets what they held), the output's buffer passes through untouched, and the accumulators
    come back at the first half's sums; at an odd point the accumulators are taken at what the even point before left,
    and come back with the second half added, the output's buffer at the gated product. The core's dues pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [live3_0 t], after3_0]
  rw [show (dat3 V c).leavesExact 1 t = owns (c : Thread nD τ) (ms3_1 t) fullShare ((dat3 V c).after 1 t) from by
    unfold Dat.leavesExact; rw [live3_1 t], after3_1]
  rw [show (dat3 V c).leavesExact 2 t = owns (c : Thread nD τ) (ms3_2 t) fullShare ((dat3 V c).after 2 t) from by
    unfold Dat.leavesExact; rw [live3_2 t], after3_2]
  rcases Nat.mod_two_eq_zero_or_one t.val with h | h
  · rw [Dat.leavesExact_idle (dat3 V c) 3 t (idle3_3_even t h) (noFlush3_3_even t h)]
    rw [outsAt3_even V c t h]
    unfold evenAt3; dsimp only
    rw [PhiS3_castSucc V c t]
    iintro ⟨HΦ, Ho, ⟨%d0, H0⟩, ⟨%d1, H1⟩, ⟨%d2, H2⟩, ⟨%d3, H3⟩⟩
    ihave HΦ' := (PhiS3_open V c t.val (Nat.le_of_lt t.isLt)) $$ HΦ
    icases HΦ' with ⟨⟨⟨HG, HU⟩, HR⟩, Hg⟩
    iapply ((kernelRun3_E c (grid3.coords t) (ms3_0 t) (hs3_0 t) (ms3_1 t) (hs3_1 t) (ms3_2 t) (hs3_2 t) (ms3_3 t) (hs3_3 t)
      accG3 (Memref.isWhole_whole _) accU3 (Memref.isWhole_whole _) ((zeroing3_iff t).mpr h) (not_storing3_of_even t h)
      (iblk3 V c 0 t) (iblk3 V c 1 t) (iblk3 V c 2 t)).2.2 _ Set.univ _)
    isplitl [H0]; · iexact H0
    isplitl [H1]; · iexact H1
    isplitl [H2]; · iexact H2
    isplitl [H3]; · iexact H3
    isplitl [HG]; · iexact HG
    isplitl [HU]; · iexact HU
    iintro ⟨H0, H1, H2, H3, ⟨%eg, HG⟩, ⟨%eu, HU⟩⟩
    isplitl [HG HU HR Hg]
    · isplitl [HG HU HR]
      · isplitl [HG HU]
        · isplitl [HG]
          · unfold owns; iexists _; isplitr
            swap; · iexact HG
            ipureintro
            exact leftE_G c (grid3.coords t) (ms3_0 t) (hs3_0 t) (ms3_1 t) (hs3_1 t) (ms3_2 t) (hs3_2 t) (ms3_3 t) (hs3_3 t)
              accG3 (Memref.isWhole_whole _) accU3 (Memref.isWhole_whole _) ((zeroing3_iff t).mpr h) (not_storing3_of_even t h)
              (iblk3 V c 0 t) (iblk3 V c 1 t) (iblk3 V c 2 t) _ _
          · unfold owns; iexists _; isplitr
            swap; · iexact HU
            ipureintro
            exact leftE_U c (grid3.coords t) (ms3_0 t) (hs3_0 t) (ms3_1 t) (hs3_1 t) (ms3_2 t) (hs3_2 t) (ms3_3 t) (hs3_3 t)
              accG3 (Memref.isWhole_whole _) accU3 (Memref.isWhole_whole _) ((zeroing3_iff t).mpr h) (not_storing3_of_even t h)
              (iblk3 V c 0 t) (iblk3 V c 1 t) (iblk3 V c 2 t) _ _
        · iexact HR
      · iexact Hg
    isplitl [Ho]; · iexact Ho
    isplitl [H0]; · iexact H0
    isplitl [H1]; · iexact H1
    isplitl [H2]; · iexact H2
    iexists _; iexact H3
  · have hz : t.val ≠ 0 := by omega
    rw [show (dat3 V c).leavesExact 3 t = owns (c : Thread nD τ) (ms3_3 t) fullShare ((dat3 V c).after 3 t) from by
      unfold Dat.leavesExact; rw [live3_3_odd t h], after3_3]
    rw [outsAt3_odd V c t h]
    unfold oddAt3; dsimp only
    rw [PhiS3_castSucc V c t, PhiS3_pos V c _ _ hz]
    iintro ⟨⟨⟨⟨HG, HU⟩, HR⟩, Hg⟩, Ho, ⟨%d0, H0⟩, ⟨%d1, H1⟩, ⟨%d2, H2⟩, ⟨%d3, H3⟩⟩
    iapply ((kernelRun3_O c (grid3.coords t) (ms3_0 t) (hs3_0 t) (ms3_1 t) (hs3_1 t) (ms3_2 t) (hs3_2 t) (ms3_3 t) (hs3_3 t)
      accG3 (Memref.isWhole_whole _) accU3 (Memref.isWhole_whole _) (not_zeroing3_of_odd t h) ((storing3_iff t).mpr h)
      (iblk3 V c 0 t) (iblk3 V c 1 t) (iblk3 V c 2 t)
      (outsAt3 V c (t.val - 1) (Nat.lt_of_le_of_lt (Nat.sub_le _ _) t.isLt)).2.1
      (outsAt3 V c (t.val - 1) (Nat.lt_of_le_of_lt (Nat.sub_le _ _) t.isLt)).2.2).2.2.2 Set.univ _)
    isplitl [H0]; · iexact H0
    isplitl [H1]; · iexact H1
    isplitl [H2]; · iexact H2
    isplitl [H3]; · iexists _; iexact H3
    isplitl [HG]; · iexact HG
    isplitl [HU]; · iexact HU
    iintro ⟨H0, H1, H2, ⟨%eh, H3⟩, ⟨%eg, HG⟩, ⟨%eu, HU⟩⟩
    isplitl [HG HU HR Hg]
    · isplitl [HG HU HR]
      · isplitl [HG HU]
        · isplitl [HG]
          · unfold owns; iexists _; isplitr
            swap; · iexact HG
            ipureintro
            exact leftO_G c (grid3.coords t) (ms3_0 t) (hs3_0 t) (ms3_1 t) (hs3_1 t) (ms3_2 t) (hs3_2 t) (ms3_3 t) (hs3_3 t)
              accG3 (Memref.isWhole_whole _) accU3 (Memref.isWhole_whole _) (not_zeroing3_of_odd t h) ((storing3_iff t).mpr h)
              (iblk3 V c 0 t) (iblk3 V c 1 t) (iblk3 V c 2 t)
              (outsAt3 V c (t.val - 1) (Nat.lt_of_le_of_lt (Nat.sub_le _ _) t.isLt)).2.1
              (outsAt3 V c (t.val - 1) (Nat.lt_of_le_of_lt (Nat.sub_le _ _) t.isLt)).2.2 _ _
          · unfold owns; iexists _; isplitr
            swap; · iexact HU
            ipureintro
            exact leftO_U c (grid3.coords t) (ms3_0 t) (hs3_0 t) (ms3_1 t) (hs3_1 t) (ms3_2 t) (hs3_2 t) (ms3_3 t) (hs3_3 t)
              accG3 (Memref.isWhole_whole _) accU3 (Memref.isWhole_whole _) (not_zeroing3_of_odd t h) ((storing3_iff t).mpr h)
              (iblk3 V c 0 t) (iblk3 V c 1 t) (iblk3 V c 2 t)
              (outsAt3 V c (t.val - 1) (Nat.lt_of_le_of_lt (Nat.sub_le _ _) t.isLt)).2.1
              (outsAt3 V c (t.val - 1) (Nat.lt_of_le_of_lt (Nat.sub_le _ _) t.isLt)).2.2 _ _
        · iexact HR
      · iexact Hg
    isplitl [Ho]; · iexact Ho
    isplitl [H0]; · iexact H0
    isplitl [H1]; · iexact H1
    isplitl [H2]; · iexact H2
    unfold owns; iexists _; isplitr
    swap; · iexact H3
    ipureintro
    exact leftO_H c (grid3.coords t) (ms3_0 t) (hs3_0 t) (ms3_1 t) (hs3_1 t) (ms3_2 t) (hs3_2 t) (ms3_3 t) (hs3_3 t)
      accG3 (Memref.isWhole_whole _) accU3 (Memref.isWhole_whole _) (not_zeroing3_of_odd t h) ((storing3_iff t).mpr h)
      (iblk3 V c 0 t) (iblk3 V c 1 t) (iblk3 V c 2 t)
      (outsAt3 V c (t.val - 1) (Nat.lt_of_le_of_lt (Nat.sub_le _ _) t.isLt)).2.1
      (outsAt3 V c (t.val - 1) (Nat.lt_of_le_of_lt (Nat.sub_le _ _) t.isLt)).2.2 _ _

/-- The obligation the launch asks for, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl]
  exact Idealize.SL.BI.Entails.refl _

/-- After the last point the invariant gives it back. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl]
  exact PhiS3_forget V c _ _

end

end Cert.Kernel.Hand

end
-- ==== Proof.K.R4.lean ====
/-
  Region 4: the down projection. The grid is 2 × 4 × 7; the last coordinate k walks the seven 2048-wide slabs of the
  contracted axis. At a point the body reads a 1024 × 2048 block of the hidden activations and a 1024 × 2048 block of the
  scaled down weights, forms their product contracted over the 2048 axis, and adds it to a 1024 × 1024 accumulator kept
  in a scratch buffer that lives from point to point: at k = 0 the accumulator is first set to zero, at k = 6 the
  finished sum is copied into the output block, and at every other k the output block is not touched. Stated at the
  contents `V` the region is entered with: the accumulator after each point as a recursion over the points, the body's
  triple in each of the three cases of k, the invariant that carries the accumulator, the proof data and the obligation
  at a generic point.
-/
import proofs.«169556_j22153441312857_1_alg».proof.Proof.Gen.Kernel.Launch
import proofs.«169556_j22153441312857_1_alg».proof.Proof.Gen.Kernel.Skeleton
import proofs.«169556_j22153441312857_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which of the three cases a point is in -/

/-- The guard of the body's first conditional, spelled from the last grid coordinate as the body computes it:
    it asks whether k = 0. -/
abbrev zeroes4 (i : grid4.Coords) : Prop :=
  (Scalar.cmpi .ne (Scalar.extui (Scalar.cmpi .eq (BitVec.ofNat 32 (i 2).val) 0#32)) 0#32) = 1#1
/-- The guard of the second conditional: it asks whether k = 6. -/
abbrev copies4 (i : grid4.Coords) : Prop := k4_cond2 i = 1#1

/-- In the row-major order of the 56 points, k is the point's number modulo 7. -/
theorem zeroes4_iff : ∀ t : Fin cfg4.N, zeroes4 (grid4.coords t) ↔ t.val % 7 = 0 :=
  (by decide +kernel : ∀ t : Fin grid4.N, zeroes4 (grid4.coords t) ↔ t.val % 7 = 0)
theorem copies4_iff : ∀ t : Fin cfg4.N, copies4 (grid4.coords t) ↔ t.val % 7 = 6 :=
  (by decide +kernel : ∀ t : Fin grid4.N, copies4 (grid4.coords t) ↔ t.val % 7 = 6)

/-- The two inputs are in use at every point; the output block is in use exactly where k = 6, and elsewhere it is
    neither stored into nor written back. -/
theorem inUse4_0 : ∀ t : Fin cfg4.N, cfg4.idle 0 (grid4.coords t) = false := by decide +kernel
theorem inUse4_1 : ∀ t : Fin cfg4.N, cfg4.idle 1 (grid4.coords t) = false := by decide +kernel
theorem inUse4_2 : ∀ t : Fin cfg4.N, t.val % 7 = 6 → cfg4.idle 2 (grid4.coords t) = false := by decide +kernel
theorem atRest4_2 : ∀ t : Fin cfg4.N, t.val % 7 ≠ 6 → cfg4.idle 2 (grid4.coords t) = true := by decide +kernel
theorem notBack4_2 : ∀ t : Fin cfg4.N, t.val % 7 ≠ 6 → (cfg4.win 2).flush t = false := by decide +kernel

/-! ## The buffers the body works through -/

/-- The accumulator's buffer, whole. -/
abbrev accM4 : Memref sig .tc .vmem S1024x1024 .f32 := Memref.whole cc4_scratch0

/-- The whole 1024 × 1024 buffer and the whole 1024 × 2048 buffer as the rectangles the body loads and stores through. -/
abbrev rAcc4 : Rect S1024x1024 := Rect.unit (s := S1024x1024) ![0, 0] S1024x1024.size inb_S1024x1024_S1024x1024_0_0
abbrev rIn4 : Rect S1024x2048 := Rect.unit (s := S1024x2048) ![0, 0] S1024x2048.size inb_S1024x2048_S1024x2048_0_0

/-- Both offsets of those rectangles are zero. -/
theorem off4_zero : (![0, 0] : Fin 2 → ℕ) = fun _ => 0 := by
  funext a; fin_cases a <;> rfl

/-- The region's invariant as handed over by the launch, with the accumulator's buffer taken out of the scoped rest and
    owned at some contents. -/
theorem PhiA4_eq (c : Dev nD) :
    (Pipeline.ΦA spec4 c : sProp 𝕄)
      = iprop(iprop((∃ d, owns (c : Thread nD τ) accM4 fullShare d) ∗ Pipeline.scopedRestBut spec4 c [cc4_scratch0]) ∗ (∃ r, prngReg c r)) := by
  unfold Pipeline.ΦA; rw [scopedRest4_split]; simp only [accM4, owns_whole]; try rfl

/-! ## The body's triple, case by case

Each is stated on whole buffers at named contents. The run leaves every buffer it stored into as a list of stores over
what the buffer held; each store here is through the whole-buffer rectangle, so the last one alone decides what the
buffer reads, and a load through that rectangle reads the buffer as it stands. -/

set_option maxHeartbeats 2000000 in
/-- Where 0 < k < 6: with the two input buffers at `x0` and `x1` and the accumulator at `xs`, the body ends with the inputs
    and the output's buffer as they were and the accumulator at the product added to `xs`. -/
theorem run4_mid (c : Dev nD) (E : Set ℕ) (i : grid4.Coords)
    (arg3 : Memref sig .tc .vmem S1024x2048 .bf16) (harg3 : arg3.IsWhole) (arg4 : Memref sig .tc .vmem S1024x2048 .bf16) (harg4 : arg4.IsWhole)
    (arg5 : Memref sig .tc .vmem S1024x1024 .f32) (harg5 : arg5.IsWhole) (arg6 : Memref sig .tc .vmem S1024x1024 .f32) (harg6 : arg6.IsWhole)
    (hz : ¬zeroes4 i) (hc : ¬copies4 i)
    (x0 x1 : Vec F S1024x2048 .bf16) (xo xs : Vec F S1024x1024 .f32) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare xs
        ∗ (iprop(owns (c : Thread nD τ) arg3 fullShare x0 ∗ owns (c : Thread nD τ) arg4 fullShare x1 ∗ owns (c : Thread nD τ) arg5 fullShare xo
            ∗ owns (c : Thread nD τ) arg6 fullShare (k4_pay2 x0 x1 xs)) -∗ K ⟨⟩))
      ⊢ wp frame (wpE (defs₀ (F := F)) Variants.none c none) E (cc4__down_body i arg3 harg3 arg4 harg4 arg5 harg5 arg6 harg6) K := by
  simp only [cc4__down_body_eq_skeleton]; unfold cc4__down_body_skel
  unfold owns
  iintro ⟨⟨%f0, %hf0, H0⟩, ⟨%f1, %hf1, H1⟩, ⟨%f2, %hf2, H2⟩, ⟨%f3, %hf3, H3⟩, Hk⟩
  obtain rfl := harg3.eq_unread hf0; obtain rfl := harg4.eq_unread hf1; obtain rfl := harg6.eq_unread hf3
  sl_exec (disch := first | exact hz | exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact hf2
    iexact H2
  iexists _; isplitr
  swap; · iexact H3
  ipureintro
  sl_unfold_words
  rw [View.read_writes_eq_canon _ _ _ (fun y => ⟨_, List.mem_cons_self .., View.mem_set_unit_zero off4_zero inb_S1024x1024_S1024x1024_0_0 y⟩),
    View.canon_cons_unit_zero off4_zero]
  simp only [View.readAt_eq_ld, harg3.read_unread, harg4.read_unread, harg6.read_unread,
    View.ld_unit_zero (S := S1024x2048) off4_zero, View.ld_unit_zero (S := S1024x1024) off4_zero,
    View.readCov_unit_zero (S := S1024x1024) _ off4_zero]

set_option maxHeartbeats 2000000 in
/-- Where k = 0: whatever the accumulator held, the body sets it to zero and then adds the product; the inputs and the
    output's buffer end as they were. -/
theorem run4_first (c : Dev nD) (E : Set ℕ) (i : grid4.Coords)
    (arg3 : Memref sig .tc .vmem S1024x2048 .bf16) (harg3 : arg3.IsWhole) (arg4 : Memref sig .tc .vmem S1024x2048 .bf16) (harg4 : arg4.IsWhole)
    (arg5 : Memref sig .tc .vmem S1024x1024 .f32) (harg5 : arg5.IsWhole) (arg6 : Memref sig .tc .vmem S1024x1024 .f32) (harg6 : arg6.IsWhole)
    (hz : zeroes4 i) (hc : ¬copies4 i)
    (x0 x1 : Vec F S1024x2048 .bf16) (xo : Vec F S1024x1024 .f32) (K : PUnit → sProp 𝕄) :
    iprop(owns (c : Thread nD τ) arg3 fullShare x0 ∗ owns (c : Thread nD τ) arg4 fullShare x1 ∗ owns (c : Thread nD τ) arg5 fullShare xo
        ∗ (∃ d, owns (c : Thread nD τ) arg6 fullShare d)
        ∗ (iprop(owns (c : Thread nD τ) arg3 fullShare x0 ∗ owns (c : Thread nD τ) arg4 fullShare x1 ∗ owns (c : Thread nD τ) arg5 fullShare xo
            ∗ owns (c : Thread nD τ) arg6 fullShare (k4_pay2 x0 x1 (k4_pay1 (F := F)))) -∗ K ⟨⟩))
      ⊢ wp frame (wpE (defs₀ (F := F)) Variants.none c none) E (cc4__down_body i arg3 harg3 arg4 harg4 arg5 harg5 arg6 harg6) K := by
  simp only [cc4__down_body_eq_skeleton]; unfold cc4__down_body_skel
  unfold owns
  iintro ⟨⟨%f0, %hf0, H0⟩, ⟨%f1, %hf1, H1⟩, ⟨%f2, %hf2, H2⟩, ⟨%d3, %f3, -, H3⟩, Hk⟩
  obtain rfl := harg3.eq_unread hf0; obtain rfl := harg4.eq_unread hf1
  sl_exec (disch := first | exact hz | exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact hf2
    iexact H2
  iexists _; isplitr
  swap; · iexact H3
  ipureintro
  sl_unfold_words
  rw [View.read_writes_eq_canon _ _ _ (fun y => ⟨_, List.mem_cons_self .., View.mem_set_unit_zero off4_zero inb_S1024x1024_S1024x1024_0_0 y⟩),
    View.canon_cons_unit_zero off4_zero]
  simp only [View.readAt_eq_ld, harg3.read_unread, harg4.read_unread,
    View.ld_unit_zero (S := S1024x2048) off4_zero, View.ld_unit_zero (S := S1024x1024) off4_zero,
    View.readCov_unit_zero (S := S1024x1024) _ off4_zero]

set_option maxHeartbeats 2000000 in
/-- Where k = 6: the body adds the product to the accumulator at `xs` and copies the sum, read back from the accumulator,
    over whatever the output's buffer held; the inputs end as they were. -/
theorem run4_last (c : Dev nD) (E : Set ℕ) (i : grid4.Coords)
    (arg3 : Memref sig .tc .vmem S1024x2048 .bf16) (harg3 : arg3.IsWhole) (arg4 : Memref sig .tc .vmem S1024x2048 .bf16) (harg4 : arg4.IsWhole)
    (arg5 : Memref sig .tc .vmem S1024x1024 .f32) (harg5 : arg5.IsWhole) (arg6 : Memref sig .tc .vmem S1024x1024 .f32) (harg6 : arg6.IsWhole)
    (hz : ¬zeroes4 i) (hc : copies4 i)
    (x0 x1 : Vec F S1024x2048 .bf16) (xs : Vec F S1024x1024 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare xs
        ∗ (iprop(owns (c : Thread nD τ) arg3 fullShare x0 ∗ owns (c : Thread nD τ) arg4 fullShare x1
            ∗ owns (c : Thread nD τ) arg5 fullShare (k4_pay2 x0 x1 xs)
            ∗ owns (c : Thread nD τ) arg6 fullShare (k4_pay2 x0 x1 xs)) -∗ K ⟨⟩))
      ⊢ wp frame (wpE (defs₀ (F := F)) Variants.none c none) E (cc4__down_body i arg3 harg3 arg4 harg4 arg5 harg5 arg6 harg6) K := by
  simp only [cc4__down_body_eq_skeleton]; unfold cc4__down_body_skel
  unfold owns
  iintro ⟨⟨%f0, %hf0, H0⟩, ⟨%f1, %hf1, H1⟩, ⟨%d2, %f2, -, H2⟩, ⟨%f3, %hf3, H3⟩, Hk⟩
  obtain rfl := harg3.eq_unread hf0; obtain rfl := harg4.eq_unread hf1; obtain rfl := harg6.eq_unread hf3
  sl_exec (disch := first | exact hz | exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_words
    rw [View.read_writes_eq_canon _ _ _ (fun y => ⟨_, List.mem_cons_self .., View.mem_set_unit_zero off4_zero inb_S1024x1024_S1024x1024_0_0 y⟩),
      View.canon_cons_unit_zero off4_zero]
    simp only [View.readAt_eq_ld, harg3.read_unread, harg4.read_unread, harg6.read_unread,
      View.ld_unit_zero (S := S1024x2048) off4_zero, View.ld_unit_zero (S := S1024x1024) off4_zero,
      View.readCov_unit_zero (S := S1024x1024) _ off4_zero]
  iexists _; isplitr
  swap; · iexact H3
  ipureintro
  sl_unfold_words
  rw [View.read_writes_eq_canon _ _ _ (fun y => ⟨_, List.mem_cons_self .., View.mem_set_unit_zero off4_zero inb_S1024x1024_S1024x1024_0_0 y⟩),
    View.canon_cons_unit_zero off4_zero]
  simp only [View.readAt_eq_ld, harg3.read_unread, harg4.read_unread, harg6.read_unread,
    View.ld_unit_zero (S := S1024x2048) off4_zero, View.ld_unit_zero (S := S1024x1024) off4_zero,
    View.readCov_unit_zero (S := S1024x1024) _ off4_zero]

section
variable (V : (c : Dev nD) → (b : Ref sig .tc) → Buf (Elt F) ((c : Thread nD τ).loc b))

/-- Window `w`'s block at point `t`, cut out of its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The activations' staging buffer holds the block of point `t` whenever the body runs there. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weights' staging buffer holds the block of point `t` whenever the body runs there. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The accumulator point by point -/

/-- What the accumulator holds after the body at position `n`: where k = 0 the product of that point's two blocks added
    to zero; elsewhere that product added to what the point before left. -/
def acc4 (c : Dev nD) : (n : ℕ) → n < cfg4.N → Vec F S1024x1024 .f32
  | 0, hn => k4_pay2 (iblk4 V c 0 ⟨0, hn⟩) (iblk4 V c 1 ⟨0, hn⟩) (k4_pay1 (F := F))
  | n + 1, hn =>
    if (n + 1) % 7 = 0 then k4_pay2 (iblk4 V c 0 ⟨n + 1, hn⟩) (iblk4 V c 1 ⟨n + 1, hn⟩) (k4_pay1 (F := F))
    else k4_pay2 (iblk4 V c 0 ⟨n + 1, hn⟩) (iblk4 V c 1 ⟨n + 1, hn⟩) (acc4 c n (Nat.lt_of_succ_lt hn))

/-- At a point with k = 0 the sum starts afresh; -/
theorem acc4_fresh (c : Dev nD) (t : Fin cfg4.N) (h : t.val % 7 = 0) :
    acc4 V c t.val t.isLt = k4_pay2 (iblk4 V c 0 t) (iblk4 V c 1 t) (k4_pay1 (F := F)) := by
  obtain ⟨n, hn⟩ := t
  cases n with
  | zero => rfl
  | succ n => exact if_pos h

/-- at any other point it goes on from the point before. -/
theorem acc4_onward (c : Dev nD) (t : Fin cfg4.N) (h : t.val % 7 ≠ 0) :
    acc4 V c t.val t.isLt
      = k4_pay2 (iblk4 V c 0 t) (iblk4 V c 1 t) (acc4 V c (t.val - 1) (Nat.lt_of_le_of_lt (Nat.sub_le _ _) t.isLt)) := by
  obtain ⟨n, hn⟩ := t
  cases n with
  | zero => exact absurd (Nat.zero_mod 7) h
  | succ n => exact (if_neg h).trans rfl

/-- After the body at position `n`: the output block's staging buffer and the accumulator. Where k = 6 the body has just
    copied the accumulator into the output's buffer; at the other points that buffer is not the body's to describe
    (nothing reads this component there), and the same value stands in for it. -/
def outsAt4 (c : Dev nD) : (n : ℕ) → n < cfg4.N → Vec F S1024x1024 .f32 × Vec F S1024x1024 .f32 :=
  fun n hn => (acc4 V c n hn, acc4 V c n hn)

theorem acc4_first (c : Dev nD) (t : Fin cfg4.N) (h : t.val % 7 = 0) :
    (outsAt4 V c t.val t.isLt).2 = k4_pay2 (iblk4 V c 0 t) (iblk4 V c 1 t) (k4_pay1 (F := F)) :=
  acc4_fresh V c t h

theorem acc4_next (c : Dev nD) (t : Fin cfg4.N) (h : t.val % 7 ≠ 0) :
    (outsAt4 V c t.val t.isLt).2
      = k4_pay2 (iblk4 V c 0 t) (iblk4 V c 1 t) (outsAt4 V c (t.val - 1) (Nat.lt_of_le_of_lt (Nat.sub_le _ _) t.isLt)).2 :=
  acc4_onward V c t h

theorem out4_last (c : Dev nD) (t : Fin cfg4.N) (h : t.val % 7 = 6) :
    (outsAt4 V c t.val t.isLt).1 = (outsAt4 V c t.val t.isLt).2 := rfl

/-! ## The invariant that carries the accumulator -/

/-- Before position `n`: at the start what the launch hands over; afterwards the accumulator's buffer at what the point
    before left, the other scoped buffers unopened, and the generator register at some state. -/
def inv4 (c : Dev nD) : (n : ℕ) → n ≤ cfg4.N → sProp 𝕄
  | 0, _ => Pipeline.ΦA spec4 c
  | n + 1, hn => iprop(iprop(owns (c : Thread nD τ) accM4 fullShare (acc4 V c n hn) ∗ Pipeline.scopedRestBut spec4 c [cc4_scratch0]) ∗ (∃ r, prngReg c r))

theorem inv4_zero (c : Dev nD) (n : ℕ) (h : n ≤ cfg4.N) (hz : n = 0) : inv4 V c n h = Pipeline.ΦA spec4 c := by
  subst hz; rfl

theorem inv4_succ (c : Dev nD) (n : ℕ) (hn : n < cfg4.N) :
    inv4 V c (n + 1) hn = iprop(iprop(owns (c : Thread nD τ) accM4 fullShare (acc4 V c n hn) ∗ Pipeline.scopedRestBut spec4 c [cc4_scratch0]) ∗ (∃ r, prngReg c r)) := rfl

theorem inv4_pos (c : Dev nD) (n : ℕ) (h : n ≤ cfg4.N) (hz : n ≠ 0) :
    inv4 V c n h = iprop(iprop(owns (c : Thread nD τ) accM4 fullShare (acc4 V c (n - 1) (by omega)) ∗ Pipeline.scopedRestBut spec4 c [cc4_scratch0]) ∗ (∃ r, prngReg c r)) := by
  cases n with
  | zero => exact absurd rfl hz
  | succ n => rfl

/-! ## The proof data -/

/-- The region's proof data on core `c`: the arrays as entered; after the body at point `t` the two inputs' buffers at
    their blocks and the output's at `outsAt4`'s first component; the accumulator carried by the invariant; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := inv4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- The invariant at the start of point `t`, read at the point's number. -/
theorem inv4_castSucc (c : Dev nD) (t : Fin cfg4.N) :
    (dat4 V c).Φ t.castSucc = inv4 V c t.val (Nat.le_of_lt t.isLt) := by
  dsimp only [dat4]; simp only [Fin.coe_castSucc]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns: each window's buffer as the pipeline expects to find it, which for the output at a point with
    k ≠ 6 means as it was handed over. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4000000 in
/-- The body at any point. The inputs' buffers hold their blocks; k decides the case. The invariant lends the body the
    accumulator's buffer — at anything before the very first point, afterwards at what the point before left — and takes
    it back at this point's sum; the other scoped buffers, the generator register and the core's dues pass through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl,
    show (dat4 V c).Φ t.succ = inv4 V c (t.val + 1) t.isLt from rfl, inv4_succ,
    show (dat4 V c).leavesExact 0 t = owns (c : Thread nD τ) (st4_0 t) fullShare ((dat4 V c).after 0 t) from by
      unfold Dat.leavesExact; rw [inUse4_0 t],
    show (dat4 V c).leavesExact 1 t = owns (c : Thread nD τ) (st4_1 t) fullShare ((dat4 V c).after 1 t) from by
      unfold Dat.leavesExact; rw [inUse4_1 t],
    after4_0, after4_1, inv4_castSucc]
  by_cases h0 : t.val % 7 = 0
  · -- k = 0
    have h6 : t.val % 7 ≠ 6 := by omega
    rw [Dat.leavesExact_idle (dat4 V c) 2 t (atRest4_2 t h6) (notBack4_2 t h6), acc4_fresh V c t h0]
    by_cases hz : t.val = 0
    · rw [inv4_zero V c _ _ hz, PhiA4_eq]
      iintro ⟨⟨⟨HS, HR⟩, Hg⟩, Ho, ⟨%d0, H0⟩, ⟨%d1, H1⟩, ⟨%d2, H2⟩⟩
      iapply (run4_first c Set.univ (grid4.coords t) _ _ _ _ _ _ _ _ ((zeroes4_iff t).mpr h0) (fun h => h6 ((copies4_iff t).mp h))
        (iblk4 V c 0 t) (iblk4 V c 1 t) _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
    · rw [inv4_pos V c _ _ hz]
      iintro ⟨⟨⟨HS, HR⟩, Hg⟩, Ho, ⟨%d0, H0⟩, ⟨%d1, H1⟩, ⟨%d2, H2⟩⟩
      iapply (run4_first c Set.univ (grid4.coords t) _ _ _ _ _ _ _ _ ((zeroes4_iff t).mpr h0) (fun h => h6 ((copies4_iff t).mp h))
        (iblk4 V c 0 t) (iblk4 V c 1 t) _ _)
      isplitl [H0]; · iexact H0
      isplitl [H1]; · iexact H1
      isplitl [H2]; · iexact H2
      isplitl [HS]; · iexists _; iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
  · have hz : t.val ≠ 0 := fun e => h0 (by rw [e])
    rw [inv4_pos V c _ _ hz, acc4_onward V c t h0]
    by_cases h6 : t.val % 7 = 6
    · -- k = 6
      rw [show (dat4 V c).leavesExact 2 t = owns (c : Thread nD τ) (st4_2 t) fullShare ((dat4 V c).after 2 t) from by
          unfold Dat.leavesExact; rw [inUse4_2 t h6],
        after4_2, show (outsAt4 V c t.val t.isLt).1 = acc4 V c t.val t.isLt from rfl, acc4_onward V c t h0]
      iintro ⟨⟨⟨HS, HR⟩, Hg⟩, Ho, ⟨%d0, H0⟩, ⟨%d1, H1⟩, ⟨%d2, H2⟩⟩
      iapply (run4_last c Set.univ (grid4.coords t) _ _ _ _ _ _ _ _ (fun h => h0 ((zeroes4_iff t).mp h)) ((copies4_iff t).mpr h6)
        (iblk4 V c 0 t) (iblk4 V c 1 t) (acc4 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · -- 0 < k < 6
      rw [Dat.leavesExact_idle (dat4 V c) 2 t (atRest4_2 t h6) (notBack4_2 t h6)]
      iintro ⟨⟨⟨HS, HR⟩, Hg⟩, Ho, ⟨%d0, H0⟩, ⟨%d1, H1⟩, ⟨%d2, H2⟩⟩
      iapply (run4_mid c Set.univ (grid4.coords t) _ _ _ _ _ _ _ _ (fun h => h0 ((zeroes4_iff t).mp h)) (fun h => h6 ((copies4_iff t).mp h))
        (iblk4 V c 0 t) (iblk4 V c 1 t) _ (acc4 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The obligation the launch asks for, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = inv4 V c 0 (Nat.zero_le _) from rfl, inv4_zero V c 0 _ rfl]

/-- After the last point the invariant gives back what the launch handed over: the accumulator's contents are forgotten. -/
theorem hout4 (c : Dev nD) : (dat4 V c).Φ (Fin.last cfg4.N) ⊢ Pipeline.ΦA spec4 c := by
  rw [show (dat4 V c).Φ (Fin.last cfg4.N) = inv4 V c (Fin.last cfg4.N).val (Nat.le_of_lt_succ (Fin.last cfg4.N).isLt) from rfl,
    inv4_pos V c _ _ (by rw [Fin.val_last]; have : cfg4.N = 56 := N_4; omega), PhiA4_eq]
  iintro ⟨⟨HS, HR⟩, Hg⟩
  isplitl [HS HR]
  · isplitl [HS]; · iexists _; iexact HS
    iexact HR
  iexact Hg

end

end Cert.Kernel.Hand

end
-- ==== Proof.K.Run.lean ====
/-
  The whole program's run. @main is eight items: the host stretch that reshapes and converts the activations, the two
  regions that scale w1 and w3, the host transpose of the third scale table, the region that scales w2, the gated
  product, the down projection, and the final reshape. The contents of every unscoped buffer between two items are
  written as a fold from the launch memory (`B0 … B8`): a host stretch applies its operations; a region leaves its
  windows' arrays at what its write-backs leave and every other buffer as it found it. Each region's proof data is taken
  at the contents it is entered with. From the run: every unscoped buffer ends at `B8`; read at the arguments that is the
  launch memory, and at the result it is the last reshape of region 4's output array.
-/
import proofs.«169556_j22153441312857_1_alg».proof.Proof.Gen.Kernel.Launch
import proofs.«169556_j22153441312857_1_alg».proof.Proof.Gen.Kernel.Skeleton
import proofs.«169556_j22153441312857_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«169556_j22153441312857_1_alg».proof.Proof.Gen.Kernel.Regions
import proofs.«169556_j22153441312857_1_alg».proof.Proof.K.R0
import proofs.«169556_j22153441312857_1_alg».proof.Proof.K.R1
import proofs.«169556_j22153441312857_1_alg».proof.Proof.K.R2
import proofs.«169556_j22153441312857_1_alg».proof.Proof.K.R3
import proofs.«169556_j22153441312857_1_alg».proof.Proof.K.R4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch. -/
abbrev B0 : Dev nD → Valuation τ sig (Elt F) := fun c b => (s₀ m ρ).mem ((c : Dev nD), b)
/-- After the first host stretch (the activations as 2048 rows, converted). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b

/-- After region 0: the scaled first matrix in place, every other buffer as before. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- The same read at the TensorCore's references. -/
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After region 1: the scaled second matrix in place, every other buffer as before. -/
def B3 (c : Dev nD) : Valuation τ sig (Elt F) :=
  Pipeline.withArrays spec1 c (B2 m ρ c) fun w => (dat1 (E2 m ρ) c).arrAt w cfg1.N
theorem B3_arr (c : Dev nD) (w : Fin cfg1.W) :
    B3 m ρ c (Proc.devRef .tc (Pipeline.arrRef spec1 w)) = (dat1 (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
/-- The same read at the TensorCore's references. -/
abbrev E3 : (c : Dev nD) → (b : Ref sig .tc) → Buf (Elt F) ((c : Thread nD τ).loc b) := fun c b => B3 m ρ c b
theorem hF1 (c : Dev nD) (w : Fin cfg1.W) : (dat1 (E2 m ρ) c).arrAt w cfg1.N = E3 m ρ c (Pipeline.arrRef spec1 w) :=
  (B3_arr m ρ c w).symm
theorem hrest1 (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)

/-- After the second host stretch (the third scale table transposed). -/
abbrev B4 : Dev nD → Valuation τ sig (Elt F) := fun c => StableHlo.after hostOps2 (B3 m ρ c)
abbrev E4 : (c : Dev nD) → (b : Ref sig .tc) → Buf (Elt F) ((c : Thread nD τ).loc b) := fun c b => B4 m ρ c b

/-- After region 2: the scaled third matrix in place, every other buffer as before. -/
def B5 (c : Dev nD) : Valuation τ sig (Elt F) :=
  Pipeline.withArrays spec2 c (B4 m ρ c) fun w => (dat2 (E4 m ρ) c).arrAt w cfg2.N
theorem B5_arr (c : Dev nD) (w : Fin cfg2.W) :
    B5 m ρ c (Proc.devRef .tc (Pipeline.arrRef spec2 w)) = (dat2 (E4 m ρ) c).arrAt w cfg2.N := by
  unfold B5; exact Pipeline.withArrays_arr spec2 launch2.win.arr_inj c _ _ w
theorem B5_of_ne (c : Dev nD) (b : Ref sig .tc) (hb : ∀ w, Pipeline.arrRef spec2 w ≠ b) :
    B5 m ρ c (Proc.devRef .tc b) = B4 m ρ c (Proc.devRef .tc b) := by
  unfold B5; exact Pipeline.withArrays_of_ne spec2 c _ _ b hb
/-- The same read at the TensorCore's references. -/
abbrev E5 : (c : Dev nD) → (b : Ref sig .tc) → Buf (Elt F) ((c : Thread nD τ).loc b) := fun c b => B5 m ρ c b
theorem hF2 (c : Dev nD) (w : Fin cfg2.W) : (dat2 (E4 m ρ) c).arrAt w cfg2.N = E5 m ρ c (Pipeline.arrRef spec2 w) :=
  (B5_arr m ρ c w).symm
theorem hrest2 (c : Dev nD) : ∀ b, b ∉ Finset.univ.image (Pipeline.arrRef spec2) → E5 m ρ c b = E4 m ρ c b :=
  fun b hb => B5_of_ne m ρ c b fun w e => hb (Finset.mem_image.mpr ⟨w, Finset.mem_univ _, e⟩)

/-- After region 3: the hidden rows in place, every other buffer as before. -/
def B6 (c : Dev nD) : Valuation τ sig (Elt F) :=
  Pipeline.withArrays spec3 c (B5 m ρ c) fun w => (dat3 (E5 m ρ) c).arrAt w cfg3.N
theorem B6_arr (c : Dev nD) (w : Fin cfg3.W) :
    B6 m ρ c (Proc.devRef .tc (Pipeline.arrRef spec3 w)) = (dat3 (E5 m ρ) c).arrAt w cfg3.N := by
  unfold B6; exact Pipeline.withArrays_arr spec3 launch3.win.arr_inj c _ _ w
theorem B6_of_ne (c : Dev nD) (b : Ref sig .tc) (hb : ∀ w, Pipeline.arrRef spec3 w ≠ b) :
    B6 m ρ c (Proc.devRef .tc b) = B5 m ρ c (Proc.devRef .tc b) := by
  unfold B6; exact Pipeline.withArrays_of_ne spec3 c _ _ b hb
/-- The same read at the TensorCore's references. -/
abbrev E6 : (c : Dev nD) → (b : Ref sig .tc) → Buf (Elt F) ((c : Thread nD τ).loc b) := fun c b => B6 m ρ c b
theorem hF3 (c : Dev nD) (w : Fin cfg3.W) : (dat3 (E5 m ρ) c).arrAt w cfg3.N = E6 m ρ c (Pipeline.arrRef spec3 w) :=
  (B6_arr m ρ c w).symm
theorem hrest3 (c : Dev nD) : ∀ b, b ∉ Finset.univ.image (Pipeline.arrRef spec3) → E6 m ρ c b = E5 m ρ c b :=
  fun b hb => B6_of_ne m ρ c b fun w e => hb (Finset.mem_image.mpr ⟨w, Finset.mem_univ _, e⟩)

/-- After region 4: the projected rows in place, every other buffer as before. -/
def B7 (c : Dev nD) : Valuation τ sig (Elt F) :=
  Pipeline.withArrays spec4 c (B6 m ρ c) fun w => (dat4 (E6 m ρ) c).arrAt w cfg4.N
theorem B7_arr (c : Dev nD) (w : Fin cfg4.W) :
    B7 m ρ c (Proc.devRef .tc (Pipeline.arrRef spec4 w)) = (dat4 (E6 m ρ) c).arrAt w cfg4.N := by
  unfold B7; exact Pipeline.withArrays_arr spec4 launch4.win.arr_inj c _ _ w
theorem B7_of_ne (c : Dev nD) (b : Ref sig .tc) (hb : ∀ w, Pipeline.arrRef spec4 w ≠ b) :
    B7 m ρ c (Proc.devRef .tc b) = B6 m ρ c (Proc.devRef .tc b) := by
  unfold B7; exact Pipeline.withArrays_of_ne spec4 c _ _ b hb
/-- The same read at the TensorCore's references. -/
abbrev E7 : (c : Dev nD) → (b : Ref sig .tc) → Buf (Elt F) ((c : Thread nD τ).loc b) := fun c b => B7 m ρ c b
theorem hF4 (c : Dev nD) (w : Fin cfg4.W) : (dat4 (E6 m ρ) c).arrAt w cfg4.N = E7 m ρ c (Pipeline.arrRef spec4 w) :=
  (B7_arr m ρ c w).symm
theorem hrest4 (c : Dev nD) : ∀ b, b ∉ Finset.univ.image (Pipeline.arrRef spec4) → E7 m ρ c b = E6 m ρ c b :=
  fun b hb => B7_of_ne m ρ c b fun w e => hb (Finset.mem_image.mpr ⟨w, Finset.mem_univ _, e⟩)

/-- After the last host stretch (the result read as 2 × 1024 rows). -/
abbrev B8 : Dev nD → Valuation τ sig (Elt F) := fun c => StableHlo.after hostOps5 (B7 m ρ c)

/-! ## The proof data family and the thread state -/

/-- Every region's proof data, each at the contents its region is entered with. -/
def pdats : (p : Fin 5) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E2 m ρ) c
  | ⟨2, _⟩ => fun c => dat2 (E4 m ρ) c
  | ⟨3, _⟩ => fun c => dat3 (E5 m ρ) c
  | ⟨4, _⟩ => fun c => dat4 (E6 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (B8 m ρ c) ∗ ∃ r, prngReg c r)

/-! ## The regions as segments -/

set_option backward.isDefEq.respectTransparency.types false in
/-- Region 0 as a segment: entered with every unscoped buffer at `B1`, left with them at `B2`. Its windows' arrays
    are split out of the unscoped buffers on entry and put back at their final contents on exit; the generator register
    goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (fun b => B2 m ρ c b) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `B2`, left with them at `B3`. Its windows' arrays
    are split out of the unscoped buffers on entry and put back at their final contents on exit; the generator register
    goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(StableHlo.held (c : Thread nD τ) (Pipeline.ucRefs τ sig) (B3 m ρ c) ∗ R c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (fun b => B3 m ρ c b) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `B4`, left with them at `B5`. Its windows' arrays
    are split out of the unscoped buffers on entry and put back at their final contents on exit; the generator register
    goes into the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E4 m ρ) c).loose
  hwaits := Pipeline.hwaits_of_owed_zero _ _ _ _ L lv 2 fun _ _ => rfl
  pre c := iprop(StableHlo.held (c : Thread nD τ) (Pipeline.ucRefs τ sig) (B4 m ρ c) ∗ R c)
  post c := iprop(StableHlo.held (c : Thread nD τ) (Pipeline.ucRefs τ sig) (B5 m ρ c) ∗ R c)
  X c := iprop(∃ r, prngReg c r)
  Y c := iprop(∃ r, prngReg c r)
  Z c := Pipeline.unscopedRest (Ix := Unit) (Name := ℕ) (U := UR sig nD τ) (Lvl := ℕ) spec2 c (E4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E4 m ρ c) (fun b => B5 m ρ c b) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at `B5`, left with them at `B6`. Its windows' arrays
    are split out of the unscoped buffers on entry and put back at their final contents on exit; the generator register
    goes into the region's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E5 m ρ) c).loose
  hwaits := Pipeline.hwaits_of_owed_zero _ _ _ _ L lv 3 fun _ _ => rfl
  pre c := iprop(StableHlo.held (c : Thread nD τ) (Pipeline.ucRefs τ sig) (B5 m ρ c) ∗ R c)
  post c := iprop(StableHlo.held (c : Thread nD τ) (Pipeline.ucRefs τ sig) (B6 m ρ c) ∗ R c)
  X c := iprop(∃ r, prngReg c r)
  Y c := iprop(∃ r, prngReg c r)
  Z c := Pipeline.unscopedRest (Ix := Unit) (Name := ℕ) (U := UR sig nD τ) (Lvl := ℕ) spec3 c (E5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (E5 m ρ) c).Φ 0 from rfl]
    have h := hin3 (E5 m ρ) c
    unfold Pipeline.ΦA at h
    iintro ⟨Hp, -, Hr⟩
    iapply h
    isplitl [Hr]; · iexact Hr
    iexact Hp
  hout c := by
    rw [Pipeline.ownSems0_none, show (pdats m ρ 3 c).Φ (Fin.last _) = (dat3 (E5 m ρ) c).Φ (Fin.last cfg3.N) from rfl]
    have h := hout3 (E5 m ρ) c
    unfold Pipeline.ΦA at h
    iintro HF
    ihave H := h $$ HF
    icases H with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (E5 m ρ c) (fun b => B6 m ρ c b) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered with every unscoped buffer at `B6`, left with them at `B7`. Its windows' arrays
    are split out of the unscoped buffers on entry and put back at their final contents on exit; the generator register
    goes into the region's invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E6 m ρ) c).loose
  hwaits := Pipeline.hwaits_of_owed_zero _ _ _ _ L lv 4 fun _ _ => rfl
  pre c := iprop(StableHlo.held (c : Thread nD τ) (Pipeline.ucRefs τ sig) (B6 m ρ c) ∗ R c)
  post c := iprop(StableHlo.held (c : Thread nD τ) (Pipeline.ucRefs τ sig) (B7 m ρ c) ∗ R c)
  X c := iprop(∃ r, prngReg c r)
  Y c := iprop(∃ r, prngReg c r)
  Z c := Pipeline.unscopedRest (Ix := Unit) (Name := ℕ) (U := UR sig nD τ) (Lvl := ℕ) spec4 c (E6 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (E6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (E6 m ρ) c).Φ 0 from rfl]
    have h := hin4 (E6 m ρ) c
    unfold Pipeline.ΦA at h
    iintro ⟨Hp, -, Hr⟩
    iapply h
    isplitl [Hr]; · iexact Hr
    iexact Hp
  hout c := by
    rw [Pipeline.ownSems0_none, show (pdats m ρ 4 c).Φ (Fin.last _) = (dat4 (E6 m ρ) c).Φ (Fin.last cfg4.N) from rfl]
    have h := hout4 (E6 m ρ) c
    unfold Pipeline.ΦA at h
    iintro HF
    ihave H := h $$ HF
    icases H with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (E6 m ρ c) (fun b => B7 m ρ c b) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The last item's exit regrouped: the buffers and the generator register on one side, the (empty) dues on the other. -/
theorem lastStep (c : Dev nD) :
    iprop(StableHlo.held (c : Thread nD τ) (Pipeline.ucRefs τ sig) (B8 m ρ c) ∗ R c)
      ⊢ (iprop(Tₙ m ρ c ∗ ∃ W, owes (c : Thread nD τ) (0 : CellTallies nD τ sig Unit) W) : sProp 𝕄) := by
  iintro ⟨Hh, Hp, Ho⟩
  isplitl [Hh Hp]
  · isplitl [Hh]; · iexact Hh
    iexact Hp
  iexact Ho

abbrev segs : List (Pipeline.Seg (pcfgs (F := F)) adm (pdats m ρ) () defs₀ 𝒱₀ L lv) :=
  [ .host (hseg hostOps0 hostOps0_sub hostOps0_fresh (B0 m ρ)),
    .region (reg0 m ρ),
    .region (reg1 m ρ),
    .host (hseg hostOps2 hostOps2_sub hostOps2_fresh (B3 m ρ)),
    .region (reg2 m ρ),
    .region (reg3 m ρ),
    .region (reg4 m ρ),
    .host (hseg hostOps5 hostOps5_sub hostOps5_fresh (B7 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final memory holds every unscoped buffer at `B8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun c => lastStep m ρ c⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B8 m ρ c b)
    (hfin := fun c s' => by
      iintro ⟨⟨Hh, -⟩, HSI⟩
      unfold StableHlo.held
      imodintro
      iapply (pointsTo_read_all (Pipeline.ucRefs τ sig) (fun b => (((c : Thread nD τ)).1, b)) (B8 m ρ c) s')
      isplitl [Hh] <;> iassumption)
    (hQ := fun s h c => h c)

end Cert.Kernel.Hand

end
-- ==== Proof.K.Walk.lean ====
/-
  The run read at the arguments and at the result. The contents of the unscoped buffers after the last item are a fold
  from the launch memory through @main's eight items. Walking that fold back at an argument: a host stretch changes only
  the buffers its operations write, and no argument is among them; a region changes only its windows' arrays, and an
  argument that is a window of a region is one the region only reads, whose array the write-backs never touch. So every
  argument ends at its launch contents, and the result ends at the fold read at the result's buffer.
-/
import proofs.«169556_j22153441312857_1_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## One item back -/

/-- The first host stretch leaves a buffer it does not write as launched. -/
theorem B1_keep (c : Dev nD) (r : Ref sig .tc) (h : r ∉ hostOps0_W) :
    B1 m ρ c (Proc.devRef .tc r) = B0 m ρ c (Proc.devRef .tc r) :=
  StableHlo.after_of_writes_sub hostOps0 _ hostOps0_writes h

/-- The second host stretch leaves a buffer it does not write as region 1 left it. -/
theorem B4_keep (c : Dev nD) (r : Ref sig .tc) (h : r ∉ hostOps2_W) :
    B4 m ρ c (Proc.devRef .tc r) = B3 m ρ c (Proc.devRef .tc r) :=
  StableHlo.after_of_writes_sub hostOps2 _ hostOps2_writes h

/-- The last host stretch leaves a buffer it does not write as region 4 left it. -/
theorem B8_keep (c : Dev nD) (r : Ref sig .tc) (h : r ∉ hostOps5_W) :
    B8 m ρ c (Proc.devRef .tc r) = B7 m ρ c (Proc.devRef .tc r) :=
  StableHlo.after_of_writes_sub hostOps5 _ hostOps5_writes h

/-- Region 0 leaves the array of a window it only reads as it found it: no point writes back to it. -/
theorem B2_in (c : Dev nD) (w : Fin cfg0.W) (hin : (cfg0.win w).isOut = false) :
    B2 m ρ c (Proc.devRef .tc (Pipeline.arrRef spec0 w)) = B1 m ρ c (Proc.devRef .tc (Pipeline.arrRef spec0 w)) :=
  (B2_arr m ρ c w).trans <| ((dat0 (E1 m ρ) c).arrAt_in w hin _).trans (A_eq0 (E1 m ρ) c w)

/-- Region 1 leaves the array of a window it only reads as it found it. -/
theorem B3_in (c : Dev nD) (w : Fin cfg1.W) (hin : (cfg1.win w).isOut = false) :
    B3 m ρ c (Proc.devRef .tc (Pipeline.arrRef spec1 w)) = B2 m ρ c (Proc.devRef .tc (Pipeline.arrRef spec1 w)) :=
  (B3_arr m ρ c w).trans <| ((dat1 (E2 m ρ) c).arrAt_in w hin _).trans (A_eq1 (E2 m ρ) c w)

/-- Region 2 leaves the array of a window it only reads as it found it. -/
theorem B5_in (c : Dev nD) (w : Fin cfg2.W) (hin : (cfg2.win w).isOut = false) :
    B5 m ρ c (Proc.devRef .tc (Pipeline.arrRef spec2 w)) = B4 m ρ c (Proc.devRef .tc (Pipeline.arrRef spec2 w)) :=
  (B5_arr m ρ c w).trans <| ((dat2 (E4 m ρ) c).arrAt_in w hin _).trans (A_eq2 (E4 m ρ) c w)

/-! ## Every argument ends as launched -/

/-- `main_arg0` reaches the end as launched: no host stretch writes it and it is no region's window. -/
theorem B8_main_arg0 (c : Dev nD) : B8 m ρ c (Proc.devRef .tc main_arg0) = m ((c : Thread nD τ).loc main_arg0) :=
  (B8_keep m ρ c main_arg0 (by decide)).trans <|
    (B7_of_ne m ρ c main_arg0 (by decide)).trans <|
    (B6_of_ne m ρ c main_arg0 (by decide)).trans <|
    (B5_of_ne m ρ c main_arg0 (by decide)).trans <|
    (B4_keep m ρ c main_arg0 (by decide)).trans <|
    (B3_of_ne m ρ c main_arg0 (by decide)).trans <|
    (B2_of_ne m ρ c main_arg0 (by decide)).trans <|
    (B1_keep m ρ c main_arg0 (by decide)).trans rfl

/-- `main_arg1` reaches the end as launched: no host stretch writes it, region 0 only reads it (its window 0), and it is no other region's window. -/
theorem B8_main_arg1 (c : Dev nD) : B8 m ρ c (Proc.devRef .tc main_arg1) = m ((c : Thread nD τ).loc main_arg1) :=
  (B8_keep m ρ c main_arg1 (by decide)).trans <|
    (B7_of_ne m ρ c main_arg1 (by decide)).trans <|
    (B6_of_ne m ρ c main_arg1 (by decide)).trans <|
    (B5_of_ne m ρ c main_arg1 (by decide)).trans <|
    (B4_keep m ρ c main_arg1 (by decide)).trans <|
    (B3_of_ne m ρ c main_arg1 (by decide)).trans <|
    (B2_in m ρ c 0 rfl).trans <|
    (B1_keep m ρ c main_arg1 (by decide)).trans rfl

/-- `main_arg2` reaches the end as launched: no host stretch writes it, region 0 only reads it (its window 1), and it is no other region's window. -/
theorem B8_main_arg2 (c : Dev nD) : B8 m ρ c (Proc.devRef .tc main_arg2) = m ((c : Thread nD τ).loc main_arg2) :=
  (B8_keep m ρ c main_arg2 (by decide)).trans <|
    (B7_of_ne m ρ c main_arg2 (by decide)).trans <|
    (B6_of_ne m ρ c main_arg2 (by decide)).trans <|
    (B5_of_ne m ρ c main_arg2 (by decide)).trans <|
    (B4_keep m ρ c main_arg2 (by decide)).trans <|
    (B3_of_ne m ρ c main_arg2 (by decide)).trans <|
    (B2_in m ρ c 1 rfl).trans <|
    (B1_keep m ρ c main_arg2 (by decide)).trans rfl

/-- `main_arg3` reaches the end as launched: no host stretch writes it, region 1 only reads it (its window 0), and it is no other region's window. -/
theorem B8_main_arg3 (c : Dev nD) : B8 m ρ c (Proc.devRef .tc main_arg3) = m ((c : Thread nD τ).loc main_arg3) :=
  (B8_keep m ρ c main_arg3 (by decide)).trans <|
    (B7_of_ne m ρ c main_arg3 (by decide)).trans <|
    (B6_of_ne m ρ c main_arg3 (by decide)).trans <|
    (B5_of_ne m ρ c main_arg3 (by decide)).trans <|
    (B4_keep m ρ c main_arg3 (by decide)).trans <|
    (B3_in m ρ c 0 rfl).trans <|
    (B2_of_ne m ρ c main_arg3 (by decide)).trans <|
    (B1_keep m ρ c main_arg3 (by decide)).trans rfl

/-- `main_arg4` reaches the end as launched: no host stretch writes it, region 1 only reads it (its window 1), and it is no other region's window. -/
theorem B8_main_arg4 (c : Dev nD) : B8 m ρ c (Proc.devRef .tc main_arg4) = m ((c : Thread nD τ).loc main_arg4) :=
  (B8_keep m ρ c main_arg4 (by decide)).trans <|
    (B7_of_ne m ρ c main_arg4 (by decide)).trans <|
    (B6_of_ne m ρ c main_arg4 (by decide)).trans <|
    (B5_of_ne m ρ c main_arg4 (by decide)).trans <|
    (B4_keep m ρ c main_arg4 (by decide)).trans <|
    (B3_in m ρ c 1 rfl).trans <|
    (B2_of_ne m ρ c main_arg4 (by decide)).trans <|
    (B1_keep m ρ c main_arg4 (by decide)).trans rfl

/-- `main_arg5` reaches the end as launched: no host stretch writes it, region 2 only reads it (its window 0), and it is no other region's window. -/
theorem B8_main_arg5 (c : Dev nD) : B8 m ρ c (Proc.devRef .tc main_arg5) = m ((c : Thread nD τ).loc main_arg5) :=
  (B8_keep m ρ c main_arg5 (by decide)).trans <|
    (B7_of_ne m ρ c main_arg5 (by decide)).trans <|
    (B6_of_ne m ρ c main_arg5 (by decide)).trans <|
    (B5_in m ρ c 0 rfl).trans <|
    (B4_keep m ρ c main_arg5 (by decide)).trans <|
    (B3_of_ne m ρ c main_arg5 (by decide)).trans <|
    (B2_of_ne m ρ c main_arg5 (by decide)).trans <|
    (B1_keep m ρ c main_arg5 (by decide)).trans rfl

/-- `main_arg6` reaches the end as launched: no host stretch writes it and it is no region's window. -/
theorem B8_main_arg6 (c : Dev nD) : B8 m ρ c (Proc.devRef .tc main_arg6) = m ((c : Thread nD τ).loc main_arg6) :=
  (B8_keep m ρ c main_arg6 (by decide)).trans <|
    (B7_of_ne m ρ c main_arg6 (by decide)).trans <|
    (B6_of_ne m ρ c main_arg6 (by decide)).trans <|
    (B5_of_ne m ρ c main_arg6 (by decide)).trans <|
    (B4_keep m ρ c main_arg6 (by decide)).trans <|
    (B3_of_ne m ρ c main_arg6 (by decide)).trans <|
    (B2_of_ne m ρ c main_arg6 (by decide)).trans <|
    (B1_keep m ρ c main_arg6 (by decide)).trans rfl

/-! ## The run, read -/

/-- THE FRAME: every weakly fair execution of @main terminates, nothing faulting, and every argument array ends holding
    its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
      (h c _ (mem_uc main_arg0 (by decide))).trans (B8_main_arg0 m ρ c),
      (h c _ (mem_uc main_arg1 (by decide))).trans (B8_main_arg1 m ρ c),
      (h c _ (mem_uc main_arg2 (by decide))).trans (B8_main_arg2 m ρ c),
      (h c _ (mem_uc main_arg3 (by decide))).trans (B8_main_arg3 m ρ c),
      (h c _ (mem_uc main_arg4 (by decide))).trans (B8_main_arg4 m ρ c),
      (h c _ (mem_uc main_arg5 (by decide))).trans (B8_main_arg5 m ρ c),
      (h c _ (mem_uc main_arg6 (by decide))).trans (B8_main_arg6 m ρ c)⟩)
    (run_all m ρ)

/-- The same run read at the result too: the result's array ends at the fold's last contents of its buffer, the
    arguments at their launch contents. -/
theorem run_result : θ_run defs (onTc (τ := τ) (main (F := F))) ⟨m, fun _ => 0, ρ⟩ (fun r => ∀ c : Dev nD,
      r.2.mem ((c.tc : Thread nD τ).loc main_v8) = B8 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
      h c _ (mem_uc main_v8 (by decide)),
      (h c _ (mem_uc main_arg0 (by decide))).trans (B8_main_arg0 m ρ c),
      (h c _ (mem_uc main_arg1 (by decide))).trans (B8_main_arg1 m ρ c),
      (h c _ (mem_uc main_arg2 (by decide))).trans (B8_main_arg2 m ρ c),
      (h c _ (mem_uc main_arg3 (by decide))).trans (B8_main_arg3 m ρ c),
      (h c _ (mem_uc main_arg4 (by decide))).trans (B8_main_arg4 m ρ c),
      (h c _ (mem_uc main_arg5 (by decide))).trans (B8_main_arg5 m ρ c),
      (h c _ (mem_uc main_arg6 (by decide))).trans (B8_main_arg6 m ρ c)⟩)
    (run_all m ρ)

end Cert.Kernel.Hand

end
-- ==== Proof.KI.R0.lean ====
/-
  Region 0: one weight matrix scaled block by block. At grid point t the body reads a 1024 × 4096 slab of the
  weights and the 8 × 32 tile of scales that belongs to it, multiplies every 128 × 128 block of the slab by its own
  scale, and stores the slab of products. Stated at the contents `V` the region is entered with: what each window's
  staging buffer holds after the body, the body's triple, the proof data and the obligation at a generic point.
-/
import proofs.«169556_j22153441312857_1_alg».proof.Proof.Gen.KernelIdeal.Launch
import proofs.«169556_j22153441312857_1_alg».proof.Proof.Gen.KernelIdeal.Skeleton
import proofs.«169556_j22153441312857_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight slab's staging buffer holds the slab of point `t` whenever the body runs there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The scale tile's staging buffer holds the tile of point `t` whenever the body runs there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-- The whole slab and the whole scale tile, as the rectangles the body loads and stores through. -/
abbrev rSlab0 : Rect S1024x4096 := Rect.unit (s := S1024x4096) ![0, 0] S1024x4096.size inb_S1024x4096_S1024x4096_0_0
abbrev rTile0 : Rect S8x32 := Rect.unit (s := S8x32) ![0, 0] S8x32.size inb_S8x32_S8x32_0_0

/-- What the body leaves in the output's staging buffer: its one store, the scaled slab computed from the loaded slab and tile. -/
def out0_2 (x0 : Vec F S1024x4096 .f32) (x1 : Vec F S8x32 .f32) : Vec F S1024x4096 .bf16 :=
  View.canon [⟨rSlab0, k0_pay1 (View.ld x0 rSlab0) (View.ld x1 rTile0)⟩]

/-- That one store writes the whole buffer. -/
theorem cover0_2 (p0 : Vec F S1024x4096 .bf16) (y : S1024x4096.Idx) :
    ∃ pc ∈ ([⟨rSlab0, p0⟩] : List (View.Piece (Elt F) S1024x4096 .bf16)), y ∈ pc.1.set :=
  View.cover_of_tiled [⟨rSlab0, p0⟩] S1024x4096.size (by rfl) y

set_option maxHeartbeats 2000000 in
/-- The body on whole staging buffers: with the slab buffer at `x0` and the tile buffer at `x1`, whatever the output's
    buffer held, it ends with both inputs as they were and the output's buffer at `out0_2 x0 x1`. -/
theorem sound_kernel0 (c : Dev nD) (E : Set ℕ) (i : grid0.Coords)
    (arg1 : Memref sig .tc .vmem S1024x4096 .f32) (harg1 : arg1.IsWhole) (arg2 : Memref sig .tc .vmem S8x32 .f32) (harg2 : arg2.IsWhole)
    (arg3 : Memref sig .tc .vmem S1024x4096 .bf16) (harg3 : arg3.IsWhole)
    (x0 : Vec F S1024x4096 .f32) (x1 : Vec F S8x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__dequant_body i arg1 harg1 arg2 harg2 arg3 harg3) K := by
  simp only [cc0__dequant_body_eq_skeleton]; unfold cc0__dequant_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

section
variable (V : (c : Dev nD) → (b : Ref sig .tc) → Buf (Elt F) ((c : Thread nD τ).loc b))

/-- The region's proof data on core `c`: the arrays as entered; after the body at point `t` the two inputs' buffers at
    their blocks and the output's at the scaled slab of those blocks; nothing carried between points, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and the core's
    dues pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch asks for, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KI.R1.lean ====
/-
  Region 1: one weight matrix scaled block by block. At grid point t the body reads a 1024 × 4096 slab of the
  weights and the 8 × 32 tile of scales that belongs to it, multiplies every 128 × 128 block of the slab by its own
  scale, and stores the slab of products. Stated at the contents `V` the region is entered with: what each window's
  staging buffer holds after the body, the body's triple, the proof data and the obligation at a generic point.
-/
import proofs.«169556_j22153441312857_1_alg».proof.Proof.Gen.KernelIdeal.Launch
import proofs.«169556_j22153441312857_1_alg».proof.Proof.Gen.KernelIdeal.Skeleton
import proofs.«169556_j22153441312857_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, cut out of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The weight slab's staging buffer holds the slab of point `t` whenever the body runs there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The scale tile's staging buffer holds the tile of point `t` whenever the body runs there. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-- The whole slab and the whole scale tile, as the rectangles the body loads and stores through. -/
abbrev rSlab1 : Rect S1024x4096 := Rect.unit (s := S1024x4096) ![0, 0] S1024x4096.size inb_S1024x4096_S1024x4096_0_0
abbrev rTile1 : Rect S8x32 := Rect.unit (s := S8x32) ![0, 0] S8x32.size inb_S8x32_S8x32_0_0

/-- What the body leaves in the output's staging buffer: its one store, the scaled slab computed from the loaded slab and tile. -/
def out1_2 (x0 : Vec F S1024x4096 .f32) (x1 : Vec F S8x32 .f32) : Vec F S1024x4096 .bf16 :=
  View.canon [⟨rSlab1, k1_pay1 (View.ld x0 rSlab1) (View.ld x1 rTile1)⟩]

/-- That one store writes the whole buffer. -/
theorem cover1_2 (p0 : Vec F S1024x4096 .bf16) (y : S1024x4096.Idx) :
    ∃ pc ∈ ([⟨rSlab1, p0⟩] : List (View.Piece (Elt F) S1024x4096 .bf16)), y ∈ pc.1.set :=
  View.cover_of_tiled [⟨rSlab1, p0⟩] S1024x4096.size (by rfl) y

set_option maxHeartbeats 2000000 in
/-- The body on whole staging buffers: with the slab buffer at `x0` and the tile buffer at `x1`, whatever the output's
    buffer held, it ends with both inputs as they were and the output's buffer at `out1_2 x0 x1`. -/
theorem sound_kernel1 (c : Dev nD) (E : Set ℕ) (i : grid1.Coords)
    (arg1 : Memref sig .tc .vmem S1024x4096 .f32) (harg1 : arg1.IsWhole) (arg2 : Memref sig .tc .vmem S8x32 .f32) (harg2 : arg2.IsWhole)
    (arg3 : Memref sig .tc .vmem S1024x4096 .bf16) (harg3 : arg3.IsWhole)
    (x0 : Vec F S1024x4096 .f32) (x1 : Vec F S8x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__dequant_body i arg1 harg1 arg2 harg2 arg3 harg3) K := by
  simp only [cc1__dequant_body_eq_skeleton]; unfold cc1__dequant_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

section
variable (V : (c : Dev nD) → (b : Ref sig .tc) → Buf (Elt F) ((c : Thread nD τ).loc b))

/-- The region's proof data on core `c`: the arrays as entered; after the body at point `t` the two inputs' buffers at
    their blocks and the output's at the scaled slab of those blocks; nothing carried between points, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the triple applies; the invariant and the core's
    dues pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch asks for, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KI.R2.lean ====
/-
  Region 2: one weight matrix scaled block by block. At grid point t the body reads a 4096 × 1024 slab of the
  weights and the 8 × 32 tile of scales that belongs to it, multiplies every 128 × 128 block of the slab by its own
  scale, and stores the slab of products. Stated at the contents `V` the region is entered with: what each window's
  staging buffer holds after the body, the body's triple, the proof data and the obligation at a generic point.
-/
import proofs.«169556_j22153441312857_1_alg».proof.Proof.Gen.KernelIdeal.Launch
import proofs.«169556_j22153441312857_1_alg».proof.Proof.Gen.KernelIdeal.Skeleton
import proofs.«169556_j22153441312857_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, cut out of its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The weight slab's staging buffer holds the slab of point `t` whenever the body runs there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The scale tile's staging buffer holds the tile of point `t` whenever the body runs there. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end

/-- The whole slab and the whole scale tile, as the rectangles the body loads and stores through. -/
abbrev rSlab2 : Rect S4096x1024 := Rect.unit (s := S4096x1024) ![0, 0] S4096x1024.size inb_S4096x1024_S4096x1024_0_0
abbrev rTile2 : Rect S8x32 := Rect.unit (s := S8x32) ![0, 0] S8x32.size inb_S8x32_S8x32_0_0

/-- What the body leaves in the output's staging buffer: its one store, the scaled slab computed from the loaded slab and tile. -/
def out2_2 (x0 : Vec F S4096x1024 .f32) (x1 : Vec F S8x32 .f32) : Vec F S4096x1024 .bf16 :=
  View.canon [⟨rSlab2, k2_pay1 (View.ld x0 rSlab2) (View.ld x1 rTile2)⟩]

/-- That one store writes the whole buffer. -/
theorem cover2_2 (p0 : Vec F S4096x1024 .bf16) (y : S4096x1024.Idx) :
    ∃ pc ∈ ([⟨rSlab2, p0⟩] : List (View.Piece (Elt F) S4096x1024 .bf16)), y ∈ pc.1.set :=
  View.cover_of_tiled [⟨rSlab2, p0⟩] S4096x1024.size (by rfl) y

set_option maxHeartbeats 2000000 in
/-- The body on whole staging buffers: with the slab buffer at `x0` and the tile buffer at `x1`, whatever the output's
    buffer held, it ends with both inputs as they were and the output's buffer at `out2_2 x0 x1`. -/
theorem sound_kernel2 (c : Dev nD) (E : Set ℕ) (i : grid2.Coords)
    (arg1 : Memref sig .tc .vmem S4096x1024 .f32) (harg1 : arg1.IsWhole) (arg2 : Memref sig .tc .vmem S8x32 .f32) (harg2 : arg2.IsWhole)
    (arg3 : Memref sig .tc .vmem S4096x1024 .bf16) (harg3 : arg3.IsWhole)
    (x0 : Vec F S4096x1024 .f32) (x1 : Vec F S8x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__dequant_body i arg1 harg1 arg2 harg2 arg3 harg3) K := by
  simp only [cc2__dequant_body_eq_skeleton]; unfold cc2__dequant_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

section
variable (V : (c : Dev nD) → (b : Ref sig .tc) → Buf (Elt F) ((c : Thread nD τ).loc b))

/-- The region's proof data on core `c`: the arrays as entered; after the body at point `t` the two inputs' buffers at
    their blocks and the output's at the scaled slab of those blocks; nothing carried between points, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the triple applies; the invariant and the core's
    dues pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch asks for, at every point. -/
theorem body_obligation2 (c : Dev nD) : BodyObligation (dat2 (F := F) V c) (defs₀ (F := F)) Variants.none () Set.univ := fun t => by
  rw [bigSep_W2, bigSep_W2]
  exact sound_body2 V c t

end

end Cert.KernelIdeal.Hand

end
-- ==== Proof.KI.R3.lean ====
/-
  Region 3: the gated product h = (g · logistic g) · u with g = x·w1ᵀ and u = x·w3ᵀ. The grid is 4 × 14 × 2 and the
  last axis splits the contraction in two halves of 2048: at a point whose last coordinate is 0 the two accumulators
  are cleared and the first half's products are added; at a point whose last coordinate is 1 the second half's
  products are added and the gated product of the two sums is stored into the output block. The accumulators are
  the kernel's own buffers and are carried from the even point to the odd point after it. Stated at the contents
  `V` the region is entered with: what the output's staging buffer and the two accumulators hold after each point,
  the body's triple in each of the two cases, the proof data, the obligation at a generic point.
-/
import proofs.«169556_j22153441312857_1_alg».proof.Proof.Gen.KernelIdeal.Launch
import proofs.«169556_j22153441312857_1_alg».proof.Proof.Gen.KernelIdeal.Skeleton
import proofs.«169556_j22153441312857_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, cut out of its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The activations' staging buffer holds the block of point `t` whenever the body runs there. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The first weight's staging buffer holds the block of point `t` whenever the body runs there. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The second weight's staging buffer holds the block of point `t` whenever the body runs there. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

end

/-! ## The two branches, decided by the parity of the point -/

/-- The body clears the accumulators exactly when the last grid coordinate is 0, -/
abbrev zeroing3 (i : grid3.Coords) : Prop :=
  (Scalar.cmpi .ne (Scalar.extui (Scalar.cmpi .eq (BitVec.ofNat 32 (i 2).val) 0#32)) 0#32) = 1#1
/-- that is at the even points; -/
theorem zeroing3_iff : ∀ t : Fin cfg3.N, zeroing3 (grid3.coords t) ↔ t.val % 2 = 0 :=
  (by decide +kernel : ∀ t : Fin grid3.N, zeroing3 (grid3.coords t) ↔ t.val % 2 = 0)

/-- it stores the output block exactly when the last grid coordinate is 1, -/
abbrev storing3 (i : grid3.Coords) : Prop := k3_cond2 i = 1#1
/-- that is at the odd points. -/
theorem storing3_iff : ∀ t : Fin cfg3.N, storing3 (grid3.coords t) ↔ t.val % 2 = 1 :=
  (by decide +kernel : ∀ t : Fin grid3.N, storing3 (grid3.coords t) ↔ t.val % 2 = 1)

theorem not_storing3_of_even (t : Fin cfg3.N) (h : t.val % 2 = 0) : ¬storing3 (grid3.coords t) :=
  fun hs => by have := (storing3_iff t).mp hs; omega
theorem not_zeroing3_of_odd (t : Fin cfg3.N) (h : t.val % 2 = 1) : ¬zeroing3 (grid3.coords t) :=
  fun hz => by have := (zeroing3_iff t).mp hz; omega

/-- The three inputs are read at every point. -/
theorem live3_0 (t : Fin cfg3.N) : cfg3.idle 0 (grid3.coords t) = false := rfl
theorem live3_1 (t : Fin cfg3.N) : cfg3.idle 1 (grid3.coords t) = false := rfl
theorem live3_2 (t : Fin cfg3.N) : cfg3.idle 2 (grid3.coords t) = false := rfl
/-- At an even point nothing is stored into the output block, and the block is not written back; -/
theorem idle3_3_even : ∀ t : Fin cfg3.N, t.val % 2 = 0 → cfg3.idle 3 (grid3.coords t) = true :=
  (by decide +kernel : ∀ t : Fin grid3.N, t.val % 2 = 0 → idle3 3 (grid3.coords t) = true)
theorem noFlush3_3_even (t : Fin cfg3.N) (h : t.val % 2 = 0) : (cfg3.win 3).flush t = false := by
  cases hf : (cfg3.win 3).flush t with
  | false => rfl
  | true => have := (flush3_3 t).mp hf; omega
/-- at an odd point it is stored. -/
theorem live3_3_odd : ∀ t : Fin cfg3.N, t.val % 2 = 1 → cfg3.idle 3 (grid3.coords t) = false :=
  (by decide +kernel : ∀ t : Fin grid3.N, t.val % 2 = 1 → idle3 3 (grid3.coords t) = false)

/-! ## The staging buffers at a point, the accumulators, and the invariant the launch hands over -/

abbrev ms3_0 (t : Fin cfg3.N) : Memref sig .tc .vmem S512x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x2048 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x2048 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S512x1024 .bf16 := win3_3.stage (cfg3.slots t 3)
abbrev hs3_3 (t : Fin cfg3.N) : (ms3_3 t).IsWhole := hstage3_3 ((cfg3.slots t 3).cast nbuf3_3)

/-- The accumulator of x·w1ᵀ and the accumulator of x·w3ᵀ: whole buffers of the kernel's own. -/
abbrev accG3 : Memref sig .tc .vmem S512x1024 .f32 := Memref.whole cc3_scratch0
abbrev accU3 : Memref sig .tc .vmem S512x1024 .f32 := Memref.whole cc3_scratch1

/-- Every other scoped buffer of the core that is no staging buffer of this region, at some contents each. -/
def others3 (c : Dev nD) : sProp 𝕄 :=
  Pipeline.scopedRestBut (Ix := Unit) (Name := ℕ) (U := UR sig nD τ) (Lvl := ℕ) (Val := Elt F) spec3 c [cc3_scratch0, cc3_scratch1]

/-- What the launch hands the region, with the two accumulators taken out of the scoped rest and owned as memrefs. -/
theorem PhiA3_eq (c : Dev nD) :
    (Pipeline.ΦA spec3 c : sProp 𝕄)
      = iprop((((∃ d, owns (c : Thread nD τ) accG3 fullShare d) ∗ (∃ d, owns (c : Thread nD τ) accU3 fullShare d)) ∗ others3 c)
          ∗ (∃ r, prngReg c r)) := by
  unfold Pipeline.ΦA others3
  rw [Pipeline.scopedRest_split_of_list spec3 c [cc3_scratch0, cc3_scratch1] (by decide) (by decide)]
  simp only [accG3, accU3, owns_whole, bigSepL_cons_cons, bigSepL_singleton]; try rfl

/-- The zero offsets of a load or store through a whole 512 × 1024 buffer. -/
theorem zeroOff3 : (![0, 0] : Fin S512x1024.rank → ℕ) = fun _ => 0 := by
  funext a; fin_cases a <;> rfl
theorem zeroOff3x : (![0, 0] : Fin S512x2048.rank → ℕ) = fun _ => 0 := by
  funext a; fin_cases a <;> rfl
theorem zeroOff3w : (![0, 0] : Fin S1024x2048.rank → ℕ) = fun _ => 0 := by
  funext a; fin_cases a <;> rfl

/-! ## The body on whole buffers, case by case

Each case's run of the body also FINDS, as lists of written pieces (last first), what the body's stores leave in the
buffers it writes: the lists are fixed when the run hands each buffer to the continuation. -/

set_option maxHeartbeats 4000000 in
/-- AT AN EVEN POINT (the accumulators are cleared, the output block is left alone): with the three inputs' buffers
    at `x0`, `x1`, `x2`, the output's at any `xi` and the accumulators at anything, the body ends with the inputs and
    the output's buffer as they were and each accumulator with its pieces written. -/
noncomputable def kernelRun3_E (c : Dev nD) (i : grid3.Coords)
    (arg3 : Memref sig .tc .vmem S512x2048 .bf16) (harg3 : arg3.IsWhole) (arg4 : Memref sig .tc .vmem S1024x2048 .bf16) (harg4 : arg4.IsWhole)
    (arg5 : Memref sig .tc .vmem S1024x2048 .bf16) (harg5 : arg5.IsWhole) (arg6 : Memref sig .tc .vmem S512x1024 .bf16) (harg6 : arg6.IsWhole)
    (arg7 : Memref sig .tc .vmem S512x1024 .f32) (harg7 : arg7.IsWhole) (arg8 : Memref sig .tc .vmem S512x1024 .f32) (harg8 : arg8.IsWhole)
    (hc0 : zeroing3 i) (hc1 : ¬storing3 i)
    (x0 : Vec F S512x2048 .bf16) (x1 : Vec F S1024x2048 .bf16) (x2 : Vec F S1024x2048 .bf16) :
    Σ' (LG : List (View.Piece (Elt F) S512x1024 .f32)), { LU : List (View.Piece (Elt F) S512x1024 .f32) //
      ∀ (xi : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi
                ∗ (∃ f, arg7.view.loc (c : Thread nD τ) ↦[arg7.view.set]{fullShare} arg7.view.writes (Elt F) f LG)
                ∗ (∃ f, arg8.view.loc (c : Thread nD τ) ↦[arg8.view.set]{fullShare} arg8.view.writes (Elt F) f LU)) -∗ K ⟨⟩))
          ⊢ wp frame (wpE (defs₀ (F := F)) Variants.none c none) E (cc3__gated_body i arg3 harg3 arg4 harg4 arg5 harg5 arg6 harg6 arg7 harg7 arg8 harg8) K } := by
  refine ⟨?_, ?_, fun xi E K => ?run⟩
  case run =>
    simp only [cc3__gated_body_eq_skeleton]; unfold cc3__gated_body_skel
    unfold owns
    iintro ⟨⟨%f0, %hf0, H0⟩, ⟨%f1, %hf1, H1⟩, ⟨%f2, %hf2, H2⟩, ⟨%f3, %hf3, H3⟩, ⟨%dg, %fg, -, HG⟩, ⟨%du, %fu, -, HU⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HG]; · iexists _; iexact HG
    iexists _; iexact HU

set_option maxHeartbeats 4000000 in
/-- AT AN ODD POINT (nothing is cleared, the output block is stored): with the three inputs' buffers at `x0`, `x1`,
    `x2`, the accumulators at `g` and `u` and the output's buffer at anything, the body ends with the inputs as they
    were and the output's buffer and each accumulator with its pieces written. -/
noncomputable def kernelRun3_O (c : Dev nD) (i : grid3.Coords)
    (arg3 : Memref sig .tc .vmem S512x2048 .bf16) (harg3 : arg3.IsWhole) (arg4 : Memref sig .tc .vmem S1024x2048 .bf16) (harg4 : arg4.IsWhole)
    (arg5 : Memref sig .tc .vmem S1024x2048 .bf16) (harg5 : arg5.IsWhole) (arg6 : Memref sig .tc .vmem S512x1024 .bf16) (harg6 : arg6.IsWhole)
    (arg7 : Memref sig .tc .vmem S512x1024 .f32) (harg7 : arg7.IsWhole) (arg8 : Memref sig .tc .vmem S512x1024 .f32) (harg8 : arg8.IsWhole)
    (hc0 : ¬zeroing3 i) (hc1 : storing3 i)
    (x0 : Vec F S512x2048 .bf16) (x1 : Vec F S1024x2048 .bf16) (x2 : Vec F S1024x2048 .bf16)
    (g : Vec F S512x1024 .f32) (u : Vec F S512x1024 .f32) :
    Σ' (LH : List (View.Piece (Elt F) S512x1024 .bf16)) (LG : List (View.Piece (Elt F) S512x1024 .f32)), { LU : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare g ∗ owns (c : Thread nD τ) arg8 fullShare u
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f LH)
                ∗ (∃ f, arg7.view.loc (c : Thread nD τ) ↦[arg7.view.set]{fullShare} arg7.view.writes (Elt F) f LG)
                ∗ (∃ f, arg8.view.loc (c : Thread nD τ) ↦[arg8.view.set]{fullShare} arg8.view.writes (Elt F) f LU)) -∗ K ⟨⟩))
          ⊢ wp frame (wpE (defs₀ (F := F)) Variants.none c none) E (cc3__gated_body i arg3 harg3 arg4 harg4 arg5 harg5 arg6 harg6 arg7 harg7 arg8 harg8) K } := by
  refine ⟨?_, ?_, ?_, fun E K => ?run⟩
  case run =>
    simp only [cc3__gated_body_eq_skeleton]; unfold cc3__gated_body_skel
    unfold owns
    iintro ⟨⟨%f0, %hf0, H0⟩, ⟨%f1, %hf1, H1⟩, ⟨%f2, %hf2, H2⟩, ⟨%d3, %f3, -, H3⟩, ⟨%fg, %hfg, HG⟩, ⟨%fu, %hfu, HU⟩, Hk⟩
    obtain rfl := harg3.eq_unread hf0; obtain rfl := harg4.eq_unread hf1; obtain rfl := harg5.eq_unread hf2
    obtain rfl := harg7.eq_unread hfg; obtain rfl := harg8.eq_unread hfu
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HG]; · iexists _; iexact HG
    iexists _; iexact HU

/-! ## What each case's pieces amount to -/

section pieces
variable (c : Dev nD) (i : grid3.Coords)
    (arg3 : Memref sig .tc .vmem S512x2048 .bf16) (harg3 : arg3.IsWhole) (arg4 : Memref sig .tc .vmem S1024x2048 .bf16) (harg4 : arg4.IsWhole)
    (arg5 : Memref sig .tc .vmem S1024x2048 .bf16) (harg5 : arg5.IsWhole) (arg6 : Memref sig .tc .vmem S512x1024 .bf16) (harg6 : arg6.IsWhole)
    (arg7 : Memref sig .tc .vmem S512x1024 .f32) (harg7 : arg7.IsWhole) (arg8 : Memref sig .tc .vmem S512x1024 .f32) (harg8 : arg8.IsWhole)

/-- Each list of pieces tiles its buffer: one whole-buffer store is the last write in it. -/
theorem coverE_G (hc0 : zeroing3 i) (hc1 : ¬storing3 i) (x0 : Vec F S512x2048 .bf16) (x1 : Vec F S1024x2048 .bf16) (x2 : Vec F S1024x2048 .bf16)
    (y : S512x1024.Idx) : ∃ pc ∈ (kernelRun3_E c i arg3 harg3 arg4 harg4 arg5 harg5 arg6 harg6 arg7 harg7 arg8 harg8 hc0 hc1 x0 x1 x2).1, y ∈ pc.1.set :=
  View.cover_of_tiledL (kernelRun3_E c i arg3 harg3 arg4 harg4 arg5 harg5 arg6 harg6 arg7 harg7 arg8 harg8 hc0 hc1 x0 x1 x2).1 S512x1024.size (by sl_kernel_rfl) y
theorem coverE_U (hc0 : zeroing3 i) (hc1 : ¬storing3 i) (x0 : Vec F S512x2048 .bf16) (x1 : Vec F S1024x2048 .bf16) (x2 : Vec F S1024x2048 .bf16)
    (y : S512x1024.Idx) : ∃ pc ∈ (kernelRun3_E c i arg3 harg3 arg4 harg4 arg5 harg5 arg6 harg6 arg7 harg7 arg8 harg8 hc0 hc1 x0 x1 x2).2.1, y ∈ pc.1.set :=
  View.cover_of_tiledL (kernelRun3_E c i arg3 harg3 arg4 harg4 arg5 harg5 arg6 harg6 arg7 harg7 arg8 harg8 hc0 hc1 x0 x1 x2).2.1 S512x1024.size (by sl_kernel_rfl) y
theorem coverO_H (hc0 : ¬zeroing3 i) (hc1 : storing3 i) (x0 : Vec F S512x2048 .bf16) (x1 : Vec F S1024x2048 .bf16) (x2 : Vec F S1024x2048 .bf16)
    (g u : Vec F S512x1024 .f32) (y : S512x1024.Idx) : ∃ pc ∈ (kernelRun3_O c i arg3 harg3 arg4 harg4 arg5 harg5 arg6 harg6 arg7 harg7 arg8 harg8 hc0 hc1 x0 x1 x2 g u).1, y ∈ pc.1.set :=
  View.cover_of_tiledL (kernelRun3_O c i arg3 harg3 arg4 harg4 arg5 harg5 arg6 harg6 arg7 harg7 arg8 harg8 hc0 hc1 x0 x1 x2 g u).1 S512x1024.size (by sl_kernel_rfl) y
theorem coverO_G (hc0 : ¬zeroing3 i) (hc1 : storing3 i) (x0 : Vec F S512x2048 .bf16) (x1 : Vec F S1024x2048 .bf16) (x2 : Vec F S1024x2048 .bf16)
    (g u : Vec F S512x1024 .f32) (y : S512x1024.Idx) : ∃ pc ∈ (kernelRun3_O c i arg3 harg3 arg4 harg4 arg5 harg5 arg6 harg6 arg7 harg7 arg8 harg8 hc0 hc1 x0 x1 x2 g u).2.1, y ∈ pc.1.set :=
  View.cover_of_tiledL (kernelRun3_O c i arg3 harg3 arg4 harg4 arg5 harg5 arg6 harg6 arg7 harg7 arg8 harg8 hc0 hc1 x0 x1 x2 g u).2.1 S512x1024.size (by sl_kernel_rfl) y
theorem coverO_U (hc0 : ¬zeroing3 i) (hc1 : storing3 i) (x0 : Vec F S512x2048 .bf16) (x1 : Vec F S1024x2048 .bf16) (x2 : Vec F S1024x2048 .bf16)
    (g u : Vec F S512x1024 .f32) (y : S512x1024.Idx) : ∃ pc ∈ (kernelRun3_O c i arg3 harg3 arg4 harg4 arg5 harg5 arg6 harg6 arg7 harg7 arg8 harg8 hc0 hc1 x0 x1 x2 g u).2.2.1, y ∈ pc.1.set :=
  View.cover_of_tiledL (kernelRun3_O c i arg3 harg3 arg4 harg4 arg5 harg5 arg6 harg6 arg7 harg7 arg8 harg8 hc0 hc1 x0 x1 x2 g u).2.2.1 S512x1024.size (by sl_kernel_rfl) y

/-- At an even point the first accumulator ends at the first half's products added to zero, -/
theorem leftE_G (hc0 : zeroing3 i) (hc1 : ¬storing3 i) (x0 : Vec F S512x2048 .bf16) (x1 : Vec F S1024x2048 .bf16) (x2 : Vec F S1024x2048 .bf16)
    (v : View sig .tc .vmem S512x1024 .f32) (f : v.ty.Contents (Elt F)) :
    v.read (Elt F) (v.writes (Elt F) f (kernelRun3_E c i arg3 harg3 arg4 harg4 arg5 harg5 arg6 harg6 arg7 harg7 arg8 harg8 hc0 hc1 x0 x1 x2).1) = k3_pay4 x0 x1 (k3_pay1 (F := F)) := by
  rw [View.read_writes_eq_canon _ _ _ (coverE_G c i arg3 harg3 arg4 harg4 arg5 harg5 arg6 harg6 arg7 harg7 arg8 harg8 hc0 hc1 x0 x1 x2)]
  unfold kernelRun3_E; dsimp only; sl_unfold_words
  rw [View.canon_cons_unit_zero (S := S512x1024) zeroOff3, View.readCov_unit_zero (S := S512x1024) _ zeroOff3]
  simp only [View.readAt_eq_ld, harg3.read_unread, harg4.read_unread, harg5.read_unread, View.ld_unit_zero (S := S512x2048) zeroOff3x, View.ld_unit_zero (S := S1024x2048) zeroOff3w]
/-- and the second likewise. -/
theorem leftE_U (hc0 : zeroing3 i) (hc1 : ¬storing3 i) (x0 : Vec F S512x2048 .bf16) (x1 : Vec F S1024x2048 .bf16) (x2 : Vec F S1024x2048 .bf16)
    (v : View sig .tc .vmem S512x1024 .f32) (f : v.ty.Contents (Elt F)) :
    v.read (Elt F) (v.writes (Elt F) f (kernelRun3_E c i arg3 harg3 arg4 harg4 arg5 harg5 arg6 harg6 arg7 harg7 arg8 harg8 hc0 hc1 x0 x1 x2).2.1) = k3_pay5 x0 x2 (k3_pay2 (F := F)) := by
  rw [View.read_writes_eq_canon _ _ _ (coverE_U c i arg3 harg3 arg4 harg4 arg5 harg5 arg6 harg6 arg7 harg7 arg8 harg8 hc0 hc1 x0 x1 x2)]
  unfold kernelRun3_E; dsimp only; sl_unfold_words
  rw [View.canon_cons_unit_zero (S := S512x1024) zeroOff3, View.readCov_unit_zero (S := S512x1024) _ zeroOff3]
  simp only [View.readAt_eq_ld, harg3.read_unread, harg4.read_unread, harg5.read_unread, View.ld_unit_zero (S := S512x2048) zeroOff3x, View.ld_unit_zero (S := S1024x2048) zeroOff3w]

/-- At an odd point each accumulator ends at the second half's products added to what it held, -/
theorem leftO_G (hc0 : ¬zeroing3 i) (hc1 : storing3 i) (x0 : Vec F S512x2048 .bf16) (x1 : Vec F S1024x2048 .bf16) (x2 : Vec F S1024x2048 .bf16)
    (g u : Vec F S512x1024 .f32) (v : View sig .tc .vmem S512x1024 .f32) (f : v.ty.Contents (Elt F)) :
    v.read (Elt F) (v.writes (Elt F) f (kernelRun3_O c i arg3 harg3 arg4 harg4 arg5 harg5 arg6 harg6 arg7 harg7 arg8 harg8 hc0 hc1 x0 x1 x2 g u).2.1) = k3_pay4 x0 x1 g := by
  rw [View.read_writes_eq_canon _ _ _ (coverO_G c i arg3 harg3 arg4 harg4 arg5 harg5 arg6 harg6 arg7 harg7 arg8 harg8 hc0 hc1 x0 x1 x2 g u)]
  unfold kernelRun3_O; dsimp only; sl_unfold_words
  rw [View.canon_unit_zero (S := S512x1024) zeroOff3]
  simp only [View.readAt_eq_ld, harg3.read_unread, harg4.read_unread, harg5.read_unread, harg7.read_unread, harg8.read_unread, View.ld_unit_zero (S := S512x2048) zeroOff3x, View.ld_unit_zero (S := S1024x2048) zeroOff3w, View.ld_unit_zero (S := S512x1024) zeroOff3]
theorem leftO_U (hc0 : ¬zeroing3 i) (hc1 : storing3 i) (x0 : Vec F S512x2048 .bf16) (x1 : Vec F S1024x2048 .bf16) (x2 : Vec F S1024x2048 .bf16)
    (g u : Vec F S512x1024 .f32) (v : View sig .tc .vmem S512x1024 .f32) (f : v.ty.Contents (Elt F)) :
    v.read (Elt F) (v.writes (Elt F) f (kernelRun3_O c i arg3 harg3 arg4 harg4 arg5 harg5 arg6 harg6 arg7 harg7 arg8 harg8 hc0 hc1 x0 x1 x2 g u).2.2.1) = k3_pay5 x0 x2 u := by
  rw [View.read_writes_eq_canon _ _ _ (coverO_U c i arg3 harg3 arg4 harg4 arg5 harg5 arg6 harg6 arg7 harg7 arg8 harg8 hc0 hc1 x0 x1 x2 g u)]
  unfold kernelRun3_O; dsimp only; sl_unfold_words
  rw [View.canon_unit_zero (S := S512x1024) zeroOff3]
  simp only [View.readAt_eq_ld, harg3.read_unread, harg4.read_unread, harg5.read_unread, harg7.read_unread, harg8.read_unread, View.ld_unit_zero (S := S512x2048) zeroOff3x, View.ld_unit_zero (S := S1024x2048) zeroOff3w, View.ld_unit_zero (S := S512x1024) zeroOff3]
/-- and the output's buffer at the gated product of the two sums just stored. -/
theorem leftO_H (hc0 : ¬zeroing3 i) (hc1 : storing3 i) (x0 : Vec F S512x2048 .bf16) (x1 : Vec F S1024x2048 .bf16) (x2 : Vec F S1024x2048 .bf16)
    (g u : Vec F S512x1024 .f32) (v : View sig .tc .vmem S512x1024 .bf16) (f : v.ty.Contents (Elt F)) :
    v.read (Elt F) (v.writes (Elt F) f (kernelRun3_O c i arg3 harg3 arg4 harg4 arg5 harg5 arg6 harg6 arg7 harg7 arg8 harg8 hc0 hc1 x0 x1 x2 g u).1) = k3_pay6 (k3_pay4 x0 x1 g) (k3_pay5 x0 x2 u) := by
  rw [View.read_writes_eq_canon _ _ _ (coverO_H c i arg3 harg3 arg4 harg4 arg5 harg5 arg6 harg6 arg7 harg7 arg8 harg8 hc0 hc1 x0 x1 x2 g u)]
  unfold kernelRun3_O; dsimp only; sl_unfold_words
  rw [View.canon_unit_zero (S := S512x1024) zeroOff3]
  simp only [View.readAt_eq_ld, View.readCov_unit_zero (S := S512x1024) _ zeroOff3, harg3.read_unread, harg4.read_unread, harg5.read_unread, harg7.read_unread, harg8.read_unread, View.ld_unit_zero (S := S512x2048) zeroOff3x, View.ld_unit_zero (S := S1024x2048) zeroOff3w, View.ld_unit_zero (S := S512x1024) zeroOff3]

end pieces

section
variable (V : (c : Dev nD) → (b : Ref sig .tc) → Buf (Elt F) ((c : Thread nD τ).loc b))

/-! ## What the output's buffer and the accumulators hold after each point -/

/-- Where the output's buffer is left alone its contents are never consulted: any value will do. -/
def untouched3 : Vec F S512x1024 .bf16 := View.canon []

/-- After an even point: the output's buffer untouched, each accumulator at the first half's products over zero. -/
def evenAt3 (c : Dev nD) (t : Fin cfg3.N) : Vec F S512x1024 .bf16 × Vec F S512x1024 .f32 × Vec F S512x1024 .f32 :=
  (untouched3, k3_pay4 (iblk3 V c 0 t) (iblk3 V c 1 t) (k3_pay1 (F := F)), k3_pay5 (iblk3 V c 0 t) (iblk3 V c 2 t) (k3_pay2 (F := F)))

/-- After an odd point that found the accumulators at `g` and `u`: each accumulator with the second half's products
    added, and the output's buffer at the gated product of the two. -/
def oddAt3 (c : Dev nD) (t : Fin cfg3.N) (g u : Vec F S512x1024 .f32) : Vec F S512x1024 .bf16 × Vec F S512x1024 .f32 × Vec F S512x1024 .f32 :=
  (k3_pay6 (k3_pay4 (iblk3 V c 0 t) (iblk3 V c 1 t) g) (k3_pay5 (iblk3 V c 0 t) (iblk3 V c 2 t) u),
    k3_pay4 (iblk3 V c 0 t) (iblk3 V c 1 t) g, k3_pay5 (iblk3 V c 0 t) (iblk3 V c 2 t) u)

/-- THE ACCUMULATION, point by point: (the output's staging buffer, the accumulator of x·w1ᵀ, the accumulator of x·w3ᵀ)
    after the body at position `n`. An even point starts afresh; an odd point continues from the point before it. -/
def outsAt3 (c : Dev nD) : (n : ℕ) → n < cfg3.N → Vec F S512x1024 .bf16 × Vec F S512x1024 .f32 × Vec F S512x1024 .f32
  | 0, hn => evenAt3 V c ⟨0, hn⟩
  | n + 1, hn =>
    if (n + 1) % 2 = 0 then evenAt3 V c ⟨n + 1, hn⟩
    else oddAt3 V c ⟨n + 1, hn⟩ (outsAt3 c n (Nat.lt_of_succ_lt hn)).2.1 (outsAt3 c n (Nat.lt_of_succ_lt hn)).2.2

theorem outsAt3_even (c : Dev nD) (t : Fin cfg3.N) (h : t.val % 2 = 0) : outsAt3 V c t.val t.isLt = evenAt3 V c t := by
  obtain ⟨n, hn⟩ := t
  cases n with
  | zero => rfl
  | succ n => exact if_pos h

theorem outsAt3_odd (c : Dev nD) (t : Fin cfg3.N) (h : t.val % 2 = 1) :
    outsAt3 V c t.val t.isLt = oddAt3 V c t (outsAt3 V c (t.val - 1) (Nat.lt_of_le_of_lt (Nat.sub_le _ _) t.isLt)).2.1
      (outsAt3 V c (t.val - 1) (Nat.lt_of_le_of_lt (Nat.sub_le _ _) t.isLt)).2.2 := by
  obtain ⟨n, hn⟩ := t
  cases n with
  | zero => exact absurd h (show ¬((0 : ℕ) % 2 = 1) from by decide)
  | succ n => exact if_neg (by (try dsimp only at h); omega)

/-! ## The accumulation read at each parity -/

theorem g3_even (c : Dev nD) (t : Fin cfg3.N) (h : t.val % 2 = 0) :
    (outsAt3 V c t.val t.isLt).2.1 = k3_pay4 (iblk3 V c 0 t) (iblk3 V c 1 t) (k3_pay1 (F := F)) := by
  rw [outsAt3_even V c t h]; rfl
theorem u3_even (c : Dev nD) (t : Fin cfg3.N) (h : t.val % 2 = 0) :
    (outsAt3 V c t.val t.isLt).2.2 = k3_pay5 (iblk3 V c 0 t) (iblk3 V c 2 t) (k3_pay2 (F := F)) := by
  rw [outsAt3_even V c t h]; rfl
theorem g3_odd (c : Dev nD) (t : Fin cfg3.N) (h : t.val % 2 = 1) :
    (outsAt3 V c t.val t.isLt).2.1 = k3_pay4 (iblk3 V c 0 t) (iblk3 V c 1 t) (outsAt3 V c (t.val - 1) (by omega)).2.1 := by
  rw [outsAt3_odd V c t h]; rfl
theorem u3_odd (c : Dev nD) (t : Fin cfg3.N) (h : t.val % 2 = 1) :
    (outsAt3 V c t.val t.isLt).2.2 = k3_pay5 (iblk3 V c 0 t) (iblk3 V c 2 t) (outsAt3 V c (t.val - 1) (by omega)).2.2 := by
  rw [outsAt3_odd V c t h]; rfl
theorem h3_odd (c : Dev nD) (t : Fin cfg3.N) (h : t.val % 2 = 1) :
    (outsAt3 V c t.val t.isLt).1 = k3_pay6 (outsAt3 V c t.val t.isLt).2.1 (outsAt3 V c t.val t.isLt).2.2 := by
  rw [outsAt3_odd V c t h]; rfl

/-! ## The invariant and the proof data -/

/-- Before position `n`: at the first point what the launch hands over; afterwards the two accumulators at what the
    point before left in them, the other scoped buffers at anything, the generator register at some state. -/
def PhiS3 (c : Dev nD) : (n : ℕ) → n ≤ cfg3.N → sProp 𝕄
  | 0, _ => Pipeline.ΦA spec3 c
  | n + 1, hn => iprop(((owns (c : Thread nD τ) accG3 fullShare (outsAt3 V c n hn).2.1 ∗ owns (c : Thread nD τ) accU3 fullShare (outsAt3 V c n hn).2.2) ∗ others3 c)
      ∗ (∃ r, prngReg c r))

theorem PhiS3_succ (c : Dev nD) (n : ℕ) (hn : n < cfg3.N) :
    PhiS3 V c (n + 1) hn = iprop(((owns (c : Thread nD τ) accG3 fullShare (outsAt3 V c n hn).2.1 ∗ owns (c : Thread nD τ) accU3 fullShare (outsAt3 V c n hn).2.2) ∗ others3 c)
      ∗ (∃ r, prngReg c r)) := rfl

theorem PhiS3_pos (c : Dev nD) (n : ℕ) (h : n ≤ cfg3.N) (hz : n ≠ 0) :
    PhiS3 V c n h = iprop(((owns (c : Thread nD τ) accG3 fullShare (outsAt3 V c (n - 1) (by omega)).2.1
        ∗ owns (c : Thread nD τ) accU3 fullShare (outsAt3 V c (n - 1) (by omega)).2.2) ∗ others3 c) ∗ (∃ r, prngReg c r)) := by
  cases n with
  | zero => exact absurd rfl hz
  | succ n => rfl

/-- At any position the invariant gives back what the launch handed over: the accumulators' contents are forgotten. -/
theorem PhiS3_forget (c : Dev nD) (n : ℕ) (h : n ≤ cfg3.N) : PhiS3 V c n h ⊢ Pipeline.ΦA spec3 c := by
  cases n with
  | zero => exact Idealize.SL.BI.Entails.refl _
  | succ n =>
    rw [PhiS3_succ, PhiA3_eq]
    iintro ⟨⟨⟨HG, HU⟩, HR⟩, Hg⟩
    isplitl [HG HU HR]
    · isplitl [HG HU]
      · isplitl [HG]
        · iexists _; iexact HG
        · iexists _; iexact HU
      · iexact HR
    · iexact Hg

/-- The same with the two accumulators taken out as memrefs, each at some contents. -/
theorem PhiS3_open (c : Dev nD) (n : ℕ) (h : n ≤ cfg3.N) :
    PhiS3 V c n h ⊢ iprop((((∃ d, owns (c : Thread nD τ) accG3 fullShare d) ∗ (∃ d, owns (c : Thread nD τ) accU3 fullShare d)) ∗ others3 c)
      ∗ (∃ r, prngReg c r)) :=
  (PhiS3_forget V c n h).trans (Entails.of_eq (PhiA3_eq c))

/-- The region's proof data on core `c`: the arrays as entered; after the body at point `t` the three inputs' buffers
    at their blocks and the output's at the first component of the accumulation; the invariant above; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

theorem PhiS3_castSucc (c : Dev nD) (t : Fin cfg3.N) :
    (dat3 V c).Φ t.castSucc = PhiS3 V c t.val (Nat.le_of_lt t.isLt) := by
  dsimp only [dat3]; simp only [Fin.coe_castSucc]

/-! ## The body obligation at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point. The inputs' buffers hold their blocks. At an even point the accumulators are taken at
    anything (the invariant forgets what they held), the output's buffer passes through untouched, and the accumulators
    come back at the first half's sums; at an odd point the accumulators are taken at what the even point before left,
    and come back with the second half added, the output's buffer at the gated product. The core's dues pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [live3_0 t], after3_0]
  rw [show (dat3 V c).leavesExact 1 t = owns (c : Thread nD τ) (ms3_1 t) fullShare ((dat3 V c).after 1 t) from by
    unfold Dat.leavesExact; rw [live3_1 t], after3_1]
  rw [show (dat3 V c).leavesExact 2 t = owns (c : Thread nD τ) (ms3_2 t) fullShare ((dat3 V c).after 2 t) from by
    unfold Dat.leavesExact; rw [live3_2 t], after3_2]
  rcases Nat.mod_two_eq_zero_or_one t.val with h | h
  · rw [Dat.leavesExact_idle (dat3 V c) 3 t (idle3_3_even t h) (noFlush3_3_even t h)]
    rw [outsAt3_even V c t h]
    unfold evenAt3; dsimp only
    rw [PhiS3_castSucc V c t]
    iintro ⟨HΦ, Ho, ⟨%d0, H0⟩, ⟨%d1, H1⟩, ⟨%d2, H2⟩, ⟨%d3, H3⟩⟩
    ihave HΦ' := (PhiS3_open V c t.val (Nat.le_of_lt t.isLt)) $$ HΦ
    icases HΦ' with ⟨⟨⟨HG, HU⟩, HR⟩, Hg⟩
    iapply ((kernelRun3_E c (grid3.coords t) (ms3_0 t) (hs3_0 t) (ms3_1 t) (hs3_1 t) (ms3_2 t) (hs3_2 t) (ms3_3 t) (hs3_3 t)
      accG3 (Memref.isWhole_whole _) accU3 (Memref.isWhole_whole _) ((zeroing3_iff t).mpr h) (not_storing3_of_even t h)
      (iblk3 V c 0 t) (iblk3 V c 1 t) (iblk3 V c 2 t)).2.2 _ Set.univ _)
    isplitl [H0]; · iexact H0
    isplitl [H1]; · iexact H1
    isplitl [H2]; · iexact H2
    isplitl [H3]; · iexact H3
    isplitl [HG]; · iexact HG
    isplitl [HU]; · iexact HU
    iintro ⟨H0, H1, H2, H3, ⟨%eg, HG⟩, ⟨%eu, HU⟩⟩
    isplitl [HG HU HR Hg]
    · isplitl [HG HU HR]
      · isplitl [HG HU]
        · isplitl [HG]
          · unfold owns; iexists _; isplitr
            swap; · iexact HG
            ipureintro
            exact leftE_G c (grid3.coords t) (ms3_0 t) (hs3_0 t) (ms3_1 t) (hs3_1 t) (ms3_2 t) (hs3_2 t) (ms3_3 t) (hs3_3 t)
              accG3 (Memref.isWhole_whole _) accU3 (Memref.isWhole_whole _) ((zeroing3_iff t).mpr h) (not_storing3_of_even t h)
              (iblk3 V c 0 t) (iblk3 V c 1 t) (iblk3 V c 2 t) _ _
          · unfold owns; iexists _; isplitr
            swap; · iexact HU
            ipureintro
            exact leftE_U c (grid3.coords t) (ms3_0 t) (hs3_0 t) (ms3_1 t) (hs3_1 t) (ms3_2 t) (hs3_2 t) (ms3_3 t) (hs3_3 t)
              accG3 (Memref.isWhole_whole _) accU3 (Memref.isWhole_whole _) ((zeroing3_iff t).mpr h) (not_storing3_of_even t h)
              (iblk3 V c 0 t) (iblk3 V c 1 t) (iblk3 V c 2 t) _ _
        · iexact HR
      · iexact Hg
    isplitl [Ho]; · iexact Ho
    isplitl [H0]; · iexact H0
    isplitl [H1]; · iexact H1
    isplitl [H2]; · iexact H2
    iexists _; iexact H3
  · have hz : t.val ≠ 0 := by omega
    rw [show (dat3 V c).leavesExact 3 t = owns (c : Thread nD τ) (ms3_3 t) fullShare ((dat3 V c).after 3 t) from by
      unfold Dat.leavesExact; rw [live3_3_odd t h], after3_3]
    rw [outsAt3_odd V c t h]
    unfold oddAt3; dsimp only
    rw [PhiS3_castSucc V c t, PhiS3_pos V c _ _ hz]
    iintro ⟨⟨⟨⟨HG, HU⟩, HR⟩, Hg⟩, Ho, ⟨%d0, H0⟩, ⟨%d1, H1⟩, ⟨%d2, H2⟩, ⟨%d3, H3⟩⟩
    iapply ((kernelRun3_O c (grid3.coords t) (ms3_0 t) (hs3_0 t) (ms3_1 t) (hs3_1 t) (ms3_2 t) (hs3_2 t) (ms3_3 t) (hs3_3 t)
      accG3 (Memref.isWhole_whole _) accU3 (Memref.isWhole_whole _) (not_zeroing3_of_odd t h) ((storing3_iff t).mpr h)
      (iblk3 V c 0 t) (iblk3 V c 1 t) (iblk3 V c 2 t)
      (outsAt3 V c (t.val - 1) (Nat.lt_of_le_of_lt (Nat.sub_le _ _) t.isLt)).2.1
      (outsAt3 V c (t.val - 1) (Nat.lt_of_le_of_lt (Nat.sub_le _ _) t.isLt)).2.2).2.2.2 Set.univ _)
    isplitl [H0]; · iexact H0
    isplitl [H1]; · iexact H1
    isplitl [H2]; · iexact H2
    isplitl [H3]; · iexists _; iexact H3
    isplitl [HG]; · iexact HG
    isplitl [HU]; · iexact HU
    iintro ⟨H0, H1, H2, ⟨%eh, H3⟩, ⟨%eg, HG⟩, ⟨%eu, HU⟩⟩
    isplitl [HG HU HR Hg]
    · isplitl [HG HU HR]
      · isplitl [HG HU]
        · isplitl [HG]
          · unfold owns; iexists _; isplitr
            swap; · iexact HG
            ipureintro
            exact leftO_G c (grid3.coords t) (ms3_0 t) (hs3_0 t) (ms3_1 t) (hs3_1 t) (ms3_2 t) (hs3_2 t) (ms3_3 t) (hs3_3 t)
              accG3 (Memref.isWhole_whole _) accU3 (Memref.isWhole_whole _) (not_zeroing3_of_odd t h) ((storing3_iff t).mpr h)
              (iblk3 V c 0 t) (iblk3 V c 1 t) (iblk3 V c 2 t)
              (outsAt3 V c (t.val - 1) (Nat.lt_of_le_of_lt (Nat.sub_le _ _) t.isLt)).2.1
              (outsAt3 V c (t.val - 1) (Nat.lt_of_le_of_lt (Nat.sub_le _ _) t.isLt)).2.2 _ _
          · unfold owns; iexists _; isplitr
            swap; · iexact HU
            ipureintro
            exact leftO_U c (grid3.coords t) (ms3_0 t) (hs3_0 t) (ms3_1 t) (hs3_1 t) (ms3_2 t) (hs3_2 t) (ms3_3 t) (hs3_3 t)
              accG3 (Memref.isWhole_whole _) accU3 (Memref.isWhole_whole _) (not_zeroing3_of_odd t h) ((storing3_iff t).mpr h)
              (iblk3 V c 0 t) (iblk3 V c 1 t) (iblk3 V c 2 t)
              (outsAt3 V c (t.val - 1) (Nat.lt_of_le_of_lt (Nat.sub_le _ _) t.isLt)).2.1
              (outsAt3 V c (t.val - 1) (Nat.lt_of_le_of_lt (Nat.sub_le _ _) t.isLt)).2.2 _ _
        · iexact HR
      · iexact Hg
    isplitl [Ho]; · iexact Ho
    isplitl [H0]; · iexact H0
    isplitl [H1]; · iexact H1
    isplitl [H2]; · iexact H2
    unfold owns; iexists _; isplitr
    swap; · iexact H3
    ipureintro
    exact leftO_H c (grid3.coords t) (ms3_0 t) (hs3_0 t) (ms3_1 t) (hs3_1 t) (ms3_2 t) (hs3_2 t) (ms3_3 t) (hs3_3 t)
      accG3 (Memref.isWhole_whole _) accU3 (Memref.isWhole_whole _) (not_zeroing3_of_odd t h) ((storing3_iff t).mpr h)
      (iblk3 V c 0 t) (iblk3 V c 1 t) (iblk3 V c 2 t)
      (outsAt3 V c (t.val - 1) (Nat.lt_of_le_of_lt (Nat.sub_le _ _) t.isLt)).2.1
      (outsAt3 V c (t.val - 1) (Nat.lt_of_le_of_lt (Nat.sub_le _ _) t.isLt)).2.2 _ _

/-- The obligation the launch asks for, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl]
  exact Idealize.SL.BI.Entails.refl _

/-- After the last point the invariant gives it back. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl]
  exact PhiS3_forget V c _ _

end

end Cert.KernelIdeal.Hand

end
-- ==== Proof.KI.R4.lean ====
/-
  Region 4: the down projection. The grid is 2 × 4 × 7; the last coordinate k walks the seven 2048-wide slabs of the
  contracted axis. At a point the body reads a 1024 × 2048 block of the hidden activations and a 1024 × 2048 block of the
  scaled down weights, forms their product contracted over the 2048 axis, and adds it to a 1024 × 1024 accumulator kept
  in a scratch buffer that lives from point to point: at k = 0 the accumulator is first set to zero, at k = 6 the
  finished sum is copied into the output block, and at every other k the output block is not touched. Stated at the
  contents `V` the region is entered with: the accumulator after each point as a recursion over the points, the body's
  triple in each of the three cases of k, the invariant that carries the accumulator, the proof data and the obligation
  at a generic point.
-/
import proofs.«169556_j22153441312857_1_alg».proof.Proof.Gen.KernelIdeal.Launch
import proofs.«169556_j22153441312857_1_alg».proof.Proof.Gen.KernelIdeal.Skeleton
import proofs.«169556_j22153441312857_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which of the three cases a point is in -/

/-- The guard of the body's first conditional, spelled from the last grid coordinate as the body computes it:
    it asks whether k = 0. -/
abbrev zeroes4 (i : grid4.Coords) : Prop :=
  (Scalar.cmpi .ne (Scalar.extui (Scalar.cmpi .eq (BitVec.ofNat 32 (i 2).val) 0#32)) 0#32) = 1#1
/-- The guard of the second conditional: it asks whether k = 6. -/
abbrev copies4 (i : grid4.Coords) : Prop := k4_cond2 i = 1#1

/-- In the row-major order of the 56 points, k is the point's number modulo 7. -/
theorem zeroes4_iff : ∀ t : Fin cfg4.N, zeroes4 (grid4.coords t) ↔ t.val % 7 = 0 :=
  (by decide +kernel : ∀ t : Fin grid4.N, zeroes4 (grid4.coords t) ↔ t.val % 7 = 0)
theorem copies4_iff : ∀ t : Fin cfg4.N, copies4 (grid4.coords t) ↔ t.val % 7 = 6 :=
  (by decide +kernel : ∀ t : Fin grid4.N, copies4 (grid4.coords t) ↔ t.val % 7 = 6)

/-- The two inputs are in use at every point; the output block is in use exactly where k = 6, and elsewhere it is
    neither stored into nor written back. -/
theorem inUse4_0 : ∀ t : Fin cfg4.N, cfg4.idle 0 (grid4.coords t) = false := by decide +kernel
theorem inUse4_1 : ∀ t : Fin cfg4.N, cfg4.idle 1 (grid4.coords t) = false := by decide +kernel
theorem inUse4_2 : ∀ t : Fin cfg4.N, t.val % 7 = 6 → cfg4.idle 2 (grid4.coords t) = false := by decide +kernel
theorem atRest4_2 : ∀ t : Fin cfg4.N, t.val % 7 ≠ 6 → cfg4.idle 2 (grid4.coords t) = true := by decide +kernel
theorem notBack4_2 : ∀ t : Fin cfg4.N, t.val % 7 ≠ 6 → (cfg4.win 2).flush t = false := by decide +kernel

/-! ## The buffers the body works through -/

/-- The accumulator's buffer, whole. -/
abbrev accM4 : Memref sig .tc .vmem S1024x1024 .f32 := Memref.whole cc4_scratch0

/-- The whole 1024 × 1024 buffer and the whole 1024 × 2048 buffer as the rectangles the body loads and stores through. -/
abbrev rAcc4 : Rect S1024x1024 := Rect.unit (s := S1024x1024) ![0, 0] S1024x1024.size inb_S1024x1024_S1024x1024_0_0
abbrev rIn4 : Rect S1024x2048 := Rect.unit (s := S1024x2048) ![0, 0] S1024x2048.size inb_S1024x2048_S1024x2048_0_0

/-- Both offsets of those rectangles are zero. -/
theorem off4_zero : (![0, 0] : Fin 2 → ℕ) = fun _ => 0 := by
  funext a; fin_cases a <;> rfl

/-- The region's invariant as handed over by the launch, with the accumulator's buffer taken out of the scoped rest and
    owned at some contents. -/
theorem PhiA4_eq (c : Dev nD) :
    (Pipeline.ΦA spec4 c : sProp 𝕄)
      = iprop(iprop((∃ d, owns (c : Thread nD τ) accM4 fullShare d) ∗ Pipeline.scopedRestBut spec4 c [cc4_scratch0]) ∗ (∃ r, prngReg c r)) := by
  unfold Pipeline.ΦA; rw [scopedRest4_split]; simp only [accM4, owns_whole]; try rfl

/-! ## The body's triple, case by case

Each is stated on whole buffers at named contents. The run leaves every buffer it stored into as a list of stores over
what the buffer held; each store here is through the whole-buffer rectangle, so the last one alone decides what the
buffer reads, and a load through that rectangle reads the buffer as it stands. -/

set_option maxHeartbeats 2000000 in
/-- Where 0 < k < 6: with the two input buffers at `x0` and `x1` and the accumulator at `xs`, the body ends with the inputs
    and the output's buffer as they were and the accumulator at the product added to `xs`. -/
theorem run4_mid (c : Dev nD) (E : Set ℕ) (i : grid4.Coords)
    (arg3 : Memref sig .tc .vmem S1024x2048 .bf16) (harg3 : arg3.IsWhole) (arg4 : Memref sig .tc .vmem S1024x2048 .bf16) (harg4 : arg4.IsWhole)
    (arg5 : Memref sig .tc .vmem S1024x1024 .f32) (harg5 : arg5.IsWhole) (arg6 : Memref sig .tc .vmem S1024x1024 .f32) (harg6 : arg6.IsWhole)
    (hz : ¬zeroes4 i) (hc : ¬copies4 i)
    (x0 x1 : Vec F S1024x2048 .bf16) (xo xs : Vec F S1024x1024 .f32) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare xs
        ∗ (iprop(owns (c : Thread nD τ) arg3 fullShare x0 ∗ owns (c : Thread nD τ) arg4 fullShare x1 ∗ owns (c : Thread nD τ) arg5 fullShare xo
            ∗ owns (c : Thread nD τ) arg6 fullShare (k4_pay2 x0 x1 xs)) -∗ K ⟨⟩))
      ⊢ wp frame (wpE (defs₀ (F := F)) Variants.none c none) E (cc4__down_body i arg3 harg3 arg4 harg4 arg5 harg5 arg6 harg6) K := by
  simp only [cc4__down_body_eq_skeleton]; unfold cc4__down_body_skel
  unfold owns
  iintro ⟨⟨%f0, %hf0, H0⟩, ⟨%f1, %hf1, H1⟩, ⟨%f2, %hf2, H2⟩, ⟨%f3, %hf3, H3⟩, Hk⟩
  obtain rfl := harg3.eq_unread hf0; obtain rfl := harg4.eq_unread hf1; obtain rfl := harg6.eq_unread hf3
  sl_exec (disch := first | exact hz | exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact hf2
    iexact H2
  iexists _; isplitr
  swap; · iexact H3
  ipureintro
  sl_unfold_words
  rw [View.read_writes_eq_canon _ _ _ (fun y => ⟨_, List.mem_cons_self .., View.mem_set_unit_zero off4_zero inb_S1024x1024_S1024x1024_0_0 y⟩),
    View.canon_cons_unit_zero off4_zero]
  simp only [View.readAt_eq_ld, harg3.read_unread, harg4.read_unread, harg6.read_unread,
    View.ld_unit_zero (S := S1024x2048) off4_zero, View.ld_unit_zero (S := S1024x1024) off4_zero,
    View.readCov_unit_zero (S := S1024x1024) _ off4_zero]

set_option maxHeartbeats 2000000 in
/-- Where k = 0: whatever the accumulator held, the body sets it to zero and then adds the product; the inputs and the
    output's buffer end as they were. -/
theorem run4_first (c : Dev nD) (E : Set ℕ) (i : grid4.Coords)
    (arg3 : Memref sig .tc .vmem S1024x2048 .bf16) (harg3 : arg3.IsWhole) (arg4 : Memref sig .tc .vmem S1024x2048 .bf16) (harg4 : arg4.IsWhole)
    (arg5 : Memref sig .tc .vmem S1024x1024 .f32) (harg5 : arg5.IsWhole) (arg6 : Memref sig .tc .vmem S1024x1024 .f32) (harg6 : arg6.IsWhole)
    (hz : zeroes4 i) (hc : ¬copies4 i)
    (x0 x1 : Vec F S1024x2048 .bf16) (xo : Vec F S1024x1024 .f32) (K : PUnit → sProp 𝕄) :
    iprop(owns (c : Thread nD τ) arg3 fullShare x0 ∗ owns (c : Thread nD τ) arg4 fullShare x1 ∗ owns (c : Thread nD τ) arg5 fullShare xo
        ∗ (∃ d, owns (c : Thread nD τ) arg6 fullShare d)
        ∗ (iprop(owns (c : Thread nD τ) arg3 fullShare x0 ∗ owns (c : Thread nD τ) arg4 fullShare x1 ∗ owns (c : Thread nD τ) arg5 fullShare xo
            ∗ owns (c : Thread nD τ) arg6 fullShare (k4_pay2 x0 x1 (k4_pay1 (F := F)))) -∗ K ⟨⟩))
      ⊢ wp frame (wpE (defs₀ (F := F)) Variants.none c none) E (cc4__down_body i arg3 harg3 arg4 harg4 arg5 harg5 arg6 harg6) K := by
  simp only [cc4__down_body_eq_skeleton]; unfold cc4__down_body_skel
  unfold owns
  iintro ⟨⟨%f0, %hf0, H0⟩, ⟨%f1, %hf1, H1⟩, ⟨%f2, %hf2, H2⟩, ⟨%d3, %f3, -, H3⟩, Hk⟩
  obtain rfl := harg3.eq_unread hf0; obtain rfl := harg4.eq_unread hf1
  sl_exec (disch := first | exact hz | exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact hf2
    iexact H2
  iexists _; isplitr
  swap; · iexact H3
  ipureintro
  sl_unfold_words
  rw [View.read_writes_eq_canon _ _ _ (fun y => ⟨_, List.mem_cons_self .., View.mem_set_unit_zero off4_zero inb_S1024x1024_S1024x1024_0_0 y⟩),
    View.canon_cons_unit_zero off4_zero]
  simp only [View.readAt_eq_ld, harg3.read_unread, harg4.read_unread,
    View.ld_unit_zero (S := S1024x2048) off4_zero, View.ld_unit_zero (S := S1024x1024) off4_zero,
    View.readCov_unit_zero (S := S1024x1024) _ off4_zero]

set_option maxHeartbeats 2000000 in
/-- Where k = 6: the body adds the product to the accumulator at `xs` and copies the sum, read back from the accumulator,
    over whatever the output's buffer held; the inputs end as they were. -/
theorem run4_last (c : Dev nD) (E : Set ℕ) (i : grid4.Coords)
    (arg3 : Memref sig .tc .vmem S1024x2048 .bf16) (harg3 : arg3.IsWhole) (arg4 : Memref sig .tc .vmem S1024x2048 .bf16) (harg4 : arg4.IsWhole)
    (arg5 : Memref sig .tc .vmem S1024x1024 .f32) (harg5 : arg5.IsWhole) (arg6 : Memref sig .tc .vmem S1024x1024 .f32) (harg6 : arg6.IsWhole)
    (hz : ¬zeroes4 i) (hc : copies4 i)
    (x0 x1 : Vec F S1024x2048 .bf16) (xs : Vec F S1024x1024 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare xs
        ∗ (iprop(owns (c : Thread nD τ) arg3 fullShare x0 ∗ owns (c : Thread nD τ) arg4 fullShare x1
            ∗ owns (c : Thread nD τ) arg5 fullShare (k4_pay2 x0 x1 xs)
            ∗ owns (c : Thread nD τ) arg6 fullShare (k4_pay2 x0 x1 xs)) -∗ K ⟨⟩))
      ⊢ wp frame (wpE (defs₀ (F := F)) Variants.none c none) E (cc4__down_body i arg3 harg3 arg4 harg4 arg5 harg5 arg6 harg6) K := by
  simp only [cc4__down_body_eq_skeleton]; unfold cc4__down_body_skel
  unfold owns
  iintro ⟨⟨%f0, %hf0, H0⟩, ⟨%f1, %hf1, H1⟩, ⟨%d2, %f2, -, H2⟩, ⟨%f3, %hf3, H3⟩, Hk⟩
  obtain rfl := harg3.eq_unread hf0; obtain rfl := harg4.eq_unread hf1; obtain rfl := harg6.eq_unread hf3
  sl_exec (disch := first | exact hz | exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_words
    rw [View.read_writes_eq_canon _ _ _ (fun y => ⟨_, List.mem_cons_self .., View.mem_set_unit_zero off4_zero inb_S1024x1024_S1024x1024_0_0 y⟩),
      View.canon_cons_unit_zero off4_zero]
    simp only [View.readAt_eq_ld, harg3.read_unread, harg4.read_unread, harg6.read_unread,
      View.ld_unit_zero (S := S1024x2048) off4_zero, View.ld_unit_zero (S := S1024x1024) off4_zero,
      View.readCov_unit_zero (S := S1024x1024) _ off4_zero]
  iexists _; isplitr
  swap; · iexact H3
  ipureintro
  sl_unfold_words
  rw [View.read_writes_eq_canon _ _ _ (fun y => ⟨_, List.mem_cons_self .., View.mem_set_unit_zero off4_zero inb_S1024x1024_S1024x1024_0_0 y⟩),
    View.canon_cons_unit_zero off4_zero]
  simp only [View.readAt_eq_ld, harg3.read_unread, harg4.read_unread, harg6.read_unread,
    View.ld_unit_zero (S := S1024x2048) off4_zero, View.ld_unit_zero (S := S1024x1024) off4_zero,
    View.readCov_unit_zero (S := S1024x1024) _ off4_zero]

section
variable (V : (c : Dev nD) → (b : Ref sig .tc) → Buf (Elt F) ((c : Thread nD τ).loc b))

/-- Window `w`'s block at point `t`, cut out of its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The activations' staging buffer holds the block of point `t` whenever the body runs there. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weights' staging buffer holds the block of point `t` whenever the body runs there. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The accumulator point by point -/

/-- What the accumulator holds after the body at position `n`: where k = 0 the product of that point's two blocks added
    to zero; elsewhere that product added to what the point before left. -/
def acc4 (c : Dev nD) : (n : ℕ) → n < cfg4.N → Vec F S1024x1024 .f32
  | 0, hn => k4_pay2 (iblk4 V c 0 ⟨0, hn⟩) (iblk4 V c 1 ⟨0, hn⟩) (k4_pay1 (F := F))
  | n + 1, hn =>
    if (n + 1) % 7 = 0 then k4_pay2 (iblk4 V c 0 ⟨n + 1, hn⟩) (iblk4 V c 1 ⟨n + 1, hn⟩) (k4_pay1 (F := F))
    else k4_pay2 (iblk4 V c 0 ⟨n + 1, hn⟩) (iblk4 V c 1 ⟨n + 1, hn⟩) (acc4 c n (Nat.lt_of_succ_lt hn))

/-- At a point with k = 0 the sum starts afresh; -/
theorem acc4_fresh (c : Dev nD) (t : Fin cfg4.N) (h : t.val % 7 = 0) :
    acc4 V c t.val t.isLt = k4_pay2 (iblk4 V c 0 t) (iblk4 V c 1 t) (k4_pay1 (F := F)) := by
  obtain ⟨n, hn⟩ := t
  cases n with
  | zero => rfl
  | succ n => exact if_pos h

/-- at any other point it goes on from the point before. -/
theorem acc4_onward (c : Dev nD) (t : Fin cfg4.N) (h : t.val % 7 ≠ 0) :
    acc4 V c t.val t.isLt
      = k4_pay2 (iblk4 V c 0 t) (iblk4 V c 1 t) (acc4 V c (t.val - 1) (Nat.lt_of_le_of_lt (Nat.sub_le _ _) t.isLt)) := by
  obtain ⟨n, hn⟩ := t
  cases n with
  | zero => exact absurd (Nat.zero_mod 7) h
  | succ n => exact (if_neg h).trans rfl

/-- After the body at position `n`: the output block's staging buffer and the accumulator. Where k = 6 the body has just
    copied the accumulator into the output's buffer; at the other points that buffer is not the body's to describe
    (nothing reads this component there), and the same value stands in for it. -/
def outsAt4 (c : Dev nD) : (n : ℕ) → n < cfg4.N → Vec F S1024x1024 .f32 × Vec F S1024x1024 .f32 :=
  fun n hn => (acc4 V c n hn, acc4 V c n hn)

theorem acc4_first (c : Dev nD) (t : Fin cfg4.N) (h : t.val % 7 = 0) :
    (outsAt4 V c t.val t.isLt).2 = k4_pay2 (iblk4 V c 0 t) (iblk4 V c 1 t) (k4_pay1 (F := F)) :=
  acc4_fresh V c t h

theorem acc4_next (c : Dev nD) (t : Fin cfg4.N) (h : t.val % 7 ≠ 0) :
    (outsAt4 V c t.val t.isLt).2
      = k4_pay2 (iblk4 V c 0 t) (iblk4 V c 1 t) (outsAt4 V c (t.val - 1) (Nat.lt_of_le_of_lt (Nat.sub_le _ _) t.isLt)).2 :=
  acc4_onward V c t h

theorem out4_last (c : Dev nD) (t : Fin cfg4.N) (h : t.val % 7 = 6) :
    (outsAt4 V c t.val t.isLt).1 = (outsAt4 V c t.val t.isLt).2 := rfl

/-! ## The invariant that carries the accumulator -/

/-- Before position `n`: at the start what the launch hands over; afterwards the accumulator's buffer at what the point
    before left, the other scoped buffers unopened, and the generator register at some state. -/
def inv4 (c : Dev nD) : (n : ℕ) → n ≤ cfg4.N → sProp 𝕄
  | 0, _ => Pipeline.ΦA spec4 c
  | n + 1, hn => iprop(iprop(owns (c : Thread nD τ) accM4 fullShare (acc4 V c n hn) ∗ Pipeline.scopedRestBut spec4 c [cc4_scratch0]) ∗ (∃ r, prngReg c r))

theorem inv4_zero (c : Dev nD) (n : ℕ) (h : n ≤ cfg4.N) (hz : n = 0) : inv4 V c n h = Pipeline.ΦA spec4 c := by
  subst hz; rfl

theorem inv4_succ (c : Dev nD) (n : ℕ) (hn : n < cfg4.N) :
    inv4 V c (n + 1) hn = iprop(iprop(owns (c : Thread nD τ) accM4 fullShare (acc4 V c n hn) ∗ Pipeline.scopedRestBut spec4 c [cc4_scratch0]) ∗ (∃ r, prngReg c r)) := rfl

theorem inv4_pos (c : Dev nD) (n : ℕ) (h : n ≤ cfg4.N) (hz : n ≠ 0) :
    inv4 V c n h = iprop(iprop(owns (c : Thread nD τ) accM4 fullShare (acc4 V c (n - 1) (by omega)) ∗ Pipeline.scopedRestBut spec4 c [cc4_scratch0]) ∗ (∃ r, prngReg c r)) := by
  cases n with
  | zero => exact absurd rfl hz
  | succ n => rfl

/-! ## The proof data -/

/-- The region's proof data on core `c`: the arrays as entered; after the body at point `t` the two inputs' buffers at
    their blocks and the output's at `outsAt4`'s first component; the accumulator carried by the invariant; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := inv4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- The invariant at the start of point `t`, read at the point's number. -/
theorem inv4_castSucc (c : Dev nD) (t : Fin cfg4.N) :
    (dat4 V c).Φ t.castSucc = inv4 V c t.val (Nat.le_of_lt t.isLt) := by
  dsimp only [dat4]; simp only [Fin.coe_castSucc]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns: each window's buffer as the pipeline expects to find it, which for the output at a point with
    k ≠ 6 means as it was handed over. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4000000 in
/-- The body at any point. The inputs' buffers hold their blocks; k decides the case. The invariant lends the body the
    accumulator's buffer — at anything before the very first point, afterwards at what the point before left — and takes
    it back at this point's sum; the other scoped buffers, the generator register and the core's dues pass through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl,
    show (dat4 V c).Φ t.succ = inv4 V c (t.val + 1) t.isLt from rfl, inv4_succ,
    show (dat4 V c).leavesExact 0 t = owns (c : Thread nD τ) (st4_0 t) fullShare ((dat4 V c).after 0 t) from by
      unfold Dat.leavesExact; rw [inUse4_0 t],
    show (dat4 V c).leavesExact 1 t = owns (c : Thread nD τ) (st4_1 t) fullShare ((dat4 V c).after 1 t) from by
      unfold Dat.leavesExact; rw [inUse4_1 t],
    after4_0, after4_1, inv4_castSucc]
  by_cases h0 : t.val % 7 = 0
  · -- k = 0
    have h6 : t.val % 7 ≠ 6 := by omega
    rw [Dat.leavesExact_idle (dat4 V c) 2 t (atRest4_2 t h6) (notBack4_2 t h6), acc4_fresh V c t h0]
    by_cases hz : t.val = 0
    · rw [inv4_zero V c _ _ hz, PhiA4_eq]
      iintro ⟨⟨⟨HS, HR⟩, Hg⟩, Ho, ⟨%d0, H0⟩, ⟨%d1, H1⟩, ⟨%d2, H2⟩⟩
      iapply (run4_first c Set.univ (grid4.coords t) _ _ _ _ _ _ _ _ ((zeroes4_iff t).mpr h0) (fun h => h6 ((copies4_iff t).mp h))
        (iblk4 V c 0 t) (iblk4 V c 1 t) _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
    · rw [inv4_pos V c _ _ hz]
      iintro ⟨⟨⟨HS, HR⟩, Hg⟩, Ho, ⟨%d0, H0⟩, ⟨%d1, H1⟩, ⟨%d2, H2⟩⟩
      iapply (run4_first c Set.univ (grid4.coords t) _ _ _ _ _ _ _ _ ((zeroes4_iff t).mpr h0) (fun h => h6 ((copies4_iff t).mp h))
        (iblk4 V c 0 t) (iblk4 V c 1 t) _ _)
      isplitl [H0]; · iexact H0
      isplitl [H1]; · iexact H1
      isplitl [H2]; · iexact H2
      isplitl [HS]; · iexists _; iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
  · have hz : t.val ≠ 0 := fun e => h0 (by rw [e])
    rw [inv4_pos V c _ _ hz, acc4_onward V c t h0]
    by_cases h6 : t.val % 7 = 6
    · -- k = 6
      rw [show (dat4 V c).leavesExact 2 t = owns (c : Thread nD τ) (st4_2 t) fullShare ((dat4 V c).after 2 t) from by
          unfold Dat.leavesExact; rw [inUse4_2 t h6],
        after4_2, show (outsAt4 V c t.val t.isLt).1 = acc4 V c t.val t.isLt from rfl, acc4_onward V c t h0]
      iintro ⟨⟨⟨HS, HR⟩, Hg⟩, Ho, ⟨%d0, H0⟩, ⟨%d1, H1⟩, ⟨%d2, H2⟩⟩
      iapply (run4_last c Set.univ (grid4.coords t) _ _ _ _ _ _ _ _ (fun h => h0 ((zeroes4_iff t).mp h)) ((copies4_iff t).mpr h6)
        (iblk4 V c 0 t) (iblk4 V c 1 t) (acc4 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · -- 0 < k < 6
      rw [Dat.leavesExact_idle (dat4 V c) 2 t (atRest4_2 t h6) (notBack4_2 t h6)]
      iintro ⟨⟨⟨HS, HR⟩, Hg⟩, Ho, ⟨%d0, H0⟩, ⟨%d1, H1⟩, ⟨%d2, H2⟩⟩
      iapply (run4_mid c Set.univ (grid4.coords t) _ _ _ _ _ _ _ _ (fun h => h0 ((zeroes4_iff t).mp h)) (fun h => h6 ((copies4_iff t).mp h))
        (iblk4 V c 0 t) (iblk4 V c 1 t) _ (acc4 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The obligation the launch asks for, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = inv4 V c 0 (Nat.zero_le _) from rfl, inv4_zero V c 0 _ rfl]

/-- After the last point the invariant gives back what the launch handed over: the accumulator's contents are forgotten. -/
theorem hout4 (c : Dev nD) : (dat4 V c).Φ (Fin.last cfg4.N) ⊢ Pipeline.ΦA spec4 c := by
  rw [show (dat4 V c).Φ (Fin.last cfg4.N) = inv4 V c (Fin.last cfg4.N).val (Nat.le_of_lt_succ (Fin.last cfg4.N).isLt) from rfl,
    inv4_pos V c _ _ (by rw [Fin.val_last]; have : cfg4.N = 56 := N_4; omega), PhiA4_eq]
  iintro ⟨⟨HS, HR⟩, Hg⟩
  isplitl [HS HR]
  · isplitl [HS]; · iexists _; iexact HS
    iexact HR
  iexact Hg

end

end Cert.KernelIdeal.Hand

end
-- ==== Proof.KI.Run.lean ====
/-
  The whole program's run. @main is eight items: the host stretch that reshapes and converts the activations, the two
  regions that scale w1 and w3, the host transpose of the third scale table, the region that scales w2, the gated
  product, the down projection, and the final reshape. The contents of every unscoped buffer between two items are
  written as a fold from the launch memory (`B0 … B8`): a host stretch applies its operations; a region leaves its
  windows' arrays at what its write-backs leave and every other buffer as it found it. Each region's proof data is taken
  at the contents it is entered with. From the run: every unscoped buffer ends at `B8`; read at the arguments that is the
  launch memory, and at the result it is the last reshape of region 4's output array.
-/
import proofs.«169556_j22153441312857_1_alg».proof.Proof.Gen.KernelIdeal.Launch
import proofs.«169556_j22153441312857_1_alg».proof.Proof.Gen.KernelIdeal.Skeleton
import proofs.«169556_j22153441312857_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«169556_j22153441312857_1_alg».proof.Proof.Gen.KernelIdeal.Regions
import proofs.«169556_j22153441312857_1_alg».proof.Proof.KI.R0
import proofs.«169556_j22153441312857_1_alg».proof.Proof.KI.R1
import proofs.«169556_j22153441312857_1_alg».proof.Proof.KI.R2
import proofs.«169556_j22153441312857_1_alg».proof.Proof.KI.R3
import proofs.«169556_j22153441312857_1_alg».proof.Proof.KI.R4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch. -/
abbrev B0 : Dev nD → Valuation τ sig (Elt F) := fun c b => (s₀ m ρ).mem ((c : Dev nD), b)
/-- After the first host stretch (the activations as 2048 rows, converted). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b

/-- After region 0: the scaled first matrix in place, every other buffer as before. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- The same read at the TensorCore's references. -/
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After region 1: the scaled second matrix in place, every other buffer as before. -/
def B3 (c : Dev nD) : Valuation τ sig (Elt F) :=
  Pipeline.withArrays spec1 c (B2 m ρ c) fun w => (dat1 (E2 m ρ) c).arrAt w cfg1.N
theorem B3_arr (c : Dev nD) (w : Fin cfg1.W) :
    B3 m ρ c (Proc.devRef .tc (Pipeline.arrRef spec1 w)) = (dat1 (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
/-- The same read at the TensorCore's references. -/
abbrev E3 : (c : Dev nD) → (b : Ref sig .tc) → Buf (Elt F) ((c : Thread nD τ).loc b) := fun c b => B3 m ρ c b
theorem hF1 (c : Dev nD) (w : Fin cfg1.W) : (dat1 (E2 m ρ) c).arrAt w cfg1.N = E3 m ρ c (Pipeline.arrRef spec1 w) :=
  (B3_arr m ρ c w).symm
theorem hrest1 (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)

/-- After the second host stretch (the third scale table transposed). -/
abbrev B4 : Dev nD → Valuation τ sig (Elt F) := fun c => StableHlo.after hostOps2 (B3 m ρ c)
abbrev E4 : (c : Dev nD) → (b : Ref sig .tc) → Buf (Elt F) ((c : Thread nD τ).loc b) := fun c b => B4 m ρ c b

/-- After region 2: the scaled third matrix in place, every other buffer as before. -/
def B5 (c : Dev nD) : Valuation τ sig (Elt F) :=
  Pipeline.withArrays spec2 c (B4 m ρ c) fun w => (dat2 (E4 m ρ) c).arrAt w cfg2.N
theorem B5_arr (c : Dev nD) (w : Fin cfg2.W) :
    B5 m ρ c (Proc.devRef .tc (Pipeline.arrRef spec2 w)) = (dat2 (E4 m ρ) c).arrAt w cfg2.N := by
  unfold B5; exact Pipeline.withArrays_arr spec2 launch2.win.arr_inj c _ _ w
theorem B5_of_ne (c : Dev nD) (b : Ref sig .tc) (hb : ∀ w, Pipeline.arrRef spec2 w ≠ b) :
    B5 m ρ c (Proc.devRef .tc b) = B4 m ρ c (Proc.devRef .tc b) := by
  unfold B5; exact Pipeline.withArrays_of_ne spec2 c _ _ b hb
/-- The same read at the TensorCore's references. -/
abbrev E5 : (c : Dev nD) → (b : Ref sig .tc) → Buf (Elt F) ((c : Thread nD τ).loc b) := fun c b => B5 m ρ c b
theorem hF2 (c : Dev nD) (w : Fin cfg2.W) : (dat2 (E4 m ρ) c).arrAt w cfg2.N = E5 m ρ c (Pipeline.arrRef spec2 w) :=
  (B5_arr m ρ c w).symm
theorem hrest2 (c : Dev nD) : ∀ b, b ∉ Finset.univ.image (Pipeline.arrRef spec2) → E5 m ρ c b = E4 m ρ c b :=
  fun b hb => B5_of_ne m ρ c b fun w e => hb (Finset.mem_image.mpr ⟨w, Finset.mem_univ _, e⟩)

/-- After region 3: the hidden rows in place, every other buffer as before. -/
def B6 (c : Dev nD) : Valuation τ sig (Elt F) :=
  Pipeline.withArrays spec3 c (B5 m ρ c) fun w => (dat3 (E5 m ρ) c).arrAt w cfg3.N
theorem B6_arr (c : Dev nD) (w : Fin cfg3.W) :
    B6 m ρ c (Proc.devRef .tc (Pipeline.arrRef spec3 w)) = (dat3 (E5 m ρ) c).arrAt w cfg3.N := by
  unfold B6; exact Pipeline.withArrays_arr spec3 launch3.win.arr_inj c _ _ w
theorem B6_of_ne (c : Dev nD) (b : Ref sig .tc) (hb : ∀ w, Pipeline.arrRef spec3 w ≠ b) :
    B6 m ρ c (Proc.devRef .tc b) = B5 m ρ c (Proc.devRef .tc b) := by
  unfold B6; exact Pipeline.withArrays_of_ne spec3 c _ _ b hb
/-- The same read at the TensorCore's references. -/
abbrev E6 : (c : Dev nD) → (b : Ref sig .tc) → Buf (Elt F) ((c : Thread nD τ).loc b) := fun c b => B6 m ρ c b
theorem hF3 (c : Dev nD) (w : Fin cfg3.W) : (dat3 (E5 m ρ) c).arrAt w cfg3.N = E6 m ρ c (Pipeline.arrRef spec3 w) :=
  (B6_arr m ρ c w).symm
theorem hrest3 (c : Dev nD) : ∀ b, b ∉ Finset.univ.image (Pipeline.arrRef spec3) → E6 m ρ c b = E5 m ρ c b :=
  fun b hb => B6_of_ne m ρ c b fun w e => hb (Finset.mem_image.mpr ⟨w, Finset.mem_univ _, e⟩)

/-- After region 4: the projected rows in place, every other buffer as before. -/
def B7 (c : Dev nD) : Valuation τ sig (Elt F) :=
  Pipeline.withArrays spec4 c (B6 m ρ c) fun w => (dat4 (E6 m ρ) c).arrAt w cfg4.N
theorem B7_arr (c : Dev nD) (w : Fin cfg4.W) :
    B7 m ρ c (Proc.devRef .tc (Pipeline.arrRef spec4 w)) = (dat4 (E6 m ρ) c).arrAt w cfg4.N := by
  unfold B7; exact Pipeline.withArrays_arr spec4 launch4.win.arr_inj c _ _ w
theorem B7_of_ne (c : Dev nD) (b : Ref sig .tc) (hb : ∀ w, Pipeline.arrRef spec4 w ≠ b) :
    B7 m ρ c (Proc.devRef .tc b) = B6 m ρ c (Proc.devRef .tc b) := by
  unfold B7; exact Pipeline.withArrays_of_ne spec4 c _ _ b hb
/-- The same read at the TensorCore's references. -/
abbrev E7 : (c : Dev nD) → (b : Ref sig .tc) → Buf (Elt F) ((c : Thread nD τ).loc b) := fun c b => B7 m ρ c b
theorem hF4 (c : Dev nD) (w : Fin cfg4.W) : (dat4 (E6 m ρ) c).arrAt w cfg4.N = E7 m ρ c (Pipeline.arrRef spec4 w) :=
  (B7_arr m ρ c w).symm
theorem hrest4 (c : Dev nD) : ∀ b, b ∉ Finset.univ.image (Pipeline.arrRef spec4) → E7 m ρ c b = E6 m ρ c b :=
  fun b hb => B7_of_ne m ρ c b fun w e => hb (Finset.mem_image.mpr ⟨w, Finset.mem_univ _, e⟩)

/-- After the last host stretch (the result read as 2 × 1024 rows). -/
abbrev B8 : Dev nD → Valuation τ sig (Elt F) := fun c => StableHlo.after hostOps5 (B7 m ρ c)

/-! ## The proof data family and the thread state -/

/-- Every region's proof data, each at the contents its region is entered with. -/
def pdats : (p : Fin 5) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E2 m ρ) c
  | ⟨2, _⟩ => fun c => dat2 (E4 m ρ) c
  | ⟨3, _⟩ => fun c => dat3 (E5 m ρ) c
  | ⟨4, _⟩ => fun c => dat4 (E6 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (B8 m ρ c) ∗ ∃ r, prngReg c r)

/-! ## The regions as segments -/

set_option backward.isDefEq.respectTransparency.types false in
/-- Region 0 as a segment: entered with every unscoped buffer at `B1`, left with them at `B2`. Its windows' arrays
    are split out of the unscoped buffers on entry and put back at their final contents on exit; the generator register
    goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (fun b => B2 m ρ c b) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `B2`, left with them at `B3`. Its windows' arrays
    are split out of the unscoped buffers on entry and put back at their final contents on exit; the generator register
    goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(StableHlo.held (c : Thread nD τ) (Pipeline.ucRefs τ sig) (B3 m ρ c) ∗ R c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (fun b => B3 m ρ c b) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `B4`, left with them at `B5`. Its windows' arrays
    are split out of the unscoped buffers on entry and put back at their final contents on exit; the generator register
    goes into the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E4 m ρ) c).loose
  hwaits := Pipeline.hwaits_of_owed_zero _ _ _ _ L lv 2 fun _ _ => rfl
  pre c := iprop(StableHlo.held (c : Thread nD τ) (Pipeline.ucRefs τ sig) (B4 m ρ c) ∗ R c)
  post c := iprop(StableHlo.held (c : Thread nD τ) (Pipeline.ucRefs τ sig) (B5 m ρ c) ∗ R c)
  X c := iprop(∃ r, prngReg c r)
  Y c := iprop(∃ r, prngReg c r)
  Z c := Pipeline.unscopedRest (Ix := Unit) (Name := ℕ) (U := UR sig nD τ) (Lvl := ℕ) spec2 c (E4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E4 m ρ c) (fun b => B5 m ρ c b) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at `B5`, left with them at `B6`. Its windows' arrays
    are split out of the unscoped buffers on entry and put back at their final contents on exit; the generator register
    goes into the region's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E5 m ρ) c).loose
  hwaits := Pipeline.hwaits_of_owed_zero _ _ _ _ L lv 3 fun _ _ => rfl
  pre c := iprop(StableHlo.held (c : Thread nD τ) (Pipeline.ucRefs τ sig) (B5 m ρ c) ∗ R c)
  post c := iprop(StableHlo.held (c : Thread nD τ) (Pipeline.ucRefs τ sig) (B6 m ρ c) ∗ R c)
  X c := iprop(∃ r, prngReg c r)
  Y c := iprop(∃ r, prngReg c r)
  Z c := Pipeline.unscopedRest (Ix := Unit) (Name := ℕ) (U := UR sig nD τ) (Lvl := ℕ) spec3 c (E5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (E5 m ρ) c).Φ 0 from rfl]
    have h := hin3 (E5 m ρ) c
    unfold Pipeline.ΦA at h
    iintro ⟨Hp, -, Hr⟩
    iapply h
    isplitl [Hr]; · iexact Hr
    iexact Hp
  hout c := by
    rw [Pipeline.ownSems0_none, show (pdats m ρ 3 c).Φ (Fin.last _) = (dat3 (E5 m ρ) c).Φ (Fin.last cfg3.N) from rfl]
    have h := hout3 (E5 m ρ) c
    unfold Pipeline.ΦA at h
    iintro HF
    ihave H := h $$ HF
    icases H with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (E5 m ρ c) (fun b => B6 m ρ c b) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered with every unscoped buffer at `B6`, left with them at `B7`. Its windows' arrays
    are split out of the unscoped buffers on entry and put back at their final contents on exit; the generator register
    goes into the region's invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E6 m ρ) c).loose
  hwaits := Pipeline.hwaits_of_owed_zero _ _ _ _ L lv 4 fun _ _ => rfl
  pre c := iprop(StableHlo.held (c : Thread nD τ) (Pipeline.ucRefs τ sig) (B6 m ρ c) ∗ R c)
  post c := iprop(StableHlo.held (c : Thread nD τ) (Pipeline.ucRefs τ sig) (B7 m ρ c) ∗ R c)
  X c := iprop(∃ r, prngReg c r)
  Y c := iprop(∃ r, prngReg c r)
  Z c := Pipeline.unscopedRest (Ix := Unit) (Name := ℕ) (U := UR sig nD τ) (Lvl := ℕ) spec4 c (E6 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (E6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (E6 m ρ) c).Φ 0 from rfl]
    have h := hin4 (E6 m ρ) c
    unfold Pipeline.ΦA at h
    iintro ⟨Hp, -, Hr⟩
    iapply h
    isplitl [Hr]; · iexact Hr
    iexact Hp
  hout c := by
    rw [Pipeline.ownSems0_none, show (pdats m ρ 4 c).Φ (Fin.last _) = (dat4 (E6 m ρ) c).Φ (Fin.last cfg4.N) from rfl]
    have h := hout4 (E6 m ρ) c
    unfold Pipeline.ΦA at h
    iintro HF
    ihave H := h $$ HF
    icases H with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (E6 m ρ c) (fun b => B7 m ρ c b) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The last item's exit regrouped: the buffers and the generator register on one side, the (empty) dues on the other. -/
theorem lastStep (c : Dev nD) :
    iprop(StableHlo.held (c : Thread nD τ) (Pipeline.ucRefs τ sig) (B8 m ρ c) ∗ R c)
      ⊢ (iprop(Tₙ m ρ c ∗ ∃ W, owes (c : Thread nD τ) (0 : CellTallies nD τ sig Unit) W) : sProp 𝕄) := by
  iintro ⟨Hh, Hp, Ho⟩
  isplitl [Hh Hp]
  · isplitl [Hh]; · iexact Hh
    iexact Hp
  iexact Ho

abbrev segs : List (Pipeline.Seg (pcfgs (F := F)) adm (pdats m ρ) () defs₀ 𝒱₀ L lv) :=
  [ .host (hseg hostOps0 hostOps0_sub hostOps0_fresh (B0 m ρ)),
    .region (reg0 m ρ),
    .region (reg1 m ρ),
    .host (hseg hostOps2 hostOps2_sub hostOps2_fresh (B3 m ρ)),
    .region (reg2 m ρ),
    .region (reg3 m ρ),
    .region (reg4 m ρ),
    .host (hseg hostOps5 hostOps5_sub hostOps5_fresh (B7 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final memory holds every unscoped buffer at `B8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun c => lastStep m ρ c⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B8 m ρ c b)
    (hfin := fun c s' => by
      iintro ⟨⟨Hh, -⟩, HSI⟩
      unfold StableHlo.held
      imodintro
      iapply (pointsTo_read_all (Pipeline.ucRefs τ sig) (fun b => (((c : Thread nD τ)).1, b)) (B8 m ρ c) s')
      isplitl [Hh] <;> iassumption)
    (hQ := fun s h c => h c)

end Cert.KernelIdeal.Hand

end
-- ==== Proof.KI.Walk.lean ====
/-
  The run read at the arguments and at the result. The contents of the unscoped buffers after the last item are a fold
  from the launch memory through @main's eight items. Walking that fold back at an argument: a host stretch changes only
  the buffers its operations write, and no argument is among them; a region changes only its windows' arrays, and an
  argument that is a window of a region is one the region only reads, whose array the write-backs never touch. So every
  argument ends at its launch contents, and the result ends at the fold read at the result's buffer.
-/
import proofs.«169556_j22153441312857_1_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## One item back -/

/-- The first host stretch leaves a buffer it does not write as launched. -/
theorem B1_keep (c : Dev nD) (r : Ref sig .tc) (h : r ∉ hostOps0_W) :
    B1 m ρ c (Proc.devRef .tc r) = B0 m ρ c (Proc.devRef .tc r) :=
  StableHlo.after_of_writes_sub hostOps0 _ hostOps0_writes h

/-- The second host stretch leaves a buffer it does not write as region 1 left it. -/
theorem B4_keep (c : Dev nD) (r : Ref sig .tc) (h : r ∉ hostOps2_W) :
    B4 m ρ c (Proc.devRef .tc r) = B3 m ρ c (Proc.devRef .tc r) :=
  StableHlo.after_of_writes_sub hostOps2 _ hostOps2_writes h

/-- The last host stretch leaves a buffer it does not write as region 4 left it. -/
theorem B8_keep (c : Dev nD) (r : Ref sig .tc) (h : r ∉ hostOps5_W) :
    B8 m ρ c (Proc.devRef .tc r) = B7 m ρ c (Proc.devRef .tc r) :=
  StableHlo.after_of_writes_sub hostOps5 _ hostOps5_writes h

/-- Region 0 leaves the array of a window it only reads as it found it: no point writes back to it. -/
theorem B2_in (c : Dev nD) (w : Fin cfg0.W) (hin : (cfg0.win w).isOut = false) :
    B2 m ρ c (Proc.devRef .tc (Pipeline.arrRef spec0 w)) = B1 m ρ c (Proc.devRef .tc (Pipeline.arrRef spec0 w)) :=
  (B2_arr m ρ c w).trans <| ((dat0 (E1 m ρ) c).arrAt_in w hin _).trans (A_eq0 (E1 m ρ) c w)

/-- Region 1 leaves the array of a window it only reads as it found it. -/
theorem B3_in (c : Dev nD) (w : Fin cfg1.W) (hin : (cfg1.win w).isOut = false) :
    B3 m ρ c (Proc.devRef .tc (Pipeline.arrRef spec1 w)) = B2 m ρ c (Proc.devRef .tc (Pipeline.arrRef spec1 w)) :=
  (B3_arr m ρ c w).trans <| ((dat1 (E2 m ρ) c).arrAt_in w hin _).trans (A_eq1 (E2 m ρ) c w)

/-- Region 2 leaves the array of a window it only reads as it found it. -/
theorem B5_in (c : Dev nD) (w : Fin cfg2.W) (hin : (cfg2.win w).isOut = false) :
    B5 m ρ c (Proc.devRef .tc (Pipeline.arrRef spec2 w)) = B4 m ρ c (Proc.devRef .tc (Pipeline.arrRef spec2 w)) :=
  (B5_arr m ρ c w).trans <| ((dat2 (E4 m ρ) c).arrAt_in w hin _).trans (A_eq2 (E4 m ρ) c w)

/-! ## Every argument ends as launched -/

/-- `main_arg0` reaches the end as launched: no host stretch writes it and it is no region's window. -/
theorem B8_main_arg0 (c : Dev nD) : B8 m ρ c (Proc.devRef .tc main_arg0) = m ((c : Thread nD τ).loc main_arg0) :=
  (B8_keep m ρ c main_arg0 (by decide)).trans <|
    (B7_of_ne m ρ c main_arg0 (by decide)).trans <|
    (B6_of_ne m ρ c main_arg0 (by decide)).trans <|
    (B5_of_ne m ρ c main_arg0 (by decide)).trans <|
    (B4_keep m ρ c main_arg0 (by decide)).trans <|
    (B3_of_ne m ρ c main_arg0 (by decide)).trans <|
    (B2_of_ne m ρ c main_arg0 (by decide)).trans <|
    (B1_keep m ρ c main_arg0 (by decide)).trans rfl

/-- `main_arg1` reaches the end as launched: no host stretch writes it, region 0 only reads it (its window 0), and it is no other region's window. -/
theorem B8_main_arg1 (c : Dev nD) : B8 m ρ c (Proc.devRef .tc main_arg1) = m ((c : Thread nD τ).loc main_arg1) :=
  (B8_keep m ρ c main_arg1 (by decide)).trans <|
    (B7_of_ne m ρ c main_arg1 (by decide)).trans <|
    (B6_of_ne m ρ c main_arg1 (by decide)).trans <|
    (B5_of_ne m ρ c main_arg1 (by decide)).trans <|
    (B4_keep m ρ c main_arg1 (by decide)).trans <|
    (B3_of_ne m ρ c main_arg1 (by decide)).trans <|
    (B2_in m ρ c 0 rfl).trans <|
    (B1_keep m ρ c main_arg1 (by decide)).trans rfl

/-- `main_arg2` reaches the end as launched: no host stretch writes it, region 0 only reads it (its window 1), and it is no other region's window. -/
theorem B8_main_arg2 (c : Dev nD) : B8 m ρ c (Proc.devRef .tc main_arg2) = m ((c : Thread nD τ).loc main_arg2) :=
  (B8_keep m ρ c main_arg2 (by decide)).trans <|
    (B7_of_ne m ρ c main_arg2 (by decide)).trans <|
    (B6_of_ne m ρ c main_arg2 (by decide)).trans <|
    (B5_of_ne m ρ c main_arg2 (by decide)).trans <|
    (B4_keep m ρ c main_arg2 (by decide)).trans <|
    (B3_of_ne m ρ c main_arg2 (by decide)).trans <|
    (B2_in m ρ c 1 rfl).trans <|
    (B1_keep m ρ c main_arg2 (by decide)).trans rfl

/-- `main_arg3` reaches the end as launched: no host stretch writes it, region 1 only reads it (its window 0), and it is no other region's window. -/
theorem B8_main_arg3 (c : Dev nD) : B8 m ρ c (Proc.devRef .tc main_arg3) = m ((c : Thread nD τ).loc main_arg3) :=
  (B8_keep m ρ c main_arg3 (by decide)).trans <|
    (B7_of_ne m ρ c main_arg3 (by decide)).trans <|
    (B6_of_ne m ρ c main_arg3 (by decide)).trans <|
    (B5_of_ne m ρ c main_arg3 (by decide)).trans <|
    (B4_keep m ρ c main_arg3 (by decide)).trans <|
    (B3_in m ρ c 0 rfl).trans <|
    (B2_of_ne m ρ c main_arg3 (by decide)).trans <|
    (B1_keep m ρ c main_arg3 (by decide)).trans rfl

/-- `main_arg4` reaches the end as launched: no host stretch writes it, region 1 only reads it (its window 1), and it is no other region's window. -/
theorem B8_main_arg4 (c : Dev nD) : B8 m ρ c (Proc.devRef .tc main_arg4) = m ((c : Thread nD τ).loc main_arg4) :=
  (B8_keep m ρ c main_arg4 (by decide)).trans <|
    (B7_of_ne m ρ c main_arg4 (by decide)).trans <|
    (B6_of_ne m ρ c main_arg4 (by decide)).trans <|
    (B5_of_ne m ρ c main_arg4 (by decide)).trans <|
    (B4_keep m ρ c main_arg4 (by decide)).trans <|
    (B3_in m ρ c 1 rfl).trans <|
    (B2_of_ne m ρ c main_arg4 (by decide)).trans <|
    (B1_keep m ρ c main_arg4 (by decide)).trans rfl

/-- `main_arg5` reaches the end as launched: no host stretch writes it, region 2 only reads it (its window 0), and it is no other region's window. -/
theorem B8_main_arg5 (c : Dev nD) : B8 m ρ c (Proc.devRef .tc main_arg5) = m ((c : Thread nD τ).loc main_arg5) :=
  (B8_keep m ρ c main_arg5 (by decide)).trans <|
    (B7_of_ne m ρ c main_arg5 (by decide)).trans <|
    (B6_of_ne m ρ c main_arg5 (by decide)).trans <|
    (B5_in m ρ c 0 rfl).trans <|
    (B4_keep m ρ c main_arg5 (by decide)).trans <|
    (B3_of_ne m ρ c main_arg5 (by decide)).trans <|
    (B2_of_ne m ρ c main_arg5 (by decide)).trans <|
    (B1_keep m ρ c main_arg5 (by decide)).trans rfl

/-- `main_arg6` reaches the end as launched: no host stretch writes it and it is no region's window. -/
theorem B8_main_arg6 (c : Dev nD) : B8 m ρ c (Proc.devRef .tc main_arg6) = m ((c : Thread nD τ).loc main_arg6) :=
  (B8_keep m ρ c main_arg6 (by decide)).trans <|
    (B7_of_ne m ρ c main_arg6 (by decide)).trans <|
    (B6_of_ne m ρ c main_arg6 (by decide)).trans <|
    (B5_of_ne m ρ c main_arg6 (by decide)).trans <|
    (B4_keep m ρ c main_arg6 (by decide)).trans <|
    (B3_of_ne m ρ c main_arg6 (by decide)).trans <|
    (B2_of_ne m ρ c main_arg6 (by decide)).trans <|
    (B1_keep m ρ c main_arg6 (by decide)).trans rfl

/-! ## The run, read -/

/-- THE FRAME: every weakly fair execution of @main terminates, nothing faulting, and every argument array ends holding
    its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
      (h c _ (mem_uc main_arg0 (by decide))).trans (B8_main_arg0 m ρ c),
      (h c _ (mem_uc main_arg1 (by decide))).trans (B8_main_arg1 m ρ c),
      (h c _ (mem_uc main_arg2 (by decide))).trans (B8_main_arg2 m ρ c),
      (h c _ (mem_uc main_arg3 (by decide))).trans (B8_main_arg3 m ρ c),
      (h c _ (mem_uc main_arg4 (by decide))).trans (B8_main_arg4 m ρ c),
      (h c _ (mem_uc main_arg5 (by decide))).trans (B8_main_arg5 m ρ c),
      (h c _ (mem_uc main_arg6 (by decide))).trans (B8_main_arg6 m ρ c)⟩)
    (run_all m ρ)

/-- The same run read at the result too: the result's array ends at the fold's last contents of its buffer, the
    arguments at their launch contents. -/
theorem run_result : θ_run defs (onTc (τ := τ) (main (F := F))) ⟨m, fun _ => 0, ρ⟩ (fun r => ∀ c : Dev nD,
      r.2.mem ((c.tc : Thread nD τ).loc main_v8) = B8 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
      h c _ (mem_uc main_v8 (by decide)),
      (h c _ (mem_uc main_arg0 (by decide))).trans (B8_main_arg0 m ρ c),
      (h c _ (mem_uc main_arg1 (by decide))).trans (B8_main_arg1 m ρ c),
      (h c _ (mem_uc main_arg2 (by decide))).trans (B8_main_arg2 m ρ c),
      (h c _ (mem_uc main_arg3 (by decide))).trans (B8_main_arg3 m ρ c),
      (h c _ (mem_uc main_arg4 (by decide))).trans (B8_main_arg4 m ρ c),
      (h c _ (mem_uc main_arg5 (by decide))).trans (B8_main_arg5 m ρ c),
      (h c _ (mem_uc main_arg6 (by decide))).trans (B8_main_arg6 m ρ c)⟩)
    (run_all m ρ)

end Cert.KernelIdeal.Hand

end
-- ==== Proof.Spec.lean ====
/-
  What both programs compute, on the extended reals, stage by stage and index by index.

  A weight matrix arrives as values `w` and one scale per 128 × 128 block; the matrix that is used is `w` with every
  block multiplied by its scale (`scaledRows` for the two 14336 × 4096 matrices, whose scales are indexed
  (row block, column block); `scaledCols` for the 4096 × 14336 matrix read against a scale table stored transposed,
  (column block, row block); `scaledPlain` for the same matrix against the table as given). The activations `x`, read as
  2048 rows of 4096, meet the first two matrices in two inner products per (row, unit); the gate is passed through
  `g ↦ g · logistic g` and multiplied by the second product (`hidden`); the hidden rows meet the third matrix in one more
  inner product (`projected`), and the result is read back as 2 × 1024 rows (`stacked`).
-/
import Idealize.ShloMosaic.Lib.ValueIdx
import Idealize.ShloMosaic.PureOps.Ideal

noncomputable section

namespace Cert.Spec

open Idealize.ShloMosaic Idealize.ShloMosaic.ValueIdx

abbrev Sx : Shape := ⟨3, ![2, 1024, 4096]⟩
abbrev Srows : Shape := ⟨2, ![2048, 4096]⟩
abbrev Swide : Shape := ⟨2, ![14336, 4096]⟩
abbrev SwideScale : Shape := ⟨2, ![112, 32]⟩
abbrev Stall : Shape := ⟨2, ![4096, 14336]⟩
abbrev StallScale : Shape := ⟨2, ![32, 112]⟩
abbrev Shid : Shape := ⟨2, ![2048, 14336]⟩

/-- Every entry of an array is a real number (neither infinity). -/
def AllReal {S : Shape} (x : S.Idx → EReal) : Prop := ∀ i, ∃ r : ℝ, x i = (r : EReal)

/-- The block a coordinate lies in, for blocks of 128. -/
abbrev blk {n : Nat} (a : Fin (128 * n)) : Fin n := ⟨a.val / 128, by have := a.isLt; omega⟩

/-- A 14336 × 4096 matrix with block (p, q) multiplied by `s (p, q)`. -/
def scaledRows (w : Swide.Idx → EReal) (s : SwideScale.Idx → EReal) : Swide.Idx → EReal :=
  fun j => w j * s (ix2 (blk (n := 112) ⟨(j 0).val, (j 0).isLt⟩) (blk (n := 32) ⟨(j 1).val, (j 1).isLt⟩))

/-- A 4096 × 14336 matrix with block (p, q) multiplied by `s (p, q)`. -/
def scaledPlain (w : Stall.Idx → EReal) (s : StallScale.Idx → EReal) : Stall.Idx → EReal :=
  fun j => w j * s (ix2 (blk (n := 32) ⟨(j 0).val, (j 0).isLt⟩) (blk (n := 112) ⟨(j 1).val, (j 1).isLt⟩))

/-- The same matrix against a scale table stored transposed: block (p, q) multiplied by `st (q, p)`. -/
def scaledCols (w : Stall.Idx → EReal) (st : SwideScale.Idx → EReal) : Stall.Idx → EReal :=
  fun j => w j * st (ix2 (blk (n := 112) ⟨(j 1).val, (j 1).isLt⟩) (blk (n := 32) ⟨(j 0).val, (j 0).isLt⟩))

/-- The activations as 2048 rows: row `1024 · b + r` is `x (b, r, ·)`. -/
def rows (x : Sx.Idx → EReal) : Srows.Idx → EReal :=
  fun j => x (ix3 ⟨(j 0).val / 1024, by have h : (j 0).val < 2048 := (j 0).isLt; omega⟩ ⟨(j 0).val % 1024, Nat.mod_lt _ (by decide)⟩ ⟨(j 1).val, (j 1).isLt⟩)

/-- The inner product of row `t` of the activations with row `n` of a 14336 × 4096 matrix. -/
def inner (xr : Srows.Idx → EReal) (a : Swide.Idx → EReal) (t : Fin 2048) (n : Fin 14336) : EReal :=
  ∑ k : Fin 4096, xr (ix2 t k) * a (ix2 n k)

/-- The hidden rows: `(g · logistic g) · u` with `g`, `u` the inner products against the two matrices. -/
def hidden (xr : Srows.Idx → EReal) (a b : Swide.Idx → EReal) : Shid.Idx → EReal :=
  fun j =>
    let t : Fin 2048 := ⟨(j 0).val, (j 0).isLt⟩
    let n : Fin 14336 := ⟨(j 1).val, (j 1).isLt⟩
    (inner xr a t n * Ideal.logistic (inner xr a t n)) * inner xr b t n

/-- The projected rows: the inner product of a hidden row with row `d` of the 4096 × 14336 matrix. -/
def projected (h : Shid.Idx → EReal) (w : Stall.Idx → EReal) : Srows.Idx → EReal :=
  fun j => ∑ k : Fin 14336, h (ix2 ⟨(j 0).val, (j 0).isLt⟩ k) * w (ix2 ⟨(j 1).val, (j 1).isLt⟩ k)

/-- 2048 rows read back as 2 × 1024 rows. -/
def stacked (y : Srows.Idx → EReal) : Sx.Idx → EReal :=
  fun j => y (ix2 ⟨(j 0).val * 1024 + (j 1).val, by have h0 : (j 0).val < 2 := (j 0).isLt; have h1 : (j 1).val < 1024 := (j 1).isLt; omega⟩ ⟨(j 2).val, (j 2).isLt⟩)

/-- The whole function of the seven arguments. -/
def result (x : Sx.Idx → EReal) (w1 : Swide.Idx → EReal) (s1 : SwideScale.Idx → EReal) (w3 : Swide.Idx → EReal)
    (s3 : SwideScale.Idx → EReal) (w2 : Stall.Idx → EReal) (s2 : StallScale.Idx → EReal) : Sx.Idx → EReal :=
  stacked (projected (hidden (rows x) (scaledRows w1 s1) (scaledRows w3 s3)) (scaledPlain w2 s2))

end Cert.Spec

end
-- ==== Proof.KI.Val0.lean ====
/-
  Region 0's value. The region walks the 14 row blocks of a 14336 × 4096 weight matrix; at block t it holds rows
  1024·t … 1024·t + 1023 and the eight rows 8·t … 8·t + 7 of the 112 × 32 table of scales, and writes back the slab
  with every 128 × 128 tile multiplied by its own scale. Entry (r, k) of the slab lies in tile (r / 128, k / 128), so
  the array the region leaves is the matrix with entry (i, k) multiplied by scale (i / 128, k / 128).
-/
import proofs.«169556_j22153441312857_1_alg».proof.Proof.KI.R0
import proofs.«169556_j22153441312857_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The rectangles the body loads and stores through start at the origin. -/
theorem zeroOff0 : (![0, 0] : Fin 2 → Nat) = fun _ => 0 := funext fun a => by fin_cases a <;> rfl

/-- The slab's product at an entry: the slab's entry times the scale of the 128 × 128 tile the entry lies in. The body
    reads the slab as 8 × 128 × 32 × 128 (row r is (r / 128, r % 128), column k is (k / 128, k % 128)), spreads the
    8 × 1 × 32 × 1 reading of the scales over it, multiplies and reads the product back as 1024 × 4096. -/
theorem scaledSlab0_apply (x0 : Vec Ideal S1024x4096 .f32) (x1 : Vec Ideal S8x32 .f32) (r : Fin 1024) (k : Fin 4096) :
    k0_pay1 x0 x1 (ix2 r k)
      = x0 (ix2 r k) * x1 (ix2 (Cert.Spec.blk (n := 8) ⟨r.val, r.isLt⟩) (Cert.Spec.blk (n := 32) ⟨k.val, k.isLt⟩)) := by
  have hr := r.isLt
  have hk := k.isLt
  unfold k0_pay1
  -- the change of format is the identity on the extended reals
  refine (truncf_apply _ bitsLt_bf16_f32 (ix2 r k)).trans ?_
  -- entry (r, k) of the slab is entry (r / 128, r % 128, k / 128, k % 128) of its four-axis reading
  refine (shapeCast_apply _ _ (ix2 r k)
    (ix4 (⟨r.val / 128, by omega⟩ : Fin 8) (⟨r.val % 128, by omega⟩ : Fin 128) (⟨k.val / 128, by omega⟩ : Fin 32) (⟨k.val % 128, by omega⟩ : Fin 128)) ?_).trans ?_
  · rw [Shape.rowMajor_val_four, Shape.rowMajor_val_two]
    show ((r.val / 128 * 128 + r.val % 128) * 32 + k.val / 128) * 128 + k.val % 128 = r.val * 4096 + k.val
    omega
  refine (mulf_apply _ _ _).trans ?_
  refine congrArg₂ (· * ·) ?_ ?_
  · -- the slab's own entry, read back through the same four-axis reading
    refine shapeCast_apply x0 _ _ (ix2 r k) ?_
    rw [Shape.rowMajor_val_four, Shape.rowMajor_val_two]
    show r.val * 4096 + k.val = ((r.val / 128 * 128 + r.val % 128) * 32 + k.val / 128) * 128 + k.val % 128
    omega
  · -- the scale spread over the tile: the two unit axes read 0, the other two keep the tile's coordinates
    refine (broadcastTo_apply _ _ _
      (ix4 (⟨r.val / 128, by omega⟩ : Fin 8) (⟨0, by omega⟩ : Fin 1) (⟨k.val / 128, by omega⟩ : Fin 32) (⟨0, by omega⟩ : Fin 1)) ?_).trans ?_
    · intro a
      match a with
      | ⟨0, _⟩ => rfl
      | ⟨1, _⟩ => rfl
      | ⟨2, _⟩ => rfl
      | ⟨3, _⟩ => rfl
    refine shapeCast_apply x1 _ _ (ix2 (Cert.Spec.blk (n := 8) ⟨r.val, r.isLt⟩) (Cert.Spec.blk (n := 32) ⟨k.val, k.isLt⟩)) ?_
    rw [Shape.rowMajor_val_four, Shape.rowMajor_val_two]
    show r.val / 128 * 32 + k.val / 128 = ((r.val / 128 * 1 + 0) * 32 + k.val / 128) * 1 + 0
    omega

/-- Where each window's block sits at grid point t: block row t, block column 0, for all three windows. -/
theorem blockAt0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- An index of the result lies in point t's block iff each coordinate lies in the block's range on its axis. -/
theorem mem_block0 (t : Fin cfg0.N) (i : S14336x4096.Idx) :
    i ∈ ((cfg0.win 2).blk t).view.set ↔ ∀ a : Fin 2, win0_2.index t a * S1024x4096.size a ≤ (i a).val ∧ (i a).val < win0_2.index t a * S1024x4096.size a + S1024x4096.size a := by
  show i ∈ ((View.whole main_v2).slice (win0_2.rect t)).set ↔ _
  rw [View.set_slice_whole, Rect.mem_set_unit]
  exact Iff.rfl

/-- Every index of the result lies in the block of the point its row falls in. -/
theorem covered0 (i : S14336x4096.Idx) : ∃ t : Fin cfg0.N, (cfg0.win 2).flush t = true ∧ i ∈ ((cfg0.win 2).blk t).view.set := by
  have hi0 : (i 0).val < 14336 := (i 0).isLt
  have hi1 : (i 1).val < 4096 := (i 1).isLt
  -- row i lies in row block i / 1024
  let t : Fin cfg0.N := ⟨(i 0).val / 1024, by rw [show cfg0.N = 14 from N_0]; omega⟩
  obtain ⟨-, -, -, -, e4, e5⟩ := blockAt0 t
  have e4' : win0_2.index t (0 : Fin 2) = (i 0).val / 1024 := e4
  refine ⟨t, flush0_2 t, ?_⟩
  rw [mem_block0]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 4096 ≤ (i 1).val ∧ (i 1).val < win0_2.index t (1 : Fin 2) * 4096 + 4096; omega

section
variable (V : (c : Dev nD) → (b : Ref sig .tc) → Buf (Elt Ideal) ((c : Thread nD τ).loc b))

/-- What point t writes back is block t of the scaled matrix: the slab it loaded is rows 1024·t … of the weights, the
    tile rows 8·t … of the scales, and the block row of row 1024·t + r is 8·t + r / 128. -/
theorem writtenBack0 (c : Dev nD) (t : Fin cfg0.N) :
    (dat0 (F := Ideal) V c).flushed 2 t
      = ((cfg0.win 2).blk t).view.read (Elt Ideal) (Cert.Spec.scaledRows (V c main_arg1) (V c main_arg2)) := by
  show (cfg0.win 2).cut (grid0.coords t) ((dat0 (F := Ideal) V c).after 2 t) = _
  rw [after0_2]
  unfold out0_2
  rw [View.canon_unit_zero zeroOff0]
  simp only [View.ld_unit_zero (S := S1024x4096) zeroOff0, View.ld_unit_zero (S := S8x32) zeroOff0]
  obtain ⟨e0, e1, e2, e3, e4, e5⟩ := blockAt0 t
  have ht : t.val < 14 := lt_of_lt_of_eq t.isLt N_0
  funext j
  obtain ⟨r, k, rfl⟩ : ∃ (r : Fin 1024) (k : Fin 4096), j = ix2 r k := ⟨j 0, j 1, eq_ix2 j⟩
  have hr := r.isLt
  have hk := k.isLt
  show k0_pay1 (iblk0 V c 0 t) (iblk0 V c 1 t) (ix2 r k)
    = Cert.Spec.scaledRows (V c main_arg1) (V c main_arg2) (((cfg0.win 2).blk t).view.emb (ix2 r k))
  refine (scaledSlab0_apply (iblk0 V c 0 t) (iblk0 V c 1 t) r k).trans ?_
  unfold Cert.Spec.scaledRows
  refine congrArg₂ (· * ·) ?_ ?_
  · -- the slab is rows 1024·t … of the weights, where the result's block sits
    show V c main_arg1 (((cfg0.win 0).blk t).view.emb (ix2 r k)) = V c main_arg1 (((cfg0.win 2).blk t).view.emb (ix2 r k))
    refine congrArg (V c main_arg1) (funext fun a => Fin.ext ?_)
    match a with
    | ⟨0, _⟩ => show win0_0.index t (0 : Fin 2) * 1024 + 1 * r.val = win0_2.index t (0 : Fin 2) * 1024 + 1 * r.val; omega
    | ⟨1, _⟩ => show win0_0.index t (1 : Fin 2) * 4096 + 1 * k.val = win0_2.index t (1 : Fin 2) * 4096 + 1 * k.val; omega
  · -- the tile is rows 8·t … of the scales: row 8·t + r / 128 is the block row of row 1024·t + r
    show V c main_arg2 (((cfg0.win 1).blk t).view.emb (ix2 (Cert.Spec.blk (n := 8) ⟨r.val, r.isLt⟩) (Cert.Spec.blk (n := 32) ⟨k.val, k.isLt⟩))) = V c main_arg2 _
    refine congrArg (V c main_arg2) (funext fun a => Fin.ext ?_)
    match a with
    | ⟨0, _⟩ => show win0_1.index t (0 : Fin 2) * 8 + 1 * (r.val / 128) = (win0_2.index t (0 : Fin 2) * 1024 + 1 * r.val) / 128; omega
    | ⟨1, _⟩ => show win0_1.index t (1 : Fin 2) * 32 + 1 * (k.val / 128) = (win0_2.index t (1 : Fin 2) * 4096 + 1 * k.val) / 128; omega

/-- The array region 0 leaves: the weight matrix with every 128 × 128 tile multiplied by its scale. -/
theorem final0 (c : Dev nD) :
    (dat0 (F := Ideal) V c).arrAt 2 cfg0.N = Cert.Spec.scaledRows (V c main_arg1) (V c main_arg2) :=
  (dat0 (F := Ideal) V c).arrAt_eq_of_cover 2 _ (fun t _ => writtenBack0 V c t) covered0

end

end Cert.KernelIdeal.Hand

end
-- ==== Proof.KI.Val1.lean ====
/-
  Region 1's value. The region walks the 14 row blocks of a 14336 × 4096 weight matrix; at block t it holds rows
  1024·t … 1024·t + 1023 and the eight rows 8·t … 8·t + 7 of the 112 × 32 table of scales, and writes back the slab
  with every 128 × 128 tile multiplied by its own scale. Entry (r, k) of the slab lies in tile (r / 128, k / 128), so
  the array the region leaves is the matrix with entry (i, k) multiplied by scale (i / 128, k / 128).
-/
import proofs.«169556_j22153441312857_1_alg».proof.Proof.KI.R1
import proofs.«169556_j22153441312857_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The rectangles the body loads and stores through start at the origin. -/
theorem zeroOff1 : (![0, 0] : Fin 2 → Nat) = fun _ => 0 := funext fun a => by fin_cases a <;> rfl

/-- The slab's product at an entry: the slab's entry times the scale of the 128 × 128 tile the entry lies in. The body
    reads the slab as 8 × 128 × 32 × 128 (row r is (r / 128, r % 128), column k is (k / 128, k % 128)), spreads the
    8 × 1 × 32 × 1 reading of the scales over it, multiplies and reads the product back as 1024 × 4096. -/
theorem scaledSlab1_apply (x0 : Vec Ideal S1024x4096 .f32) (x1 : Vec Ideal S8x32 .f32) (r : Fin 1024) (k : Fin 4096) :
    k1_pay1 x0 x1 (ix2 r k)
      = x0 (ix2 r k) * x1 (ix2 (Cert.Spec.blk (n := 8) ⟨r.val, r.isLt⟩) (Cert.Spec.blk (n := 32) ⟨k.val, k.isLt⟩)) := by
  have hr := r.isLt
  have hk := k.isLt
  unfold k1_pay1
  -- the change of format is the identity on the extended reals
  refine (truncf_apply _ bitsLt_bf16_f32 (ix2 r k)).trans ?_
  -- entry (r, k) of the slab is entry (r / 128, r % 128, k / 128, k % 128) of its four-axis reading
  refine (shapeCast_apply _ _ (ix2 r k)
    (ix4 (⟨r.val / 128, by omega⟩ : Fin 8) (⟨r.val % 128, by omega⟩ : Fin 128) (⟨k.val / 128, by omega⟩ : Fin 32) (⟨k.val % 128, by omega⟩ : Fin 128)) ?_).trans ?_
  · rw [Shape.rowMajor_val_four, Shape.rowMajor_val_two]
    show ((r.val / 128 * 128 + r.val % 128) * 32 + k.val / 128) * 128 + k.val % 128 = r.val * 4096 + k.val
    omega
  refine (mulf_apply _ _ _).trans ?_
  refine congrArg₂ (· * ·) ?_ ?_
  · -- the slab's own entry, read back through the same four-axis reading
    refine shapeCast_apply x0 _ _ (ix2 r k) ?_
    rw [Shape.rowMajor_val_four, Shape.rowMajor_val_two]
    show r.val * 4096 + k.val = ((r.val / 128 * 128 + r.val % 128) * 32 + k.val / 128) * 128 + k.val % 128
    omega
  · -- the scale spread over the tile: the two unit axes read 0, the other two keep the tile's coordinates
    refine (broadcastTo_apply _ _ _
      (ix4 (⟨r.val / 128, by omega⟩ : Fin 8) (⟨0, by omega⟩ : Fin 1) (⟨k.val / 128, by omega⟩ : Fin 32) (⟨0, by omega⟩ : Fin 1)) ?_).trans ?_
    · intro a
      match a with
      | ⟨0, _⟩ => rfl
      | ⟨1, _⟩ => rfl
      | ⟨2, _⟩ => rfl
      | ⟨3, _⟩ => rfl
    refine shapeCast_apply x1 _ _ (ix2 (Cert.Spec.blk (n := 8) ⟨r.val, r.isLt⟩) (Cert.Spec.blk (n := 32) ⟨k.val, k.isLt⟩)) ?_
    rw [Shape.rowMajor_val_four, Shape.rowMajor_val_two]
    show r.val / 128 * 32 + k.val / 128 = ((r.val / 128 * 1 + 0) * 32 + k.val / 128) * 1 + 0
    omega

/-- Where each window's block sits at grid point t: block row t, block column 0, for all three windows. -/
theorem blockAt1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- An index of the result lies in point t's block iff each coordinate lies in the block's range on its axis. -/
theorem mem_block1 (t : Fin cfg1.N) (i : S14336x4096.Idx) :
    i ∈ ((cfg1.win 2).blk t).view.set ↔ ∀ a : Fin 2, win1_2.index t a * S1024x4096.size a ≤ (i a).val ∧ (i a).val < win1_2.index t a * S1024x4096.size a + S1024x4096.size a := by
  show i ∈ ((View.whole main_v3).slice (win1_2.rect t)).set ↔ _
  rw [View.set_slice_whole, Rect.mem_set_unit]
  exact Iff.rfl

/-- Every index of the result lies in the block of the point its row falls in. -/
theorem covered1 (i : S14336x4096.Idx) : ∃ t : Fin cfg1.N, (cfg1.win 2).flush t = true ∧ i ∈ ((cfg1.win 2).blk t).view.set := by
  have hi0 : (i 0).val < 14336 := (i 0).isLt
  have hi1 : (i 1).val < 4096 := (i 1).isLt
  -- row i lies in row block i / 1024
  let t : Fin cfg1.N := ⟨(i 0).val / 1024, by rw [show cfg1.N = 14 from N_1]; omega⟩
  obtain ⟨-, -, -, -, e4, e5⟩ := blockAt1 t
  have e4' : win1_2.index t (0 : Fin 2) = (i 0).val / 1024 := e4
  refine ⟨t, flush1_2 t, ?_⟩
  rw [mem_block1]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 4096 ≤ (i 1).val ∧ (i 1).val < win1_2.index t (1 : Fin 2) * 4096 + 4096; omega

section
variable (V : (c : Dev nD) → (b : Ref sig .tc) → Buf (Elt Ideal) ((c : Thread nD τ).loc b))

/-- What point t writes back is block t of the scaled matrix: the slab it loaded is rows 1024·t … of the weights, the
    tile rows 8·t … of the scales, and the block row of row 1024·t + r is 8·t + r / 128. -/
theorem writtenBack1 (c : Dev nD) (t : Fin cfg1.N) :
    (dat1 (F := Ideal) V c).flushed 2 t
      = ((cfg1.win 2).blk t).view.read (Elt Ideal) (Cert.Spec.scaledRows (V c main_arg3) (V c main_arg4)) := by
  show (cfg1.win 2).cut (grid1.coords t) ((dat1 (F := Ideal) V c).after 2 t) = _
  rw [after1_2]
  unfold out1_2
  rw [View.canon_unit_zero zeroOff1]
  simp only [View.ld_unit_zero (S := S1024x4096) zeroOff1, View.ld_unit_zero (S := S8x32) zeroOff1]
  obtain ⟨e0, e1, e2, e3, e4, e5⟩ := blockAt1 t
  have ht : t.val < 14 := lt_of_lt_of_eq t.isLt N_1
  funext j
  obtain ⟨r, k, rfl⟩ : ∃ (r : Fin 1024) (k : Fin 4096), j = ix2 r k := ⟨j 0, j 1, eq_ix2 j⟩
  have hr := r.isLt
  have hk := k.isLt
  show k1_pay1 (iblk1 V c 0 t) (iblk1 V c 1 t) (ix2 r k)
    = Cert.Spec.scaledRows (V c main_arg3) (V c main_arg4) (((cfg1.win 2).blk t).view.emb (ix2 r k))
  refine (scaledSlab1_apply (iblk1 V c 0 t) (iblk1 V c 1 t) r k).trans ?_
  unfold Cert.Spec.scaledRows
  refine congrArg₂ (· * ·) ?_ ?_
  · -- the slab is rows 1024·t … of the weights, where the result's block sits
    show V c main_arg3 (((cfg1.win 0).blk t).view.emb (ix2 r k)) = V c main_arg3 (((cfg1.win 2).blk t).view.emb (ix2 r k))
    refine congrArg (V c main_arg3) (funext fun a => Fin.ext ?_)
    match a with
    | ⟨0, _⟩ => show win1_0.index t (0 : Fin 2) * 1024 + 1 * r.val = win1_2.index t (0 : Fin 2) * 1024 + 1 * r.val; omega
    | ⟨1, _⟩ => show win1_0.index t (1 : Fin 2) * 4096 + 1 * k.val = win1_2.index t (1 : Fin 2) * 4096 + 1 * k.val; omega
  · -- the tile is rows 8·t … of the scales: row 8·t + r / 128 is the block row of row 1024·t + r
    show V c main_arg4 (((cfg1.win 1).blk t).view.emb (ix2 (Cert.Spec.blk (n := 8) ⟨r.val, r.isLt⟩) (Cert.Spec.blk (n := 32) ⟨k.val, k.isLt⟩))) = V c main_arg4 _
    refine congrArg (V c main_arg4) (funext fun a => Fin.ext ?_)
    match a with
    | ⟨0, _⟩ => show win1_1.index t (0 : Fin 2) * 8 + 1 * (r.val / 128) = (win1_2.index t (0 : Fin 2) * 1024 + 1 * r.val) / 128; omega
    | ⟨1, _⟩ => show win1_1.index t (1 : Fin 2) * 32 + 1 * (k.val / 128) = (win1_2.index t (1 : Fin 2) * 4096 + 1 * k.val) / 128; omega

/-- The array region 1 leaves: the weight matrix with every 128 × 128 tile multiplied by its scale. -/
theorem final1 (c : Dev nD) :
    (dat1 (F := Ideal) V c).arrAt 2 cfg1.N = Cert.Spec.scaledRows (V c main_arg3) (V c main_arg4) :=
  (dat1 (F := Ideal) V c).arrAt_eq_of_cover 2 _ (fun t _ => writtenBack1 V c t) covered1

end

end Cert.KernelIdeal.Hand

end
-- ==== Proof.KI.Val2.lean ====
/-
  Region 2's value. The region walks the 14 column blocks of a 4096 × 14336 weight matrix; at block t it holds all 4096
  rows of columns 1024·t … 1024·t + 1023 and the eight rows 8·t … 8·t + 7 of the 112 × 32 table of scales, which is
  stored transposed: its entry (q, p) is the scale of tile (p, q) of the matrix. The body turns the 8 × 32 tile of scales
  over to 32 × 8 and multiplies every 128 × 128 tile of the slab by its own scale. Entry (r, k) of the slab lies in tile
  (r / 128, k / 128), so the array the region leaves is the matrix with entry (r, j) multiplied by the table's entry
  (j / 128, r / 128).
-/
import proofs.«169556_j22153441312857_1_alg».proof.Proof.KI.R2
import proofs.«169556_j22153441312857_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The rectangles the body loads and stores through start at the origin. -/
theorem zeroOff2 : (![0, 0] : Fin 2 → Nat) = fun _ => 0 := funext fun a => by fin_cases a <;> rfl

/-- The slab's product at an entry: the slab's entry times the scale of the 128 × 128 tile the entry lies in, which the
    tile of scales holds at the transposed place. The body reads the slab as 32 × 128 × 8 × 128 (row r is
    (r / 128, r % 128), column k is (k / 128, k % 128)), turns the 8 × 32 scales over to 32 × 8, spreads their
    32 × 1 × 8 × 1 reading over the slab, multiplies and reads the product back as 4096 × 1024. -/
theorem scaledSlab2_apply (x0 : Vec Ideal S4096x1024 .f32) (x1 : Vec Ideal S8x32 .f32) (r : Fin 4096) (k : Fin 1024) :
    k2_pay1 x0 x1 (ix2 r k)
      = x0 (ix2 r k) * x1 (ix2 (Cert.Spec.blk (n := 8) ⟨k.val, k.isLt⟩) (Cert.Spec.blk (n := 32) ⟨r.val, r.isLt⟩)) := by
  have hr := r.isLt
  have hk := k.isLt
  unfold k2_pay1
  -- the change of format is the identity on the extended reals
  refine (truncf_apply _ bitsLt_bf16_f32 (ix2 r k)).trans ?_
  -- entry (r, k) of the slab is entry (r / 128, r % 128, k / 128, k % 128) of its four-axis reading
  refine (shapeCast_apply _ _ (ix2 r k)
    (ix4 (⟨r.val / 128, by omega⟩ : Fin 32) (⟨r.val % 128, by omega⟩ : Fin 128) (⟨k.val / 128, by omega⟩ : Fin 8) (⟨k.val % 128, by omega⟩ : Fin 128)) ?_).trans ?_
  · rw [Shape.rowMajor_val_four, Shape.rowMajor_val_two]
    show ((r.val / 128 * 128 + r.val % 128) * 8 + k.val / 128) * 128 + k.val % 128 = r.val * 1024 + k.val
    omega
  refine (mulf_apply _ _ _).trans ?_
  refine congrArg₂ (· * ·) ?_ ?_
  · -- the slab's own entry, read back through the same four-axis reading
    refine shapeCast_apply x0 _ _ (ix2 r k) ?_
    rw [Shape.rowMajor_val_four, Shape.rowMajor_val_two]
    show r.val * 1024 + k.val = ((r.val / 128 * 128 + r.val % 128) * 8 + k.val / 128) * 128 + k.val % 128
    omega
  · -- the scale spread over the tile: the two unit axes read 0, the other two keep the tile's coordinates
    refine (broadcastTo_apply _ _ _
      (ix4 (⟨r.val / 128, by omega⟩ : Fin 32) (⟨0, by omega⟩ : Fin 1) (⟨k.val / 128, by omega⟩ : Fin 8) (⟨0, by omega⟩ : Fin 1)) ?_).trans ?_
    · intro a
      match a with
      | ⟨0, _⟩ => rfl
      | ⟨1, _⟩ => rfl
      | ⟨2, _⟩ => rfl
      | ⟨3, _⟩ => rfl
    refine (shapeCast_apply _ _ _ (ix2 (Cert.Spec.blk (n := 32) ⟨r.val, r.isLt⟩) (Cert.Spec.blk (n := 8) ⟨k.val, k.isLt⟩)) ?_).trans ?_
    · rw [Shape.rowMajor_val_four, Shape.rowMajor_val_two]
      show r.val / 128 * 8 + k.val / 128 = ((r.val / 128 * 1 + 0) * 8 + k.val / 128) * 1 + 0
      omega
    -- the turned-over scales at (r / 128, k / 128) are the scales as loaded at (k / 128, r / 128)
    refine (transpose_ix2_apply _ _ (Cert.Spec.blk (n := 32) ⟨r.val, r.isLt⟩) (Cert.Spec.blk (n := 8) ⟨k.val, k.isLt⟩)).trans ?_
    exact congrFun (shapeCast_self x1 _) _

/-- Where each window's block sits at grid point t: the weights' and the result's at block column t of block row 0, the
    scales' at block row t of block column 0. -/
theorem blockAt2 : ∀ t : Fin cfg2.N, win2_0.index t (0 : Fin 2) = 0 ∧ win2_0.index t (1 : Fin 2) = t.val
    ∧ win2_1.index t (0 : Fin 2) = t.val ∧ win2_1.index t (1 : Fin 2) = 0
    ∧ win2_2.index t (0 : Fin 2) = 0 ∧ win2_2.index t (1 : Fin 2) = t.val :=
  (by decide +kernel : ∀ t : Fin grid2.N, _)

/-- An index of the result lies in point t's block iff each coordinate lies in the block's range on its axis. -/
theorem mem_block2 (t : Fin cfg2.N) (i : S4096x14336.Idx) :
    i ∈ ((cfg2.win 2).blk t).view.set ↔ ∀ a : Fin 2, win2_2.index t a * S4096x1024.size a ≤ (i a).val ∧ (i a).val < win2_2.index t a * S4096x1024.size a + S4096x1024.size a := by
  show i ∈ ((View.whole main_v5).slice (win2_2.rect t)).set ↔ _
  rw [View.set_slice_whole, Rect.mem_set_unit]
  exact Iff.rfl

/-- Every index of the result lies in the block of the point its column falls in. -/
theorem covered2 (i : S4096x14336.Idx) : ∃ t : Fin cfg2.N, (cfg2.win 2).flush t = true ∧ i ∈ ((cfg2.win 2).blk t).view.set := by
  have hi0 : (i 0).val < 4096 := (i 0).isLt
  have hi1 : (i 1).val < 14336 := (i 1).isLt
  -- column j lies in column block j / 1024
  let t : Fin cfg2.N := ⟨(i 1).val / 1024, by rw [show cfg2.N = 14 from N_2]; omega⟩
  obtain ⟨-, -, -, -, e4, e5⟩ := blockAt2 t
  have e5' : win2_2.index t (1 : Fin 2) = (i 1).val / 1024 := e5
  refine ⟨t, flush2_2 t, ?_⟩
  rw [mem_block2]
  intro a
  match a with
  | ⟨0, _⟩ => show win2_2.index t (0 : Fin 2) * 4096 ≤ (i 0).val ∧ (i 0).val < win2_2.index t (0 : Fin 2) * 4096 + 4096; omega
  | ⟨1, _⟩ => show win2_2.index t (1 : Fin 2) * 1024 ≤ (i 1).val ∧ (i 1).val < win2_2.index t (1 : Fin 2) * 1024 + 1024; omega

section
variable (V : (c : Dev nD) → (b : Ref sig .tc) → Buf (Elt Ideal) ((c : Thread nD τ).loc b))

/-- What point t writes back is block t of the scaled matrix: the slab it loaded is columns 1024·t … of the weights, the
    tile rows 8·t … of the transposed table, and the block column of column 1024·t + k is 8·t + k / 128. -/
theorem writtenBack2 (c : Dev nD) (t : Fin cfg2.N) :
    (dat2 (F := Ideal) V c).flushed 2 t
      = ((cfg2.win 2).blk t).view.read (Elt Ideal) (Cert.Spec.scaledCols (V c main_arg5) (V c main_v4)) := by
  show (cfg2.win 2).cut (grid2.coords t) ((dat2 (F := Ideal) V c).after 2 t) = _
  rw [after2_2]
  unfold out2_2
  rw [View.canon_unit_zero zeroOff2]
  simp only [View.ld_unit_zero (S := S4096x1024) zeroOff2, View.ld_unit_zero (S := S8x32) zeroOff2]
  obtain ⟨e0, e1, e2, e3, e4, e5⟩ := blockAt2 t
  have ht : t.val < 14 := lt_of_lt_of_eq t.isLt N_2
  funext j
  obtain ⟨r, k, rfl⟩ : ∃ (r : Fin 4096) (k : Fin 1024), j = ix2 r k := ⟨j 0, j 1, eq_ix2 j⟩
  have hr := r.isLt
  have hk := k.isLt
  show k2_pay1 (iblk2 V c 0 t) (iblk2 V c 1 t) (ix2 r k)
    = Cert.Spec.scaledCols (V c main_arg5) (V c main_v4) (((cfg2.win 2).blk t).view.emb (ix2 r k))
  refine (scaledSlab2_apply (iblk2 V c 0 t) (iblk2 V c 1 t) r k).trans ?_
  unfold Cert.Spec.scaledCols
  refine congrArg₂ (· * ·) ?_ ?_
  · -- the slab is columns 1024·t … of the weights, where the result's block sits
    show V c main_arg5 (((cfg2.win 0).blk t).view.emb (ix2 r k)) = V c main_arg5 (((cfg2.win 2).blk t).view.emb (ix2 r k))
    refine congrArg (V c main_arg5) (funext fun a => Fin.ext ?_)
    match a with
    | ⟨0, _⟩ => show win2_0.index t (0 : Fin 2) * 4096 + 1 * r.val = win2_2.index t (0 : Fin 2) * 4096 + 1 * r.val; omega
    | ⟨1, _⟩ => show win2_0.index t (1 : Fin 2) * 1024 + 1 * k.val = win2_2.index t (1 : Fin 2) * 1024 + 1 * k.val; omega
  · -- the tile is rows 8·t … of the transposed table: row 8·t + k / 128 is the block column of column 1024·t + k
    show V c main_v4 (((cfg2.win 1).blk t).view.emb (ix2 (Cert.Spec.blk (n := 8) ⟨k.val, k.isLt⟩) (Cert.Spec.blk (n := 32) ⟨r.val, r.isLt⟩))) = V c main_v4 _
    refine congrArg (V c main_v4) (funext fun a => Fin.ext ?_)
    match a with
    | ⟨0, _⟩ => show win2_1.index t (0 : Fin 2) * 8 + 1 * (k.val / 128) = (win2_2.index t (1 : Fin 2) * 1024 + 1 * k.val) / 128; omega
    | ⟨1, _⟩ => show win2_1.index t (1 : Fin 2) * 32 + 1 * (r.val / 128) = (win2_2.index t (0 : Fin 2) * 4096 + 1 * r.val) / 128; omega

/-- The array region 2 leaves: the weight matrix with every 128 × 128 tile multiplied by its scale, read from the
    transposed table. -/
theorem final2 (c : Dev nD) :
    (dat2 (F := Ideal) V c).arrAt 2 cfg2.N = Cert.Spec.scaledCols (V c main_arg5) (V c main_v4) :=
  (dat2 (F := Ideal) V c).arrAt_eq_of_cover 2 _ (fun t _ => writtenBack2 V c t) covered2

end

end Cert.KernelIdeal.Hand

end
-- ==== Proof.LibDotNT.lean ====
/-
  A matrix product against a transposed right operand, at the ideal instance, read at an entry.

  For two rank-2 operands of shapes [M, K] and [N, K] whose dimension numbers contract the second axis of each, the
  product into a zero accumulator is, at row `p` and column `j`, the plain sum over `a : Fin K` of
  `l (p, a) * r (j, a)` on the extended reals: row `p` of the left operand against ROW `j` of the right one. The
  dimension numbers enter only through four coordinate facts (which coordinate of each operand is the output's and
  which is the contracted one); a caller proves those four for its own record and gets the sum. With an accumulator
  `acc` added afterwards the entry is `acc (p, j)` plus that sum.
-/
import Idealize.ShloMosaic.Lib.ValueIdx
import Idealize.ShloMosaic.PureOps.Ideal.Laws

noncomputable section

namespace Cert.Lib.DotNT

open Idealize.ShloMosaic Idealize.ShloMosaic.ValueIdx

/-- The contraction sum of a rank-2 product against a transposed right operand, re-indexed from the record's one-axis
    contraction index to `Fin K`: the left operand is read along row `p`, the right along row `j`. -/
theorem contraction_ix2 {M K N : Nat} (D : DotDims ⟨2, ![M, K]⟩ ⟨2, ![N, K]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (l : (⟨2, ![M, K]⟩ : Shape).Idx → EReal) (r : (⟨2, ![N, K]⟩ : Shape).Idx → EReal) (p : Fin M) (j : Fin N) :
    ∑ k : D.contr.Idx, l (D.lhsIdx (ix2 p j) k) * r (D.rhsIdx (ix2 p j) k) = ∑ a : Fin K, l (ix2 p a) * r (ix2 j a) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 j a := funext fun d => Fin.ext (by
    match d with
    | ⟨0, _⟩ => exact hr0 _ _
    | ⟨1, _⟩ => exact (hr1 _ _).trans hk)
  rw [el, er]

/-- A kernel's matrix product into the zero accumulator, at the ideal instance, read at `(p, j)`. -/
theorem matmul_zero_ix2 {M K N : Nat} {φ₁ φ₂ : FTy} (D : DotDims ⟨2, ![M, K]⟩ ⟨2, ![N, K]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (l : FVec Ideal ⟨2, ![M, K]⟩ φ₁) (r : FVec Ideal ⟨2, ![N, K]⟩ φ₂) (p : Fin M) (j : Fin N) :
    matmul D prec l r (constant (F := Ideal) ⟨2, ![M, N]⟩ .f32 0x00000000#32) (ix2 p j)
      = ∑ a : Fin K, l (ix2 p a) * r (ix2 j a) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

/-- The position, in a run of `n` consecutive stretches of `K` terms, of term `a` of stretch `b`. -/
abbrev pos {n K : Nat} (b : Fin n) (a : Fin K) : Fin (n * K) := ⟨b.val * K + a.val, by
  have hb := b.isLt; have ha := a.isLt
  calc b.val * K + a.val < b.val * K + K := by omega
    _ = (b.val + 1) * K := by ring
    _ ≤ n * K := Nat.mul_le_mul_right K hb⟩

/-- A sum over `Fin (n * K)` taken stretch by stretch: `n` consecutive stretches of `K` terms. -/
theorem sum_blocks {n K : Nat} (f : Fin (n * K) → EReal) :
    ∑ a : Fin (n * K), f a = ∑ b : Fin n, ∑ a : Fin K, f (pos b a) := by
  rw [← Fintype.sum_prod_type']
  refine (Fintype.sum_equiv (finProdFinEquiv (m := n) (n := K)) (fun x => f (pos x.1 x.2)) f fun x => ?_).symm
  refine congrArg f (Fin.ext ?_)
  show x.1.val * K + x.2.val = x.2.val + K * x.1.val
  ring

end Cert.Lib.DotNT

end
-- ==== Proof.KI.Val3Math.lean ====
/-
  The arithmetic behind the gated product's accumulators. A row of 4096 products is summed in two stretches of 2048:
  the first stretch is added to a zero, the second to that partial sum. Over the extended reals addition is
  commutative and associative, and zero is its unit, so the two-stretch total is the plain sum over all 4096 terms —
  the inner product of an activation row with a weight row.
-/
import Idealize.ShloMosaic.Lib.ValueIdx
import Idealize.ShloMosaic.PureOps.Ideal.Laws
import proofs.«169556_j22153441312857_1_alg».proof.Proof.Spec
import proofs.«169556_j22153441312857_1_alg».proof.Proof.LibDotNT

noncomputable section

namespace Cert.KernelIdeal.Hand

open Idealize.ShloMosaic Idealize.ShloMosaic.ValueIdx

/-- Term `a` of the first stretch of 2048, as a position among the 4096. -/
abbrev lowHalf3 (a : Fin 2048) : Fin 4096 := ⟨a.val, by have := a.isLt; omega⟩

/-- Term `a` of the second stretch of 2048, as a position among the 4096. -/
abbrev highHalf3 (a : Fin 2048) : Fin 4096 := ⟨2048 + a.val, by have := a.isLt; omega⟩

/-- A sum of 4096 terms taken as zero plus the first 2048, then plus the last 2048. -/
theorem sum_two_stretches3 (f : Fin 4096 → EReal) :
    (0 + ∑ a : Fin 2048, f (lowHalf3 a)) + ∑ a : Fin 2048, f (highHalf3 a) = ∑ k : Fin 4096, f k := by
  rw [zero_add]
  have h := Cert.Lib.DotNT.sum_blocks (n := 2) (K := 2048) f
  rw [Fin.sum_univ_two] at h
  have e0 : ∀ a : Fin 2048, Cert.Lib.DotNT.pos (n := 2) (K := 2048) 0 a = lowHalf3 a := fun a =>
    Fin.ext (by show (0 : Fin 2).val * 2048 + a.val = a.val; simp)
  have e1 : ∀ a : Fin 2048, Cert.Lib.DotNT.pos (n := 2) (K := 2048) 1 a = highHalf3 a := fun a =>
    Fin.ext (by show (1 : Fin 2).val * 2048 + a.val = 2048 + a.val; simp)
  rw [h]
  simp only [e0, e1]

/-- The inner product of activation row `p` with weight row `q`, accumulated in two stretches from zero. -/
theorem inner_two_stretches3 (xr : Cert.Spec.Srows.Idx → EReal) (w : Cert.Spec.Swide.Idx → EReal) (p : Fin 2048) (q : Fin 14336) :
    (0 + ∑ a : Fin 2048, xr (ix2 p (lowHalf3 a)) * w (ix2 q (lowHalf3 a)))
        + ∑ a : Fin 2048, xr (ix2 p (highHalf3 a)) * w (ix2 q (highHalf3 a))
      = Cert.Spec.inner xr w p q :=
  sum_two_stretches3 fun k => xr (ix2 p k) * w (ix2 q k)

end Cert.KernelIdeal.Hand

end
-- ==== Proof.KI.Val3.lean ====
/-
  Region 3's value: the hidden rows. The region walks 4 × 14 × 2 points (i, j, k). At a point it holds rows
  512·i … 512·i + 511 of the activations and rows 1024·j … 1024·j + 1023 of the two 14336 × 4096 weight matrices, each
  restricted to the columns 2048·k … 2048·k + 2047, and adds to two 512 × 1024 accumulators the products of activation
  rows with weight rows over those 2048 columns. The accumulators are set to zero when k = 0; when k = 1 they hold the
  inner products over all 4096 columns, g against the first matrix and u against the second, and the block
  (g · logistic g) · u is written back as block (i, j) of the 2048 × 14336 result. The 4 × 14 written blocks tile the
  result, so the array the region leaves is, at (row, unit), the gated product of the two full inner products.
-/
import proofs.«169556_j22153441312857_1_alg».proof.Proof.KI.R3
import proofs.«169556_j22153441312857_1_alg».proof.Proof.KI.Val3Math
import proofs.«169556_j22153441312857_1_alg».proof.Proof.Spec
import proofs.«169556_j22153441312857_1_alg».proof.Proof.LibDotNT
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The product's dimension record, coordinate by coordinate

Both products of the body contract the second axis of each operand: entry (r, n) of the result reads row r of the
left operand and ROW n of the right one, each along the contracted coordinate. -/

theorem gatedDot_lhs_0 (i : S512x1024.Idx) (q : dot_S512x2048_S1024x2048_S512x1024_1_1_0_0_n_n.contr.Idx) :
    (dot_S512x2048_S1024x2048_S512x1024_1_1_0_0_n_n.lhsIdx i q 0).val = (i 0).val := by
  unfold DotDims.lhsIdx
  rw [dif_neg (show ¬(0 : Fin S512x2048.rank) ∈ dot_S512x2048_S1024x2048_S512x1024_1_1_0_0_n_n.lhsBatch by decide), dif_pos (show (0 : Fin S512x2048.rank) ∈ dot_S512x2048_S1024x2048_S512x1024_1_1_0_0_n_n.lhsNonContracting by decide)]
  rfl
theorem gatedDot_lhs_1 (i : S512x1024.Idx) (q : dot_S512x2048_S1024x2048_S512x1024_1_1_0_0_n_n.contr.Idx) :
    (dot_S512x2048_S1024x2048_S512x1024_1_1_0_0_n_n.lhsIdx i q 1).val = (q ⟨0, by decide⟩).val :=
  dot_S512x2048_S1024x2048_S512x1024_1_1_0_0_n_n.lhsIdx_val_of_single rfl i q
theorem gatedDot_rhs_0 (i : S512x1024.Idx) (q : dot_S512x2048_S1024x2048_S512x1024_1_1_0_0_n_n.contr.Idx) :
    (dot_S512x2048_S1024x2048_S512x1024_1_1_0_0_n_n.rhsIdx i q 0).val = (i 1).val := by
  unfold DotDims.rhsIdx
  rw [dif_neg (show ¬(0 : Fin S1024x2048.rank) ∈ dot_S512x2048_S1024x2048_S512x1024_1_1_0_0_n_n.rhsBatch by decide), dif_pos (show (0 : Fin S1024x2048.rank) ∈ dot_S512x2048_S1024x2048_S512x1024_1_1_0_0_n_n.rhsNonContracting by decide)]
  rfl
theorem gatedDot_rhs_1 (i : S512x1024.Idx) (q : dot_S512x2048_S1024x2048_S512x1024_1_1_0_0_n_n.contr.Idx) :
    (dot_S512x2048_S1024x2048_S512x1024_1_1_0_0_n_n.rhsIdx i q 1).val = (q ⟨0, by decide⟩).val :=
  dot_S512x2048_S1024x2048_S512x1024_1_1_0_0_n_n.rhsIdx_val_of_single rfl i q

/-! ## The body's payloads at an entry, on the extended reals -/

/-- The block an accumulator is reset to holds zero everywhere. -/
theorem resetG3_apply (r : Fin 512) (n : Fin 1024) : k3_pay1 (F := Ideal) (ix2 r n) = 0 := by
  unfold k3_pay1
  refine (congrFun (shapeCast_self _ _) (ix2 r n)).trans ?_
  exact Ideal.ofBits_zero_f32
theorem resetU3_apply (r : Fin 512) (n : Fin 1024) : k3_pay2 (F := Ideal) (ix2 r n) = 0 := by
  unfold k3_pay2
  refine (congrFun (shapeCast_self _ _) (ix2 r n)).trans ?_
  exact Ideal.ofBits_zero_f32

/-- One step of the gate accumulator: what it held plus, at (r, n), the 2048 products of row r of the activation block
    with row n of the weight block. -/
theorem stepG3_apply (x : Vec Ideal S512x2048 .bf16) (w : Vec Ideal S1024x2048 .bf16) (acc : Vec Ideal S512x1024 .f32)
    (r : Fin 512) (n : Fin 1024) :
    k3_pay4 x w acc (ix2 r n) = acc (ix2 r n) + ∑ a : Fin 2048, x (ix2 r a) * w (ix2 n a) := by
  unfold k3_pay4 k3_pay3
  refine (congrFun (shapeCast_self _ _) (ix2 r n)).trans ?_
  have e1 : shapeCast S512x2048 x shapeCasts_S512x2048_S512x2048 = x := shapeCast_self _ _
  have e2 : shapeCast S1024x2048 w shapeCasts_S1024x2048_S1024x2048 = w := shapeCast_self _ _
  dsimp only
  rw [e1, e2, addf_apply]
  exact congrArg (acc (ix2 r n) + ·)
    (Cert.Lib.DotNT.matmul_zero_ix2 dot_S512x2048_S1024x2048_S512x1024_1_1_0_0_n_n none rfl rfl
      gatedDot_lhs_0 gatedDot_lhs_1 gatedDot_rhs_0 gatedDot_rhs_1 x w r n)

/-- One step of the up accumulator: the same against the second weight block. -/
theorem stepU3_apply (x : Vec Ideal S512x2048 .bf16) (w : Vec Ideal S1024x2048 .bf16) (acc : Vec Ideal S512x1024 .f32)
    (r : Fin 512) (n : Fin 1024) :
    k3_pay5 x w acc (ix2 r n) = acc (ix2 r n) + ∑ a : Fin 2048, x (ix2 r a) * w (ix2 n a) := by
  unfold k3_pay5 k3_pay3
  refine (congrFun (shapeCast_self _ _) (ix2 r n)).trans ?_
  have e1 : shapeCast S512x2048 x shapeCasts_S512x2048_S512x2048 = x := shapeCast_self _ _
  have e2 : shapeCast S1024x2048 w shapeCasts_S1024x2048_S1024x2048 = w := shapeCast_self _ _
  dsimp only
  rw [e1, e2, addf_apply]
  exact congrArg (acc (ix2 r n) + ·)
    (Cert.Lib.DotNT.matmul_zero_ix2 dot_S512x2048_S1024x2048_S512x1024_1_1_0_0_n_n none rfl rfl
      gatedDot_lhs_0 gatedDot_lhs_1 gatedDot_rhs_0 gatedDot_rhs_1 x w r n)

/-- The stored block: entry by entry the gate passed through g ↦ g · logistic g, times the up value. -/
theorem gated3_apply (g u : Vec Ideal S512x1024 .f32) (r : Fin 512) (n : Fin 1024) :
    k3_pay6 g u (ix2 r n) = (g (ix2 r n) * Ideal.logistic (g (ix2 r n))) * u (ix2 r n) := by
  rfl

/-! ## Where the blocks sit

The 112 points run over (i, j, k) ∈ 4 × 14 × 2 in row-major order: point t has i = t / 28, j = t / 2 mod 14,
k = t mod 2. The activation block is (i, k), both weight blocks are (j, k), the output block is (i, j). -/

theorem blockAt3 : ∀ t : Fin cfg3.N,
    win3_0.index t (0 : Fin 2) = t.val / 28 ∧ win3_0.index t (1 : Fin 2) = t.val % 2
    ∧ win3_1.index t (0 : Fin 2) = t.val / 2 % 14 ∧ win3_1.index t (1 : Fin 2) = t.val % 2
    ∧ win3_2.index t (0 : Fin 2) = t.val / 2 % 14 ∧ win3_2.index t (1 : Fin 2) = t.val % 2
    ∧ win3_3.index t (0 : Fin 2) = t.val / 28 ∧ win3_3.index t (1 : Fin 2) = t.val / 2 % 14 :=
  (by decide +kernel : ∀ t : Fin grid3.N, _)

/-- The hidden array at an index whose coordinates are known: the gate's inner product through g ↦ g · logistic g,
    times the up inner product. -/
theorem hidden_at3 (xr : Cert.Spec.Srows.Idx → EReal) (a b : Cert.Spec.Swide.Idx → EReal) (j : Cert.Spec.Shid.Idx)
    (p : Fin 2048) (q : Fin 14336) (hp : (j 0).val = p.val) (hq : (j 1).val = q.val) :
    Cert.Spec.hidden xr a b j
      = (Cert.Spec.inner xr a p q * Ideal.logistic (Cert.Spec.inner xr a p q)) * Cert.Spec.inner xr b p q := by
  obtain rfl : (⟨(j 0).val, (j 0).isLt⟩ : Fin 2048) = p := Fin.ext hp
  obtain rfl : (⟨(j 1).val, (j 1).isLt⟩ : Fin 14336) = q := Fin.ext hq
  rfl

section
variable (V : (c : Dev nD) → (b : Ref sig .tc) → Buf (Elt Ideal) ((c : Thread nD τ).loc b))

/-- The three arrays the region reads, and its three input blocks at a point, at their literal types. -/
abbrev actArr3 (c : Dev nD) : Vec Ideal S2048x4096 .bf16 := V c main_v1
abbrev gateArr3 (c : Dev nD) : Vec Ideal S14336x4096 .bf16 := V c main_v2
abbrev upArr3 (c : Dev nD) : Vec Ideal S14336x4096 .bf16 := V c main_v3
abbrev actBlk3 (c : Dev nD) (t : Fin cfg3.N) : Vec Ideal S512x2048 .bf16 := iblk3 V c 0 t
abbrev gateBlk3 (c : Dev nD) (t : Fin cfg3.N) : Vec Ideal S1024x2048 .bf16 := iblk3 V c 1 t
abbrev upBlk3 (c : Dev nD) (t : Fin cfg3.N) : Vec Ideal S1024x2048 .bf16 := iblk3 V c 2 t

/-- Entry (r, a) of the activation block at point t is entry (512·(t/28) + r, 2048·(t mod 2) + a) of the activations. -/
theorem actBlk3_apply (c : Dev nD) (t : Fin cfg3.N) (r : Fin 512) (a : Fin 2048) (p : Fin 2048) (k : Fin 4096)
    (hp : p.val = t.val / 28 * 512 + r.val) (hk : k.val = t.val % 2 * 2048 + a.val) :
    actBlk3 V c t (ix2 r a) = actArr3 V c (ix2 p k) := by
  show V c main_v1 (((cfg3.win 0).blk t).view.emb (ix2 r a)) = V c main_v1 (ix2 p k)
  obtain ⟨e0, e1, e2, e3, e4, e5, e6, e7⟩ := blockAt3 t
  refine congrArg _ (funext fun d => Fin.ext ?_)
  match d with
  | ⟨0, _⟩ => show win3_0.index t (0 : Fin 2) * 512 + 1 * r.val = p.val; omega
  | ⟨1, _⟩ => show win3_0.index t (1 : Fin 2) * 2048 + 1 * a.val = k.val; omega

/-- Entry (n, a) of the gate weights' block at point t is entry (1024·(t/2 mod 14) + n, 2048·(t mod 2) + a) of them. -/
theorem gateBlk3_apply (c : Dev nD) (t : Fin cfg3.N) (n : Fin 1024) (a : Fin 2048) (q : Fin 14336) (k : Fin 4096)
    (hq : q.val = t.val / 2 % 14 * 1024 + n.val) (hk : k.val = t.val % 2 * 2048 + a.val) :
    gateBlk3 V c t (ix2 n a) = gateArr3 V c (ix2 q k) := by
  show V c main_v2 (((cfg3.win 1).blk t).view.emb (ix2 n a)) = V c main_v2 (ix2 q k)
  obtain ⟨e0, e1, e2, e3, e4, e5, e6, e7⟩ := blockAt3 t
  refine congrArg _ (funext fun d => Fin.ext ?_)
  match d with
  | ⟨0, _⟩ => show win3_1.index t (0 : Fin 2) * 1024 + 1 * n.val = q.val; omega
  | ⟨1, _⟩ => show win3_1.index t (1 : Fin 2) * 2048 + 1 * a.val = k.val; omega

/-- The same for the up weights' block. -/
theorem upBlk3_apply (c : Dev nD) (t : Fin cfg3.N) (n : Fin 1024) (a : Fin 2048) (q : Fin 14336) (k : Fin 4096)
    (hq : q.val = t.val / 2 % 14 * 1024 + n.val) (hk : k.val = t.val % 2 * 2048 + a.val) :
    upBlk3 V c t (ix2 n a) = upArr3 V c (ix2 q k) := by
  show V c main_v3 (((cfg3.win 2).blk t).view.emb (ix2 n a)) = V c main_v3 (ix2 q k)
  obtain ⟨e0, e1, e2, e3, e4, e5, e6, e7⟩ := blockAt3 t
  refine congrArg _ (funext fun d => Fin.ext ?_)
  match d with
  | ⟨0, _⟩ => show win3_2.index t (0 : Fin 2) * 1024 + 1 * n.val = q.val; omega
  | ⟨1, _⟩ => show win3_2.index t (1 : Fin 2) * 2048 + 1 * a.val = k.val; omega

/-- THE TWO-STEP FOLD, gate side. After an odd point the gate accumulator holds, at (r, n), the whole inner product of
    activation row 512·i + r with gate-weight row 1024·j + n: the even point before it left zero plus the first 2048
    products, and the odd point added the last 2048. -/
theorem gateAcc3 (c : Dev nD) (t : Fin cfg3.N) (h : t.val % 2 = 1) (r : Fin 512) (n : Fin 1024) (p : Fin 2048) (q : Fin 14336)
    (hp : p.val = t.val / 28 * 512 + r.val) (hq : q.val = t.val / 2 % 14 * 1024 + n.val) :
    (outsAt3 V c t.val t.isLt).2.1 (ix2 r n) = Cert.Spec.inner (actArr3 V c) (gateArr3 V c) p q := by
  have hN : cfg3.N = 112 := N_3
  have hlt : t.val - 1 < cfg3.N := by have := t.isLt; omega
  have hE : (outsAt3 V c (t.val - 1) hlt).2.1
      = k3_pay4 (actBlk3 V c ⟨t.val - 1, hlt⟩) (gateBlk3 V c ⟨t.val - 1, hlt⟩) (k3_pay1 (F := Ideal)) :=
    g3_even V c ⟨t.val - 1, hlt⟩ (by show (t.val - 1) % 2 = 0; omega)
  have hO : (outsAt3 V c t.val t.isLt).2.1
      = k3_pay4 (actBlk3 V c t) (gateBlk3 V c t) (outsAt3 V c (t.val - 1) hlt).2.1 := g3_odd V c t h
  rw [hO, hE]
  refine (stepG3_apply (actBlk3 V c t) (gateBlk3 V c t) _ r n).trans ?_
  refine (congrArg (· + ∑ a : Fin 2048, actBlk3 V c t (ix2 r a) * gateBlk3 V c t (ix2 n a))
    ((stepG3_apply (actBlk3 V c ⟨t.val - 1, hlt⟩) (gateBlk3 V c ⟨t.val - 1, hlt⟩) _ r n).trans
      (congrArg (· + ∑ a : Fin 2048, actBlk3 V c ⟨t.val - 1, hlt⟩ (ix2 r a) * gateBlk3 V c ⟨t.val - 1, hlt⟩ (ix2 n a))
        (resetG3_apply r n)))).trans ?_
  refine Eq.trans ?_ (inner_two_stretches3 (actArr3 V c) (gateArr3 V c) p q)
  refine congrArg₂ (· + ·) (congrArg (0 + ·) (Finset.sum_congr rfl fun a _ => ?_)) (Finset.sum_congr rfl fun a _ => ?_)
  · exact congrArg₂ (· * ·)
      (actBlk3_apply V c ⟨t.val - 1, hlt⟩ r a p (lowHalf3 a)
        (by show p.val = (t.val - 1) / 28 * 512 + r.val; omega) (by show a.val = (t.val - 1) % 2 * 2048 + a.val; omega))
      (gateBlk3_apply V c ⟨t.val - 1, hlt⟩ n a q (lowHalf3 a)
        (by show q.val = (t.val - 1) / 2 % 14 * 1024 + n.val; omega) (by show a.val = (t.val - 1) % 2 * 2048 + a.val; omega))
  · exact congrArg₂ (· * ·)
      (actBlk3_apply V c t r a p (highHalf3 a) hp (by show 2048 + a.val = t.val % 2 * 2048 + a.val; omega))
      (gateBlk3_apply V c t n a q (highHalf3 a) hq (by show 2048 + a.val = t.val % 2 * 2048 + a.val; omega))

/-- THE TWO-STEP FOLD, up side. -/
theorem upAcc3 (c : Dev nD) (t : Fin cfg3.N) (h : t.val % 2 = 1) (r : Fin 512) (n : Fin 1024) (p : Fin 2048) (q : Fin 14336)
    (hp : p.val = t.val / 28 * 512 + r.val) (hq : q.val = t.val / 2 % 14 * 1024 + n.val) :
    (outsAt3 V c t.val t.isLt).2.2 (ix2 r n) = Cert.Spec.inner (actArr3 V c) (upArr3 V c) p q := by
  have hN : cfg3.N = 112 := N_3
  have hlt : t.val - 1 < cfg3.N := by have := t.isLt; omega
  have hE : (outsAt3 V c (t.val - 1) hlt).2.2
      = k3_pay5 (actBlk3 V c ⟨t.val - 1, hlt⟩) (upBlk3 V c ⟨t.val - 1, hlt⟩) (k3_pay2 (F := Ideal)) :=
    u3_even V c ⟨t.val - 1, hlt⟩ (by show (t.val - 1) % 2 = 0; omega)
  have hO : (outsAt3 V c t.val t.isLt).2.2
      = k3_pay5 (actBlk3 V c t) (upBlk3 V c t) (outsAt3 V c (t.val - 1) hlt).2.2 := u3_odd V c t h
  rw [hO, hE]
  refine (stepU3_apply (actBlk3 V c t) (upBlk3 V c t) _ r n).trans ?_
  refine (congrArg (· + ∑ a : Fin 2048, actBlk3 V c t (ix2 r a) * upBlk3 V c t (ix2 n a))
    ((stepU3_apply (actBlk3 V c ⟨t.val - 1, hlt⟩) (upBlk3 V c ⟨t.val - 1, hlt⟩) _ r n).trans
      (congrArg (· + ∑ a : Fin 2048, actBlk3 V c ⟨t.val - 1, hlt⟩ (ix2 r a) * upBlk3 V c ⟨t.val - 1, hlt⟩ (ix2 n a))
        (resetU3_apply r n)))).trans ?_
  refine Eq.trans ?_ (inner_two_stretches3 (actArr3 V c) (upArr3 V c) p q)
  refine congrArg₂ (· + ·) (congrArg (0 + ·) (Finset.sum_congr rfl fun a _ => ?_)) (Finset.sum_congr rfl fun a _ => ?_)
  · exact congrArg₂ (· * ·)
      (actBlk3_apply V c ⟨t.val - 1, hlt⟩ r a p (lowHalf3 a)
        (by show p.val = (t.val - 1) / 28 * 512 + r.val; omega) (by show a.val = (t.val - 1) % 2 * 2048 + a.val; omega))
      (upBlk3_apply V c ⟨t.val - 1, hlt⟩ n a q (lowHalf3 a)
        (by show q.val = (t.val - 1) / 2 % 14 * 1024 + n.val; omega) (by show a.val = (t.val - 1) % 2 * 2048 + a.val; omega))
  · exact congrArg₂ (· * ·)
      (actBlk3_apply V c t r a p (highHalf3 a) hp (by show 2048 + a.val = t.val % 2 * 2048 + a.val; omega))
      (upBlk3_apply V c t n a q (highHalf3 a) hq (by show 2048 + a.val = t.val % 2 * 2048 + a.val; omega))

/-- The block an odd point leaves in the output's buffer, entry by entry: at (r, n) the hidden array's entry at
    (512·i + r, 1024·j + n). -/
theorem storedBlock3 (c : Dev nD) (t : Fin cfg3.N) (h : t.val % 2 = 1) (r : Fin 512) (n : Fin 1024) (j : S2048x14336.Idx)
    (hj0 : (j 0).val = t.val / 28 * 512 + r.val) (hj1 : (j 1).val = t.val / 2 % 14 * 1024 + n.val) :
    (outsAt3 V c t.val t.isLt).1 (ix2 r n) = Cert.Spec.hidden (V c main_v1) (V c main_v2) (V c main_v3) j := by
  have hN : cfg3.N = 112 := N_3
  have ht := t.isLt
  have hr := r.isLt
  have hn := n.isLt
  have hp : t.val / 28 * 512 + r.val < 2048 := by omega
  have hq : t.val / 2 % 14 * 1024 + n.val < 14336 := by omega
  rw [h3_odd V c t h]
  refine (gated3_apply _ _ r n).trans ?_
  rw [gateAcc3 V c t h r n ⟨_, hp⟩ ⟨_, hq⟩ rfl rfl, upAcc3 V c t h r n ⟨_, hp⟩ ⟨_, hq⟩ rfl rfl]
  exact (hidden_at3 (V c main_v1) (V c main_v2) (V c main_v3) j ⟨_, hp⟩ ⟨_, hq⟩ hj0 hj1).symm

/-- What an odd point writes back is its block of the hidden array. -/
theorem writtenBack3 (c : Dev nD) (t : Fin cfg3.N) (hf : (cfg3.win 3).flush t = true) :
    (dat3 (F := Ideal) V c).flushed 3 t
      = ((cfg3.win 3).blk t).view.read (Elt Ideal) (Cert.Spec.hidden (V c main_v1) (V c main_v2) (V c main_v3)) := by
  have h : t.val % 2 = 1 := (flush3_3 t).mp hf
  obtain ⟨e0, e1, e2, e3, e4, e5, e6, e7⟩ := blockAt3 t
  show (cfg3.win 3).cut (grid3.coords t) ((dat3 (F := Ideal) V c).after 3 t) = _
  rw [after3_3]
  funext y
  obtain ⟨r, n, rfl⟩ : ∃ (r : Fin 512) (n : Fin 1024), y = ix2 r n := ⟨y 0, y 1, eq_ix2 y⟩
  rw [View.read_apply]
  exact storedBlock3 V c t h r n (((cfg3.win 3).blk t).view.emb (ix2 r n))
    (by show win3_3.index t (0 : Fin 2) * 512 + 1 * r.val = _; omega)
    (by show win3_3.index t (1 : Fin 2) * 1024 + 1 * n.val = _; omega)

end

/-- An index of the hidden array lies in point t's output block iff each coordinate lies in the block's range. -/
theorem mem_block3 (t : Fin cfg3.N) (i : S2048x14336.Idx) :
    i ∈ ((cfg3.win 3).blk t).view.set ↔ ∀ a : Fin 2, win3_3.index t a * S512x1024.size a ≤ (i a).val ∧ (i a).val < win3_3.index t a * S512x1024.size a + S512x1024.size a := by
  show i ∈ ((View.whole main_v6).slice (win3_3.rect t)).set ↔ _
  rw [View.set_slice_whole, Rect.mem_set_unit]
  exact Iff.rfl

/-- Every index (row, unit) of the hidden array lies in the output block of the odd point with i = row / 512 and
    j = unit / 1024. -/
theorem covered3 (i : S2048x14336.Idx) : ∃ t : Fin cfg3.N, (cfg3.win 3).flush t = true ∧ i ∈ ((cfg3.win 3).blk t).view.set := by
  have hN : cfg3.N = 112 := N_3
  have h0 : (i 0).val < 2048 := (i 0).isLt
  have h1 : (i 1).val < 14336 := (i 1).isLt
  obtain ⟨t, ht⟩ : ∃ t : Fin cfg3.N, t.val = ((i 0).val / 512 * 14 + (i 1).val / 1024) * 2 + 1 :=
    ⟨⟨((i 0).val / 512 * 14 + (i 1).val / 1024) * 2 + 1, by omega⟩, rfl⟩
  obtain ⟨e0, e1, e2, e3, e4, e5, e6, e7⟩ := blockAt3 t
  refine ⟨t, (flush3_3 t).mpr (by omega), ?_⟩
  rw [mem_block3]
  intro a
  match a with
  | ⟨0, _⟩ => show win3_3.index t (0 : Fin 2) * 512 ≤ (i 0).val ∧ (i 0).val < win3_3.index t (0 : Fin 2) * 512 + 512; omega
  | ⟨1, _⟩ => show win3_3.index t (1 : Fin 2) * 1024 ≤ (i 1).val ∧ (i 1).val < win3_3.index t (1 : Fin 2) * 1024 + 1024; omega

/-- The array region 3 leaves: the hidden rows, (g · logistic g) · u of the two inner products, at every index. -/
theorem final3 (V : (c : Dev nD) → (b : Ref sig .tc) → Buf (Elt Ideal) ((c : Thread nD τ).loc b)) (c : Dev nD) :
    (dat3 (F := Ideal) V c).arrAt 3 cfg3.N = Cert.Spec.hidden (V c main_v1) (V c main_v2) (V c main_v3) :=
  (dat3 (F := Ideal) V c).arrAt_eq_of_cover 3 _ (fun t hf => writtenBack3 V c t hf) covered3

end Cert.KernelIdeal.Hand

end
-- ==== Proof.KI.Val4.lean ====
/-
  Region 4's value: what the down projection leaves in its 2048 × 4096 output array.

  The grid is 2 × 4 × 7 and point t = (i · 4 + j) · 7 + k. At that point the body holds rows 1024·i … of the hidden
  activations and rows 1024·j … of the scaled down weights, both restricted to the columns 2048·k … 2048·k + 2047 of
  the contracted axis, and adds the product of the two blocks, row against row, to a 1024 × 1024 accumulator that is
  zero before k = 0. So after the point with last coordinate k the accumulator's entry (r, n) is the sum, over the
  slabs b ≤ k of the contracted axis, of the part of the inner product of hidden row 1024·i + r with weight row
  1024·j + n that lies in slab b. At k = 6 the seven slabs are the whole axis of length 14336, the accumulator is
  copied out, and the block written back is block (i, j) of the array of all inner products. The 2 × 4 blocks written
  back at the points with k = 6 tile the output array.
-/
import proofs.«169556_j22153441312857_1_alg».proof.Proof.KI.R4
import proofs.«169556_j22153441312857_1_alg».proof.Proof.Spec
import proofs.«169556_j22153441312857_1_alg».proof.Proof.LibDotNT
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The product of two blocks, row against row -/

/-- In the body's product the left operand is read at (output row, contracted position) … -/
theorem downLhs_0 (i : S1024x1024.Idx) (q : dot_S1024x2048_S1024x2048_S1024x1024_1_1_0_0_n_n.contr.Idx) :
    (dot_S1024x2048_S1024x2048_S1024x1024_1_1_0_0_n_n.lhsIdx i q 0).val = (i 0).val := by
  unfold DotDims.lhsIdx
  rw [dif_neg (show ¬(0 : Fin S1024x2048.rank) ∈ dot_S1024x2048_S1024x2048_S1024x1024_1_1_0_0_n_n.lhsBatch by decide), dif_pos (show (0 : Fin S1024x2048.rank) ∈ dot_S1024x2048_S1024x2048_S1024x1024_1_1_0_0_n_n.lhsNonContracting by decide)]
  rfl
theorem downLhs_1 (i : S1024x1024.Idx) (q : dot_S1024x2048_S1024x2048_S1024x1024_1_1_0_0_n_n.contr.Idx) :
    (dot_S1024x2048_S1024x2048_S1024x1024_1_1_0_0_n_n.lhsIdx i q 1).val = (q ⟨0, by decide⟩).val :=
  dot_S1024x2048_S1024x2048_S1024x1024_1_1_0_0_n_n.lhsIdx_val_of_single rfl i q
/-- … and the right operand at (output column, contracted position): its rows are the output's columns. -/
theorem downRhs_0 (i : S1024x1024.Idx) (q : dot_S1024x2048_S1024x2048_S1024x1024_1_1_0_0_n_n.contr.Idx) :
    (dot_S1024x2048_S1024x2048_S1024x1024_1_1_0_0_n_n.rhsIdx i q 0).val = (i 1).val := by
  unfold DotDims.rhsIdx
  rw [dif_neg (show ¬(0 : Fin S1024x2048.rank) ∈ dot_S1024x2048_S1024x2048_S1024x1024_1_1_0_0_n_n.rhsBatch by decide), dif_pos (show (0 : Fin S1024x2048.rank) ∈ dot_S1024x2048_S1024x2048_S1024x1024_1_1_0_0_n_n.rhsNonContracting by decide)]
  rfl
theorem downRhs_1 (i : S1024x1024.Idx) (q : dot_S1024x2048_S1024x2048_S1024x1024_1_1_0_0_n_n.contr.Idx) :
    (dot_S1024x2048_S1024x2048_S1024x1024_1_1_0_0_n_n.rhsIdx i q 1).val = (q ⟨0, by decide⟩).val :=
  dot_S1024x2048_S1024x2048_S1024x1024_1_1_0_0_n_n.rhsIdx_val_of_single rfl i q

/-- The block the accumulator is reset to is zero at every entry. -/
theorem zeroBlock_apply (r n : Fin 1024) : k4_pay1 (F := Ideal) (ix2 r n) = 0 := by
  unfold k4_pay1
  simp only [shapeCast_self]
  show Ideal.ofBits .f32 0x00000000#32 = 0
  exact Ideal.ofBits_zero_f32

/-- One step of the accumulation at an entry: the old entry plus the inner product, over the 2048 positions of the
    slab, of row r of the hidden block with row n of the weight block. -/
theorem downStep_apply (x y : Vec Ideal S1024x2048 .bf16) (acc : Vec Ideal S1024x1024 .f32) (r n : Fin 1024) :
    k4_pay2 x y acc (ix2 r n) = acc (ix2 r n) + ∑ a : Fin 2048, x (ix2 r a) * y (ix2 n a) := by
  unfold k4_pay2
  simp only [shapeCast_self]
  show acc (ix2 r n) + matmul dot_S1024x2048_S1024x2048_S1024x1024_1_1_0_0_n_n none x y (constant (F := Ideal) S1024x1024 .f32 0x00000000#32) (ix2 r n) = _
  rw [Cert.Lib.DotNT.matmul_zero_ix2 (M := 1024) (K := 2048) (N := 1024) dot_S1024x2048_S1024x2048_S1024x1024_1_1_0_0_n_n none rfl rfl downLhs_0 downLhs_1 downRhs_0 downRhs_1 x y r n]

/-! ## The inner product slab by slab -/

/-- The part of the inner product of hidden row p with weight row d that lies in slab b of the contracted axis,
    positions 2048·b … 2048·b + 2047; there are seven slabs, and past them the part is zero. -/
def slabDot (h : Cert.Spec.Shid.Idx → EReal) (w : Cert.Spec.Stall.Idx → EReal) (p : Fin 2048) (d : Fin 4096) (b : ℕ) : EReal :=
  if hb : b < 7 then ∑ a : Fin 2048, h (ix2 p ⟨b * 2048 + a.val, by have := a.isLt; omega⟩) * w (ix2 d ⟨b * 2048 + a.val, by have := a.isLt; omega⟩) else 0

/-- The seven slabs together are the whole inner product over the axis of length 14336 = 7 · 2048. -/
theorem sum_slabDot (h : Cert.Spec.Shid.Idx → EReal) (w : Cert.Spec.Stall.Idx → EReal) (p : Fin 2048) (d : Fin 4096) :
    ∑ b ∈ Finset.range 7, slabDot h w p d b = ∑ k : Fin 14336, h (ix2 p k) * w (ix2 d k) := by
  rw [Finset.sum_range]
  refine Eq.trans ?_ (Cert.Lib.DotNT.sum_blocks (n := 7) (K := 2048) (fun k => h (ix2 p k) * w (ix2 d k))).symm
  refine Finset.sum_congr rfl fun b _ => ?_
  unfold slabDot
  rw [dif_pos b.isLt]

/-- The projected array at an index whose coordinates are p and d: the inner product of hidden row p with weight row d. -/
theorem projected_apply (h : Cert.Spec.Shid.Idx → EReal) (w : Cert.Spec.Stall.Idx → EReal) (j : Cert.Spec.Srows.Idx)
    (p : Fin 2048) (d : Fin 4096) (hp : (j 0).val = p.val) (hd : (j 1).val = d.val) :
    Cert.Spec.projected h w j = ∑ k : Fin 14336, h (ix2 p k) * w (ix2 d k) := by
  obtain rfl : p = ⟨(j 0).val, (j 0).isLt⟩ := Fin.ext hp.symm
  obtain rfl : d = ⟨(j 1).val, (j 1).isLt⟩ := Fin.ext hd.symm
  rfl

/-! ## Where the blocks sit -/

/-- At point t = (i · 4 + j) · 7 + k the hidden block is block (i, k), the weight block is block (j, k) and the
    output block is block (i, j). -/
theorem blockAt4 : ∀ t : Fin cfg4.N,
    win4_0.index t (0 : Fin 2) = t.val / 28 ∧ win4_0.index t (1 : Fin 2) = t.val % 7
    ∧ win4_1.index t (0 : Fin 2) = t.val / 7 % 4 ∧ win4_1.index t (1 : Fin 2) = t.val % 7
    ∧ win4_2.index t (0 : Fin 2) = t.val / 28 ∧ win4_2.index t (1 : Fin 2) = t.val / 7 % 4 :=
  (by decide +kernel : ∀ t : Fin grid4.N, _)

/-- There are 56 points. -/
theorem point_lt4 (t : Fin cfg4.N) : t.val < 56 := lt_of_lt_of_eq t.isLt N_4

section
variable (V : (c : Dev nD) → (b : Ref sig .tc) → Buf (Elt Ideal) ((c : Thread nD τ).loc b))

/-- The two arrays the region reads and, at a point, the two blocks and the accumulator, each at its literal type. -/
abbrev hidArr (c : Dev nD) : Vec Ideal S2048x14336 .bf16 := V c main_v6
abbrev wgtArr (c : Dev nD) : Vec Ideal S4096x14336 .bf16 := V c main_v5
abbrev hidBlk (c : Dev nD) (t : Fin cfg4.N) : Vec Ideal S1024x2048 .bf16 := iblk4 V c 0 t
abbrev wgtBlk (c : Dev nD) (t : Fin cfg4.N) : Vec Ideal S1024x2048 .bf16 := iblk4 V c 1 t
abbrev accAfter (c : Dev nD) (n : ℕ) (hn : n < cfg4.N) : Vec Ideal S1024x1024 .f32 := (outsAt4 V c n hn).2

/-- Entry (r, a) of the hidden block at point t is entry (1024·(t / 28) + r, 2048·(t % 7) + a) of the hidden array. -/
theorem hidBlk_apply (c : Dev nD) (t : Fin cfg4.N) (r : Fin 1024) (a : Fin 2048) (p : Fin 2048) (q : Fin 14336)
    (hp : p.val = 1024 * (t.val / 28) + r.val) (hq : q.val = (t.val % 7) * 2048 + a.val) :
    hidBlk V c t (ix2 r a) = hidArr V c (ix2 p q) := by
  show iblk4 V c 0 t (ix2 r a) = V c main_v6 (ix2 p q)
  unfold iblk4
  rw [View.read_apply]
  show V c main_v6 (((cfg4.win 0).blk t).view.emb (ix2 r a)) = V c main_v6 (ix2 p q)
  obtain ⟨e0, e1, -⟩ := blockAt4 t
  congr 1
  funext x; apply Fin.ext
  match x with
  | ⟨0, _⟩ => show win4_0.index t (0 : Fin 2) * 1024 + 1 * r.val = p.val; omega
  | ⟨1, _⟩ => show win4_0.index t (1 : Fin 2) * 2048 + 1 * a.val = q.val; omega

/-- Entry (n, a) of the weight block at point t is entry (1024·(t / 7 % 4) + n, 2048·(t % 7) + a) of the weight array. -/
theorem wgtBlk_apply (c : Dev nD) (t : Fin cfg4.N) (n : Fin 1024) (a : Fin 2048) (d : Fin 4096) (q : Fin 14336)
    (hd : d.val = 1024 * (t.val / 7 % 4) + n.val) (hq : q.val = (t.val % 7) * 2048 + a.val) :
    wgtBlk V c t (ix2 n a) = wgtArr V c (ix2 d q) := by
  show iblk4 V c 1 t (ix2 n a) = V c main_v5 (ix2 d q)
  unfold iblk4
  rw [View.read_apply]
  show V c main_v5 (((cfg4.win 1).blk t).view.emb (ix2 n a)) = V c main_v5 (ix2 d q)
  obtain ⟨-, -, e0, e1, -⟩ := blockAt4 t
  congr 1
  funext x; apply Fin.ext
  match x with
  | ⟨0, _⟩ => show win4_1.index t (0 : Fin 2) * 1024 + 1 * n.val = d.val; omega
  | ⟨1, _⟩ => show win4_1.index t (1 : Fin 2) * 2048 + 1 * a.val = q.val; omega

/-! ## The accumulator after each point -/

/-- What one point adds to the accumulator's entry (r, n): the slab t % 7 of the inner product of hidden row
    1024·(t / 28) + r with weight row 1024·(t / 7 % 4) + n. -/
theorem pointAdds (c : Dev nD) (t : Fin cfg4.N) (r n : Fin 1024) (p : Fin 2048) (d : Fin 4096)
    (hp : p.val = 1024 * (t.val / 28) + r.val) (hd : d.val = 1024 * (t.val / 7 % 4) + n.val) :
    ∑ a : Fin 2048, hidBlk V c t (ix2 r a) * wgtBlk V c t (ix2 n a) = slabDot (hidArr V c) (wgtArr V c) p d (t.val % 7) := by
  unfold slabDot
  rw [dif_pos (Nat.mod_lt _ (by decide))]
  refine Finset.sum_congr rfl fun a _ => ?_
  have ha := a.isLt
  rw [hidBlk_apply V c t r a p ⟨t.val % 7 * 2048 + a.val, by omega⟩ hp rfl,
    wgtBlk_apply V c t n a d ⟨t.val % 7 * 2048 + a.val, by omega⟩ hd rfl]

/-- Where the sum starts afresh (t % 7 = 0) the accumulator's entry is the one slab that point adds to zero. -/
theorem accAfter_first (c : Dev nD) (t : Fin cfg4.N) (h : t.val % 7 = 0) (r n : Fin 1024) (p : Fin 2048) (d : Fin 4096)
    (hp : p.val = 1024 * (t.val / 28) + r.val) (hd : d.val = 1024 * (t.val / 7 % 4) + n.val) :
    accAfter V c t.val t.isLt (ix2 r n) = ∑ b ∈ Finset.range (t.val % 7 + 1), slabDot (hidArr V c) (wgtArr V c) p d b := by
  rw [Finset.sum_range_succ, h, Finset.sum_range_zero, zero_add]
  refine (congrFun (acc4_first V c t h) (ix2 r n)).trans ?_
  refine (downStep_apply (iblk4 V c 0 t) (iblk4 V c 1 t) (k4_pay1 (F := Ideal)) r n).trans ?_
  rw [zeroBlock_apply, zero_add]
  exact (pointAdds V c t r n p d hp hd).trans (by rw [h])

/-- After the body at position m the accumulator's entry (r, n) is the sum of the slabs 0 … m % 7 of the inner product
    of hidden row 1024·(m / 28) + r with weight row 1024·(m / 7 % 4) + n: by induction on the position, the sum
    starting afresh wherever m % 7 = 0, and elsewhere one more slab added to what the position before left (the rows
    are the same there, because m - 1 and m differ only in the last grid coordinate). -/
theorem accAfter_apply (c : Dev nD) : ∀ (m : ℕ) (hm : m < cfg4.N) (r n : Fin 1024) (p : Fin 2048) (d : Fin 4096),
    p.val = 1024 * (m / 28) + r.val → d.val = 1024 * (m / 7 % 4) + n.val →
    accAfter V c m hm (ix2 r n) = ∑ b ∈ Finset.range (m % 7 + 1), slabDot (hidArr V c) (wgtArr V c) p d b := by
  intro m
  induction m with
  | zero =>
    intro hm r n p d hp hd
    exact accAfter_first V c ⟨0, hm⟩ rfl r n p d hp hd
  | succ m ih =>
    intro hm r n p d hp hd
    by_cases h7 : (m + 1) % 7 = 0
    · exact accAfter_first V c ⟨m + 1, hm⟩ h7 r n p d hp hd
    · have e7 : (m + 1) % 7 = m % 7 + 1 := by omega
      have hp' : p.val = 1024 * (m / 28) + r.val := by omega
      have hd' : d.val = 1024 * (m / 7 % 4) + n.val := by omega
      have hI := ih (Nat.lt_of_succ_lt hm) r n p d hp' hd'
      have hA := pointAdds V c ⟨m + 1, hm⟩ r n p d hp hd
      calc accAfter V c (m + 1) hm (ix2 r n)
          = accAfter V c m (Nat.lt_of_succ_lt hm) (ix2 r n)
              + ∑ a : Fin 2048, hidBlk V c ⟨m + 1, hm⟩ (ix2 r a) * wgtBlk V c ⟨m + 1, hm⟩ (ix2 n a) :=
            (congrFun (acc4_next V c ⟨m + 1, hm⟩ h7) (ix2 r n)).trans
              (downStep_apply (iblk4 V c 0 ⟨m + 1, hm⟩) (iblk4 V c 1 ⟨m + 1, hm⟩) (outsAt4 V c m (Nat.lt_of_succ_lt hm)).2 r n)
        _ = (∑ b ∈ Finset.range (m % 7 + 1), slabDot (hidArr V c) (wgtArr V c) p d b)
              + slabDot (hidArr V c) (wgtArr V c) p d ((m + 1) % 7) := by rw [hI, hA]
        _ = ∑ b ∈ Finset.range ((m + 1) % 7 + 1), slabDot (hidArr V c) (wgtArr V c) p d b := by
            rw [e7, Finset.sum_range_succ _ (m % 7 + 1)]

/-! ## From the blocks to the array -/

/-- What a point with k = 6 writes back is its block of the array of inner products: there the accumulator holds all
    seven slabs, and it has just been copied into the output block. -/
theorem writtenBack4 (c : Dev nD) (t : Fin cfg4.N) (hf : (cfg4.win 2).flush t = true) :
    (dat4 (F := Ideal) V c).flushed 2 t
      = ((cfg4.win 2).blk t).view.read (Elt Ideal) (Cert.Spec.projected (V c main_v6) (V c main_v5)) := by
  have h6 : t.val % 7 = 6 := (flush4_2 t).mp hf
  have ht := point_lt4 t
  show (cfg4.win 2).cut (grid4.coords t) ((dat4 (F := Ideal) V c).after 2 t) = _
  rw [after4_2, out4_last V c t h6]
  funext j
  obtain ⟨r, n, rfl⟩ : ∃ (r n : Fin 1024), j = ix2 r n := ⟨j 0, j 1, eq_ix2 j⟩
  rw [View.read_apply]
  obtain ⟨-, -, -, -, e0, e1⟩ := blockAt4 t
  have hr := r.isLt
  have hn := n.isLt
  have e : t.val % 7 + 1 = 7 := by omega
  show accAfter V c t.val t.isLt (ix2 r n)
    = Cert.Spec.projected (V c main_v6) (V c main_v5) (((cfg4.win 2).blk t).view.emb (ix2 r n))
  rw [accAfter_apply V c t.val t.isLt r n ⟨1024 * (t.val / 28) + r.val, by omega⟩ ⟨1024 * (t.val / 7 % 4) + n.val, by omega⟩ rfl rfl,
    e, sum_slabDot]
  refine (projected_apply (V c main_v6) (V c main_v5) _ _ _ ?_ ?_).symm
  · show win4_2.index t (0 : Fin 2) * 1024 + 1 * r.val = 1024 * (t.val / 28) + r.val; omega
  · show win4_2.index t (1 : Fin 2) * 1024 + 1 * n.val = 1024 * (t.val / 7 % 4) + n.val; omega

/-- An index of the output lies in point t's block iff each coordinate lies in the block's range on its axis. -/
theorem mem_block4 (t : Fin cfg4.N) (i : S2048x4096.Idx) :
    i ∈ ((cfg4.win 2).blk t).view.set ↔ ∀ a : Fin 2, win4_2.index t a * S1024x1024.size a ≤ (i a).val ∧ (i a).val < win4_2.index t a * S1024x1024.size a + S1024x1024.size a := by
  show i ∈ ((View.whole main_v7).slice (win4_2.rect t)).set ↔ _
  rw [View.set_slice_whole, Rect.mem_set_unit]
  exact Iff.rfl

/-- Every index (x, y) of the output lies in the block written back at the point (x / 1024, y / 1024, 6). -/
theorem covered4 (i : S2048x4096.Idx) : ∃ t : Fin cfg4.N, (cfg4.win 2).flush t = true ∧ i ∈ ((cfg4.win 2).blk t).view.set := by
  have h0 : (i 0).val < 2048 := (i 0).isLt
  have h1 : (i 1).val < 4096 := (i 1).isLt
  obtain ⟨t, ht⟩ : ∃ t : Fin cfg4.N, t.val = ((i 0).val / 1024 * 4 + (i 1).val / 1024) * 7 + 6 :=
    ⟨⟨((i 0).val / 1024 * 4 + (i 1).val / 1024) * 7 + 6, lt_of_lt_of_eq (by omega) N_4.symm⟩, rfl⟩
  refine ⟨t, (flush4_2 t).mpr (by omega), ?_⟩
  rw [mem_block4]
  obtain ⟨-, -, -, -, e0, e1⟩ := blockAt4 t
  intro a
  match a with
  | ⟨0, _⟩ => show win4_2.index t (0 : Fin 2) * 1024 ≤ (i 0).val ∧ (i 0).val < win4_2.index t (0 : Fin 2) * 1024 + 1024; omega
  | ⟨1, _⟩ => show win4_2.index t (1 : Fin 2) * 1024 ≤ (i 1).val ∧ (i 1).val < win4_2.index t (1 : Fin 2) * 1024 + 1024; omega

/-- The array region 4 leaves: every hidden row against every row of the down weights. -/
theorem final4 (c : Dev nD) :
    (dat4 (F := Ideal) V c).arrAt 2 cfg4.N = Cert.Spec.projected (V c main_v6) (V c main_v5) :=
  (dat4 (F := Ideal) V c).arrAt_eq_of_cover 2 _ (writtenBack4 V c) covered4

end

end Cert.KernelIdeal.Hand

end
-- ==== Proof.KI.HostVal.lean ====
/-
  What the three stretches of host operations of the kernel program leave, read index by index on the extended reals,
  from arbitrary contents W. The first stretch reads the 2 × 1024 × 4096 activations as 2048 rows of 4096 (a change of
  shape keeps the row-major position: row 1024·b + r is (b, r, ·)) and changes the format, which on the extended reals
  changes nothing. The second transposes the 32 × 112 scale table: entry (p, q) of the result is entry (q, p) of the
  table, so scaling a block (p, q) by the transposed table's entry (q, p) is scaling it by the table's own entry (p, q).
  The third reads 2048 rows back as 2 × 1024 rows.
-/
import proofs.«169556_j22153441312857_1_alg».proof.Proof.Gen.KernelIdeal.Launch
import proofs.«169556_j22153441312857_1_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.ValueIdx

/-- After the first stretch the bf16 copy of the activations holds their 2048 rows. -/
theorem host0_rows (W : Valuation τ sig (Elt Ideal)) :
    (StableHlo.after (hostOps0 (F := Ideal)) W (Proc.devRef .tc main_v1) : S2048x4096.Idx → EReal)
      = Cert.Spec.rows (W (Proc.devRef .tc main_arg0)) := by
  after_results
  funext j
  -- the format change is the identity; the change of shape keeps the row-major position, (1024·b + r)·4096 + k
  have h0 : (j 0).val < 2048 := (j 0).isLt
  have h1 : (j 1).val < 4096 := (j 1).isLt
  show shapeCast S2048x4096 (W (Proc.devRef .tc main_arg0) : S2x1024x4096.Idx → EReal) _ j = _
  refine (shapeCast_apply _ _ j
    (ix3 (⟨(j 0).val / 1024, by omega⟩ : Fin 2) (⟨(j 0).val % 1024, Nat.mod_lt _ (by decide)⟩ : Fin 1024)
      (⟨(j 1).val, h1⟩ : Fin 4096)) ?_).trans rfl
  rw [Shape.rowMajor_val_three, Shape.rowMajor_val_two]
  show ((j 0).val / 1024 * 1024 + (j 0).val % 1024) * 4096 + (j 1).val = (j 0).val * 4096 + (j 1).val
  omega

/-- After the second stretch entry (p, q) of the 112 × 32 table is entry (q, p) of the 32 × 112 one. -/
theorem host2_transpose (W : Valuation τ sig (Elt Ideal)) (i : S112x32.Idx) :
    (StableHlo.after (hostOps2 (F := Ideal)) W (Proc.devRef .tc main_v4) : S112x32.Idx → EReal) i
      = (W (Proc.devRef .tc main_arg6) : S32x112.Idx → EReal)
          (ix2 (⟨(i 1).val, (i 1).isLt⟩ : Fin 32) (⟨(i 0).val, (i 0).isLt⟩ : Fin 112)) := by
  after_results
  -- result axis 0 is source axis 1 and result axis 1 is source axis 0
  exact transpose_apply _ _ _ i _ fun b => match b with | ⟨0, _⟩ => rfl | ⟨1, _⟩ => rfl

/-- Scaling the blocks of a 4096 × 14336 matrix by a table stored transposed is scaling them by the table itself. -/
theorem scaledCols_transpose (w : Cert.Spec.Stall.Idx → EReal) (s : Cert.Spec.StallScale.Idx → EReal)
    (st : Cert.Spec.SwideScale.Idx → EReal)
    (h : ∀ i : Cert.Spec.SwideScale.Idx,
      st i = s (ix2 (⟨(i 1).val, (i 1).isLt⟩ : Fin 32) (⟨(i 0).val, (i 0).isLt⟩ : Fin 112))) :
    Cert.Spec.scaledCols w st = Cert.Spec.scaledPlain w s := by
  funext j
  unfold Cert.Spec.scaledCols Cert.Spec.scaledPlain
  rw [h]

/-- After the last stretch the result holds the 2048 projected rows read back as 2 × 1024 rows. -/
theorem host5_stacked (W : Valuation τ sig (Elt Ideal)) :
    (StableHlo.after (hostOps5 (F := Ideal)) W (Proc.devRef .tc main_v8) : S2x1024x4096.Idx → EReal)
      = Cert.Spec.stacked (W (Proc.devRef .tc main_v7)) := by
  after_results
  funext j
  -- entry (b, r, k) sits at row-major position (1024·b + r)·4096 + k, the position of (1024·b + r, k) among the rows
  have h0 : (j 0).val < 2 := (j 0).isLt
  have h1 : (j 1).val < 1024 := (j 1).isLt
  have h2 : (j 2).val < 4096 := (j 2).isLt
  show shapeCast S2x1024x4096 (W (Proc.devRef .tc main_v7) : S2048x4096.Idx → EReal) _ j = _
  refine (shapeCast_apply _ _ j
    (ix2 (⟨(j 0).val * 1024 + (j 1).val, by omega⟩ : Fin 2048) (⟨(j 2).val, h2⟩ : Fin 4096)) ?_).trans rfl
  show ((⟨2, ![2048, 4096]⟩ : Shape).rowMajor _).val = ((⟨3, ![2, 1024, 4096]⟩ : Shape).rowMajor j).val
  rw [Shape.rowMajor_val_three, Shape.rowMajor_val_two]
  rfl

end Cert.KernelIdeal.Hand

end
-- ==== Proof.KI.ValMain.lean ====
/-
  The kernel program's result as the specification's function of the launch memory. The contents of the buffers between
  the program's eight items are a fold from the launch memory; here the fold is read at the arrays the value flows
  through, one array at a time: the activations' 2048 rows, the two scaled 14336 × 4096 matrices, the transposed scale
  table and the scaled 4096 × 14336 matrix (scaling by the transposed table read transposed is scaling by the table),
  the hidden rows, the projected rows, and the result. Between the item that writes an array and the item that reads
  it no other item writes it: a host stretch writes only its own results, a region only its output array.
-/
import proofs.«169556_j22153441312857_1_alg».proof.Proof.KI.Run
import proofs.«169556_j22153441312857_1_alg».proof.Proof.KI.Val0
import proofs.«169556_j22153441312857_1_alg».proof.Proof.KI.Val1
import proofs.«169556_j22153441312857_1_alg».proof.Proof.KI.Val2
import proofs.«169556_j22153441312857_1_alg».proof.Proof.KI.Val3
import proofs.«169556_j22153441312857_1_alg».proof.Proof.KI.Val4
import proofs.«169556_j22153441312857_1_alg».proof.Proof.KI.HostVal
import proofs.«169556_j22153441312857_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-! ## A host stretch leaves what it does not write -/

theorem B1_of (r : Ref sig .tc) (h : r ∉ (hostOps0_W : List (Ref sig .tc))) :
    B1 m ρ c (Proc.devRef .tc r) = B0 m ρ c (Proc.devRef .tc r) :=
  StableHlo.after_of_writes_sub hostOps0 _ hostOps0_writes h

theorem B4_of (r : Ref sig .tc) (h : r ∉ (hostOps2_W : List (Ref sig .tc))) :
    B4 m ρ c (Proc.devRef .tc r) = B3 m ρ c (Proc.devRef .tc r) :=
  StableHlo.after_of_writes_sub hostOps2 _ hostOps2_writes h

/-! ## An array no item has written yet is still the launch memory's -/

theorem B1_arg (r : Ref sig .tc) (h0 : r ∉ (hostOps0_W : List (Ref sig .tc))) :
    B1 m ρ c (Proc.devRef .tc r) = m ((c : Thread nD τ).loc r) :=
  (B1_of m ρ c r h0).trans rfl

theorem B2_arg (r : Ref sig .tc) (h0 : r ∉ (hostOps0_W : List (Ref sig .tc))) (h1 : ∀ w, Pipeline.arrRef spec0 w ≠ r) :
    B2 m ρ c (Proc.devRef .tc r) = m ((c : Thread nD τ).loc r) :=
  (B2_of_ne m ρ c r h1).trans (B1_arg m ρ c r h0)

theorem B3_arg (r : Ref sig .tc) (h0 : r ∉ (hostOps0_W : List (Ref sig .tc))) (h1 : ∀ w, Pipeline.arrRef spec0 w ≠ r)
    (h2 : ∀ w, Pipeline.arrRef spec1 w ≠ r) : B3 m ρ c (Proc.devRef .tc r) = m ((c : Thread nD τ).loc r) :=
  (B3_of_ne m ρ c r h2).trans (B2_arg m ρ c r h0 h1)

theorem B4_arg (r : Ref sig .tc) (h0 : r ∉ (hostOps0_W : List (Ref sig .tc))) (h1 : ∀ w, Pipeline.arrRef spec0 w ≠ r)
    (h2 : ∀ w, Pipeline.arrRef spec1 w ≠ r) (h3 : r ∉ (hostOps2_W : List (Ref sig .tc))) :
    B4 m ρ c (Proc.devRef .tc r) = m ((c : Thread nD τ).loc r) :=
  (B4_of m ρ c r h3).trans (B3_arg m ρ c r h0 h1 h2)

/-! ## The arrays the value flows through -/

/-- The activations' rows, as the first host stretch leaves them. -/
theorem rows_at_B1 :
    (B1 m ρ c (Proc.devRef .tc main_v1) : Cert.Spec.Srows.Idx → EReal) = Cert.Spec.rows (m ((c : Thread nD τ).loc main_arg0)) :=
  host0_rows (B0 m ρ c)

/-- The first scaled matrix, as region 0 leaves it. -/
theorem w1_at_B2 :
    (B2 m ρ c (Proc.devRef .tc main_v2) : Cert.Spec.Swide.Idx → EReal)
      = Cert.Spec.scaledRows (m ((c : Thread nD τ).loc main_arg1)) (m ((c : Thread nD τ).loc main_arg2)) :=
  -- region 0's output array at the region's end, the region entered with both arguments as launched
  (B2_arr m ρ c 2).trans ((final0 (E1 m ρ) c).trans
    (congrArg₂ Cert.Spec.scaledRows (B1_arg m ρ c main_arg1 (by decide)) (B1_arg m ρ c main_arg2 (by decide))))

/-- The second scaled matrix, as region 1 leaves it. -/
theorem w3_at_B3 :
    (B3 m ρ c (Proc.devRef .tc main_v3) : Cert.Spec.Swide.Idx → EReal)
      = Cert.Spec.scaledRows (m ((c : Thread nD τ).loc main_arg3)) (m ((c : Thread nD τ).loc main_arg4)) :=
  -- region 1's output array at the region's end; region 0 touched neither argument
  (B3_arr m ρ c 2).trans ((final1 (E2 m ρ) c).trans
    (congrArg₂ Cert.Spec.scaledRows (B2_arg m ρ c main_arg3 (by decide) (by decide))
      (B2_arg m ρ c main_arg4 (by decide) (by decide))))

/-- The transposed scale table, as the second host stretch leaves it. -/
theorem table_at_B4 (i : Cert.Spec.SwideScale.Idx) :
    (B4 m ρ c (Proc.devRef .tc main_v4) : Cert.Spec.SwideScale.Idx → EReal) i
      = (m ((c : Thread nD τ).loc main_arg6) : Cert.Spec.StallScale.Idx → EReal)
          (ix2 (⟨(i 1).val, (i 1).isLt⟩ : Fin 32) (⟨(i 0).val, (i 0).isLt⟩ : Fin 112)) :=
  -- the transpose of the table as regions 0 and 1 left it, which is as launched
  (host2_transpose (B3 m ρ c) i).trans
    (congrFun (B3_arg m ρ c main_arg6 (by decide) (by decide) (by decide)) _)

/-- The third scaled matrix, as region 2 leaves it. -/
theorem w2_at_B5 :
    (B5 m ρ c (Proc.devRef .tc main_v5) : Cert.Spec.Stall.Idx → EReal)
      = Cert.Spec.scaledPlain (m ((c : Thread nD τ).loc main_arg5)) (m ((c : Thread nD τ).loc main_arg6)) :=
  -- region 2's output array: the weights as launched, scaled by the transposed table read transposed
  (B5_arr m ρ c 2).trans ((final2 (E4 m ρ) c).trans
    ((congrArg (fun a => Cert.Spec.scaledCols a (B4 m ρ c (Proc.devRef .tc main_v4)))
        (B4_arg m ρ c main_arg5 (by decide) (by decide) (by decide) (by decide))).trans
      (scaledCols_transpose _ _ _ (table_at_B4 m ρ c))))

/-- The hidden rows, as region 3 leaves them. -/
theorem hidden_at_B6 :
    (B6 m ρ c (Proc.devRef .tc main_v6) : Cert.Spec.Shid.Idx → EReal)
      = Cert.Spec.hidden (Cert.Spec.rows (m ((c : Thread nD τ).loc main_arg0)))
          (Cert.Spec.scaledRows (m ((c : Thread nD τ).loc main_arg1)) (m ((c : Thread nD τ).loc main_arg2)))
          (Cert.Spec.scaledRows (m ((c : Thread nD τ).loc main_arg3)) (m ((c : Thread nD τ).loc main_arg4))) := by
  -- the rows come from the first host stretch through the transpose and regions 0, 1, 2, none of which writes them
  have e1 : B5 m ρ c (Proc.devRef .tc main_v1) = B1 m ρ c (Proc.devRef .tc main_v1) :=
    (B5_of_ne m ρ c main_v1 (by decide)).trans ((B4_of m ρ c main_v1 (by decide)).trans
      ((B3_of_ne m ρ c main_v1 (by decide)).trans (B2_of_ne m ρ c main_v1 (by decide))))
  -- the first scaled matrix comes from region 0 through region 1, the transpose and region 2
  have e2 : B5 m ρ c (Proc.devRef .tc main_v2) = B2 m ρ c (Proc.devRef .tc main_v2) :=
    (B5_of_ne m ρ c main_v2 (by decide)).trans ((B4_of m ρ c main_v2 (by decide)).trans (B3_of_ne m ρ c main_v2 (by decide)))
  -- the second from region 1 through the transpose and region 2
  have e3 : B5 m ρ c (Proc.devRef .tc main_v3) = B3 m ρ c (Proc.devRef .tc main_v3) :=
    (B5_of_ne m ρ c main_v3 (by decide)).trans (B4_of m ρ c main_v3 (by decide))
  refine (B6_arr m ρ c 3).trans ((final3 (E5 m ρ) c).trans ?_)
  show Cert.Spec.hidden (B5 m ρ c (Proc.devRef .tc main_v1)) (B5 m ρ c (Proc.devRef .tc main_v2))
    (B5 m ρ c (Proc.devRef .tc main_v3)) = _
  rw [e1, e2, e3, rows_at_B1 m ρ c, w1_at_B2 m ρ c, w3_at_B3 m ρ c]

/-- The projected rows, as region 4 leaves them. -/
theorem projected_at_B7 :
    (B7 m ρ c (Proc.devRef .tc main_v7) : Cert.Spec.Srows.Idx → EReal)
      = Cert.Spec.projected
          (Cert.Spec.hidden (Cert.Spec.rows (m ((c : Thread nD τ).loc main_arg0)))
            (Cert.Spec.scaledRows (m ((c : Thread nD τ).loc main_arg1)) (m ((c : Thread nD τ).loc main_arg2)))
            (Cert.Spec.scaledRows (m ((c : Thread nD τ).loc main_arg3)) (m ((c : Thread nD τ).loc main_arg4))))
          (Cert.Spec.scaledPlain (m ((c : Thread nD τ).loc main_arg5)) (m ((c : Thread nD τ).loc main_arg6))) :=
  -- region 4's output array: the hidden rows as region 3 left them, the third matrix as region 2 left it
  (B7_arr m ρ c 2).trans ((final4 (E6 m ρ) c).trans
    (congrArg₂ Cert.Spec.projected (hidden_at_B6 m ρ c)
      ((B6_of_ne m ρ c main_v5 (by decide)).trans (w2_at_B5 m ρ c))))

/-- The result, as the last host stretch leaves it: the specification's function of the seven arguments as launched. -/
theorem result_value :
    (B8 (F := Ideal) m ρ c (Proc.devRef .tc main_v8) : Cert.Spec.Sx.Idx → EReal)
      = Cert.Spec.result (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) :=
  (host5_stacked (B7 m ρ c)).trans (congrArg Cert.Spec.stacked (projected_at_B7 m ρ c))

end Cert.KernelIdeal.Hand

end
-- ==== Proof.RefImports.lean ====
/- The reference's run and its read-at-an-index lemmas, gathered for the modules that compare the two programs. -/
import proofs.«169556_j22153441312857_1_alg».proof.Proof.Gen.ReferenceIdeal.Run
import proofs.«169556_j22153441312857_1_alg».proof.Proof.Gen.ReferenceIdeal.Read
-- ==== Proof.RefLaw.lean ====
/-
  The arithmetic of the extended reals that the reference's quantise-and-restore steps rest on.

  The reference passes every activation row, block of 128 columns by block, through a ↦ (a / s) · s, where
  s = (max over the block of |a|) / 448 + ε and ε is a small positive constant. On the extended reals this is the
  identity as soon as s is a real number other than zero, and s is a positive real as soon as the block's entries
  are real numbers: the maximum of finitely many (and at least one) non-negative reals, started from −∞, is a
  non-negative real. The rest of the file says that the specification's stages keep real numbers real: products,
  finite sums, the logistic function, hence the inner products and the hidden rows.
-/
import Idealize.ShloMosaic.PureOps.Ideal.Laws
import Idealize.ShloMosaic.Lib.IdealHost
import Idealize.ShloMosaic.PureOps.Reduce
import proofs.«169556_j22153441312857_1_alg».proof.Proof.Spec

noncomputable section

namespace Cert.RefLaw

open Idealize.ShloMosaic Idealize.ShloMosaic.ValueIdx
open scoped BigOperators

/-! ## Real numbers among the extended reals -/

/-- The product of two reals is a real. -/
theorem real_mul {a b : EReal} (ha : ∃ r : ℝ, a = (r : EReal)) (hb : ∃ r : ℝ, b = (r : EReal)) :
    ∃ r : ℝ, a * b = (r : EReal) := by
  obtain ⟨p, rfl⟩ := ha
  obtain ⟨q, rfl⟩ := hb
  exact ⟨p * q, (EReal.coe_mul p q).symm⟩

/-- The coercion of a finite sum of reals is the sum of the coercions. -/
theorem coe_sum {ι : Type} (s : Finset ι) (g : ι → ℝ) :
    ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]

/-- A finite sum of reals is a real. -/
theorem real_sum {ι : Type} [Fintype ι] (f : ι → EReal) (h : ∀ k, ∃ r : ℝ, f k = (r : EReal)) :
    ∃ r : ℝ, ∑ k, f k = (r : EReal) := by
  choose g hg using h
  refine ⟨∑ k, g k, ?_⟩
  rw [coe_sum]
  exact Finset.sum_congr rfl fun k _ => hg k

/-- The logistic function of a real is a real. -/
theorem real_logistic {a : EReal} (ha : ∃ r : ℝ, a = (r : EReal)) : ∃ r : ℝ, Ideal.logistic a = (r : EReal) := by
  obtain ⟨p, rfl⟩ := ha
  exact ⟨_, Ideal.logistic_coe p⟩

/-- The absolute value max(a, −a) of a real is a real that is not negative. -/
theorem real_abs {a : EReal} (ha : ∃ r : ℝ, a = (r : EReal)) : ∃ r : ℝ, 0 ≤ r ∧ max a (-a) = (r : EReal) := by
  obtain ⟨p, rfl⟩ := ha
  refine ⟨max p (-p), le_max_iff.2 (by rcases le_total 0 p with h | h; exact Or.inl h; exact Or.inr (by linarith)), ?_⟩
  rw [← EReal.coe_neg]
  exact (EReal.coe_strictMono.monotone.map_max).symm

/-! ## The maximum of a block -/

/-- Started from −∞, the maximum of finitely many, and at least one, non-negative reals is a non-negative real. -/
theorem real_fold_max {ι : Type} [Fintype ι] [Nonempty ι] (f : ι → EReal)
    (h : ∀ k, ∃ r : ℝ, 0 ≤ r ∧ f k = (r : EReal)) :
    ∃ r : ℝ, 0 ≤ r ∧ (Finset.univ : Finset ι).fold max (⊥ : EReal) f = (r : EReal) := by
  obtain ⟨k0⟩ := ‹Nonempty ι›
  have hlow : (0 : EReal) ≤ (Finset.univ : Finset ι).fold max (⊥ : EReal) f := by
    rw [Finset.le_fold_max]
    obtain ⟨r, hr, e⟩ := h k0
    exact Or.inr ⟨k0, Finset.mem_univ _, by rw [e]; exact EReal.coe_nonneg.2 hr⟩
  have hup : (Finset.univ : Finset ι).fold max (⊥ : EReal) f < ⊤ := by
    rw [Finset.fold_max_lt]
    refine ⟨bot_lt_top, fun k _ => ?_⟩
    obtain ⟨r, _, e⟩ := h k
    rw [e]; exact EReal.coe_lt_top r
  have hbot : (Finset.univ : Finset ι).fold max (⊥ : EReal) f ≠ ⊥ := fun e => by
    rw [e] at hlow; exact absurd hlow (by simp)
  refine ⟨((Finset.univ : Finset ι).fold max (⊥ : EReal) f).toReal, ?_, (EReal.coe_toReal hup.ne hbot).symm⟩
  exact EReal.toReal_nonneg hlow

/-! ## The three constants -/

/-- The word 0xFF800000 is −∞. -/
theorem ofBits_neg_inf : Ideal.ofBits .f32 0xFF800000#32 = (⊥ : EReal) := by
  simp [Ideal.ofBits, Ideal.ieee]

/-- The word 0x43E00000 is 448. -/
theorem ofBits_448 : Ideal.ofBits .f32 0x43E00000#32 = ((448 : ℝ) : EReal) := by
  simp [Ideal.ofBits, Ideal.ieee, -EReal.coe_mul]; norm_num

/-- The word 0x2B8CBCCC is a positive real (the single-precision value nearest to 10⁻¹²). -/
theorem ofBits_eps : ∃ e : ℝ, 0 < e ∧ Ideal.ofBits .f32 0x2B8CBCCC#32 = (e : EReal) := by
  simp [Ideal.ofBits, Ideal.ieee, -EReal.coe_mul]

/-! ## A block's maximum of absolute values, as the reference computes it -/

/-- The reference's reduction of |y| along one axis with a maximum body, started from −∞, gives at every result index
    a non-negative real, when the entries of y are real and the reduced axis is not empty: the reduction is a fold
    of the maximum over the axis's coordinates. -/
theorem real_blockMax {s t u : Shape} {a : Fin s.rank} (y : FVec Ideal s .f32) (hy : ∀ q, ∃ r : ℝ, y q = (r : EReal))
    (init : FVec Ideal u .f32) (hu : 0 < u.numel) (hinit : init (Shape.Idx.first hu) = (⊥ : EReal))
    (h' : s.ReducesTo [a] t) (h : s.Reduces [a] t) (hpos : 0 < s.size a) (p : t.Idx) :
    ∃ r : ℝ, 0 ≤ r ∧ Host.reduce FloatOps.maximumf (Host.absf y) init h' hu p = (r : EReal) := by
  rw [Host.reduce_eq_fold_single FloatOps.maximumf (Host.absf y) init h' h hu p, hinit]
  haveI : Nonempty (Fin (s.size a)) := ⟨⟨0, hpos⟩⟩
  exact real_fold_max _ fun k => real_abs (hy _)

/-! ## Quantise and restore -/

/-- Dividing by a real other than zero and multiplying by it again gives the number back, at the infinities too. -/
theorem div_mul_cancel_coe {r : ℝ} (h : r ≠ 0) (a : EReal) : Ideal.div a (r : EReal) * (r : EReal) = a := by
  rw [Ideal.div_coe h, mul_assoc, ← EReal.coe_mul, one_div, inv_mul_cancel₀ h, EReal.coe_one, mul_one]

/-- The block's scale m / 448 + ε is a positive real when the block's maximum m is a non-negative real. -/
theorem scale_pos {m : EReal} (hm : ∃ r : ℝ, 0 ≤ r ∧ m = (r : EReal)) :
    ∃ s : ℝ, 0 < s ∧
      Ideal.div m (Ideal.ofBits .f32 0x43E00000#32) + Ideal.ofBits .f32 0x2B8CBCCC#32 = (s : EReal) := by
  obtain ⟨r, hr, rfl⟩ := hm
  obtain ⟨e, he, ee⟩ := ofBits_eps
  rw [ofBits_448, ee, Ideal.div_coe (by norm_num : (448 : ℝ) ≠ 0), ← EReal.coe_mul, ← EReal.coe_add]
  exact ⟨_, by positivity, rfl⟩

/-- Quantising a number by a block's scale and restoring it gives the number back, when the block's maximum is a
    non-negative real. -/
theorem quant_restore {m : EReal} (hm : ∃ r : ℝ, 0 ≤ r ∧ m = (r : EReal)) (a : EReal) :
    Ideal.div a (Ideal.div m (Ideal.ofBits .f32 0x43E00000#32) + Ideal.ofBits .f32 0x2B8CBCCC#32)
        * (Ideal.div m (Ideal.ofBits .f32 0x43E00000#32) + Ideal.ofBits .f32 0x2B8CBCCC#32) = a := by
  obtain ⟨s, hs, e⟩ := scale_pos hm
  rw [e]
  exact div_mul_cancel_coe hs.ne' a

/-! ## The gate -/

/-- g · (1 / (1 + exp(−g))), with the two ones given as the word 0x3F800000, is g · logistic g. -/
theorem silu_eq (g : EReal) :
    g * Ideal.div (Ideal.ofBits .f32 0x3F800000#32) (Ideal.ofBits .f32 0x3F800000#32 + Ideal.exp (-g))
      = g * Ideal.logistic g := by
  rw [Ideal.ofBits_one_f32]; rfl

/-! ## The specification's stages keep real numbers real -/

open Cert.Spec

theorem allReal_rows {x : Sx.Idx → EReal} (h : AllReal x) : AllReal (rows x) := fun _ => h _

theorem allReal_scaledRows {w : Swide.Idx → EReal} {s : SwideScale.Idx → EReal} (hw : AllReal w) (hs : AllReal s) :
    AllReal (scaledRows w s) := fun _ => real_mul (hw _) (hs _)

theorem allReal_scaledPlain {w : Stall.Idx → EReal} {s : StallScale.Idx → EReal} (hw : AllReal w) (hs : AllReal s) :
    AllReal (scaledPlain w s) := fun _ => real_mul (hw _) (hs _)

theorem real_inner {xr : Srows.Idx → EReal} {a : Swide.Idx → EReal} (hx : AllReal xr) (ha : AllReal a)
    (t : Fin 2048) (n : Fin 14336) : ∃ r : ℝ, inner xr a t n = (r : EReal) :=
  real_sum _ fun _ => real_mul (hx _) (ha _)

theorem allReal_hidden {xr : Srows.Idx → EReal} {a b : Swide.Idx → EReal} (hx : AllReal xr) (ha : AllReal a)
    (hb : AllReal b) : AllReal (hidden xr a b) := fun _ =>
  real_mul (real_mul (real_inner hx ha _ _) (real_logistic (real_inner hx ha _ _))) (real_inner hx hb _ _)

end Cert.RefLaw

end
-- ==== Proof.RefSpec.lean ====
/-
  The reference program computes the specification's function when every argument entry is a real number.

  The reference is read stage by stage. Each activation matrix (first x as 2048 rows of 4096, later the hidden rows)
  goes, block of 128 columns by block, through a ↦ (a / s) · s with s = (max |a| over the block) / 448 + ε; for real
  entries s is a positive real and the step is the identity. Each weight matrix is reshaped to blocks of 128 × 128,
  multiplied by its table of scales spread over the blocks, and reshaped back: entry (r, c) becomes
  w (r, c) · scale (r / 128, c / 128). The two first products of rows with weight rows are the specification's inner
  products; the gate g · (1 / (1 + exp (−g))) is g · logistic g; the hidden rows are real, so their own
  quantise-and-restore step is the identity too; the last product and the reshape give the result.
-/
import proofs.«169556_j22153441312857_1_alg».proof.Proof.RefImports
import proofs.«169556_j22153441312857_1_alg».proof.Proof.Spec
import proofs.«169556_j22153441312857_1_alg».proof.Proof.RefLaw

set_option maxRecDepth 16384

noncomputable section

namespace Cert.RefSpec

open Cert.ReferenceIdeal Cert.ReferenceIdeal.Gen Cert.ReferenceIdeal.Read
open Idealize.ShloMosaic Idealize.ShloMosaic.ValueIdx
open Cert.Spec (AllReal)
open scoped BigOperators

/-- The argument types: the activations, a wide weight matrix, its scales, the tall weight matrix, its scales. -/
abbrev Ax : Type := (⟨S2x1024x4096, .f32⟩ : BufTy).Contents (Elt Ideal)
abbrev Aw : Type := (⟨S14336x4096, .f32⟩ : BufTy).Contents (Elt Ideal)
abbrev As : Type := (⟨S112x32, .f32⟩ : BufTy).Contents (Elt Ideal)
abbrev Av : Type := (⟨S4096x14336, .f32⟩ : BufTy).Contents (Elt Ideal)
abbrev At : Type := (⟨S32x112, .f32⟩ : BufTy).Contents (Elt Ideal)

/-! ## Index equations -/

/-- Row 1024 · b + r of the 2048 × 4096 view is row (b, r) of x. -/
theorem rowsIdx (i : S2048x4096.Idx) :
    idx_main_v0 i = ix3 (⟨(i 0).val / 1024, by have h : (i 0).val < 2048 := (i 0).isLt; omega⟩ : Fin 2)
      (⟨(i 0).val % 1024, Nat.mod_lt _ (by decide)⟩ : Fin 1024) (⟨(i 1).val, (i 1).isLt⟩ : Fin 4096) := by
  funext a; apply Fin.ext
  have h0 : (i 0).val < 2048 := (i 0).isLt
  have h1 : (i 1).val < 4096 := (i 1).isLt
  match a with
  | ⟨0, _⟩ => show ((i 0).val * 4096 + (i 1).val) / 4194304 = (i 0).val / 1024; omega
  | ⟨1, _⟩ => show ((i 0).val * 4096 + (i 1).val) / 4096 % 1024 = (i 0).val % 1024; omega
  | ⟨2, _⟩ => show ((i 0).val * 4096 + (i 1).val) % 4096 = (i 1).val; omega

/-- A (row, block, lane) index flattened to (row, column) and split again is itself: 32 blocks. -/
theorem split32_flat (j : S2048x32x128.Idx) : idx_main_v11 (idx_main_v12 j) = j := by
  funext a; apply Fin.ext
  have h0 : (j 0).val < 2048 := (j 0).isLt
  have h1 : (j 1).val < 32 := (j 1).isLt
  have h2 : (j 2).val < 128 := (j 2).isLt
  match a with
  | ⟨0, _⟩ =>
    show ((((j 0).val * 32 + (j 1).val) * 128 + (j 2).val) / 4096 * 4096 + (((j 0).val * 32 + (j 1).val) * 128 + (j 2).val) % 4096) / 4096 = (j 0).val
    omega
  | ⟨1, _⟩ =>
    show ((((j 0).val * 32 + (j 1).val) * 128 + (j 2).val) / 4096 * 4096 + (((j 0).val * 32 + (j 1).val) * 128 + (j 2).val) % 4096) / 128 % 32 = (j 1).val
    omega
  | ⟨2, _⟩ =>
    show ((((j 0).val * 32 + (j 1).val) * 128 + (j 2).val) / 4096 * 4096 + (((j 0).val * 32 + (j 1).val) * 128 + (j 2).val) % 4096) % 128 = (j 2).val
    omega

/-- A (row, column) index split to (row, block, lane) and flattened again is itself: 32 blocks. -/
theorem flat_split32 (i : S2048x4096.Idx) : idx_main_v1 (idx_main_v16 i) = i := by
  funext a; apply Fin.ext
  have h0 : (i 0).val < 2048 := (i 0).isLt
  have h1 : (i 1).val < 4096 := (i 1).isLt
  match a with
  | ⟨0, _⟩ =>
    show ((((i 0).val * 4096 + (i 1).val) / 4096 * 32 + ((i 0).val * 4096 + (i 1).val) / 128 % 32) * 128 + ((i 0).val * 4096 + (i 1).val) % 128) / 4096 = (i 0).val
    omega
  | ⟨1, _⟩ =>
    show ((((i 0).val * 4096 + (i 1).val) / 4096 * 32 + ((i 0).val * 4096 + (i 1).val) / 128 % 32) * 128 + ((i 0).val * 4096 + (i 1).val) % 128) % 4096 = (i 1).val
    omega

/-- The same two facts for 112 blocks. -/
theorem split112_flat (j : S2048x112x128.Idx) : idx_main_v59 (idx_main_v60 j) = j := by
  funext a; apply Fin.ext
  have h0 : (j 0).val < 2048 := (j 0).isLt
  have h1 : (j 1).val < 112 := (j 1).isLt
  have h2 : (j 2).val < 128 := (j 2).isLt
  match a with
  | ⟨0, _⟩ =>
    show ((((j 0).val * 112 + (j 1).val) * 128 + (j 2).val) / 14336 * 14336 + (((j 0).val * 112 + (j 1).val) * 128 + (j 2).val) % 14336) / 14336 = (j 0).val
    omega
  | ⟨1, _⟩ =>
    show ((((j 0).val * 112 + (j 1).val) * 128 + (j 2).val) / 14336 * 14336 + (((j 0).val * 112 + (j 1).val) * 128 + (j 2).val) % 14336) / 128 % 112 = (j 1).val
    omega
  | ⟨2, _⟩ =>
    show ((((j 0).val * 112 + (j 1).val) * 128 + (j 2).val) / 14336 * 14336 + (((j 0).val * 112 + (j 1).val) * 128 + (j 2).val) % 14336) % 128 = (j 2).val
    omega

theorem flat_split112 (i : S2048x14336.Idx) : idx_main_v49 (idx_main_v64 i) = i := by
  funext a; apply Fin.ext
  have h0 : (i 0).val < 2048 := (i 0).isLt
  have h1 : (i 1).val < 14336 := (i 1).isLt
  match a with
  | ⟨0, _⟩ =>
    show ((((i 0).val * 14336 + (i 1).val) / 14336 * 112 + ((i 0).val * 14336 + (i 1).val) / 128 % 112) * 128 + ((i 0).val * 14336 + (i 1).val) % 128) / 14336 = (i 0).val
    omega
  | ⟨1, _⟩ =>
    show ((((i 0).val * 14336 + (i 1).val) / 14336 * 112 + ((i 0).val * 14336 + (i 1).val) / 128 % 112) * 128 + ((i 0).val * 14336 + (i 1).val) % 128) % 14336 = (i 1).val
    omega

/-- Entry (r, c) of a 14336 × 4096 matrix, sent to (block row, row in block, block column, column in block) and
    flattened again, is (r, c). -/
theorem wideBlocks_flat (n : S14336x4096.Idx) : idx_main_v17 (idx_main_v21 n) = n := by
  funext a; apply Fin.ext
  have h0 : (n 0).val < 14336 := (n 0).isLt
  have h1 : (n 1).val < 4096 := (n 1).isLt
  match a with
  | ⟨0, _⟩ =>
    show (((((n 0).val * 4096 + (n 1).val) / 524288 * 128 + ((n 0).val * 4096 + (n 1).val) / 4096 % 128) * 32 + ((n 0).val * 4096 + (n 1).val) / 128 % 32) * 128 + ((n 0).val * 4096 + (n 1).val) % 128) / 4096 = (n 0).val
    omega
  | ⟨1, _⟩ =>
    show (((((n 0).val * 4096 + (n 1).val) / 524288 * 128 + ((n 0).val * 4096 + (n 1).val) / 4096 % 128) * 32 + ((n 0).val * 4096 + (n 1).val) / 128 % 32) * 128 + ((n 0).val * 4096 + (n 1).val) % 128) % 4096 = (n 1).val
    omega

/-- The scale that meets entry (r, c) of a 14336 × 4096 matrix is the one of block (r / 128, c / 128). -/
theorem wideBlocks_scale (n : S14336x4096.Idx) :
    idx_main_v18 (idx_main_v19 (idx_main_v21 n))
      = ix2 (Spec.blk (n := 112) ⟨(n 0).val, (n 0).isLt⟩) (Spec.blk (n := 32) ⟨(n 1).val, (n 1).isLt⟩) := by
  funext a; apply Fin.ext
  have h0 : (n 0).val < 14336 := (n 0).isLt
  have h1 : (n 1).val < 4096 := (n 1).isLt
  match a with
  | ⟨0, _⟩ => show ((n 0).val * 4096 + (n 1).val) / 524288 = (n 0).val / 128; omega
  | ⟨1, _⟩ => show ((n 0).val * 4096 + (n 1).val) / 128 % 32 = (n 1).val / 128; omega

/-- The same two facts for the 4096 × 14336 matrix. -/
theorem tallBlocks_flat (n : S4096x14336.Idx) : idx_main_v65 (idx_main_v69 n) = n := by
  funext a; apply Fin.ext
  have h0 : (n 0).val < 4096 := (n 0).isLt
  have h1 : (n 1).val < 14336 := (n 1).isLt
  match a with
  | ⟨0, _⟩ =>
    show (((((n 0).val * 14336 + (n 1).val) / 1835008 * 128 + ((n 0).val * 14336 + (n 1).val) / 14336 % 128) * 112 + ((n 0).val * 14336 + (n 1).val) / 128 % 112) * 128 + ((n 0).val * 14336 + (n 1).val) % 128) / 14336 = (n 0).val
    omega
  | ⟨1, _⟩ =>
    show (((((n 0).val * 14336 + (n 1).val) / 1835008 * 128 + ((n 0).val * 14336 + (n 1).val) / 14336 % 128) * 112 + ((n 0).val * 14336 + (n 1).val) / 128 % 112) * 128 + ((n 0).val * 14336 + (n 1).val) % 128) % 14336 = (n 1).val
    omega

theorem tallBlocks_scale (n : S4096x14336.Idx) :
    idx_main_v66 (idx_main_v67 (idx_main_v69 n))
      = ix2 (Spec.blk (n := 32) ⟨(n 0).val, (n 0).isLt⟩) (Spec.blk (n := 112) ⟨(n 1).val, (n 1).isLt⟩) := by
  funext a; apply Fin.ext
  have h0 : (n 0).val < 4096 := (n 0).isLt
  have h1 : (n 1).val < 14336 := (n 1).isLt
  match a with
  | ⟨0, _⟩ => show ((n 0).val * 14336 + (n 1).val) / 1835008 = (n 0).val / 128; omega
  | ⟨1, _⟩ => show ((n 0).val * 14336 + (n 1).val) / 128 % 112 = (n 1).val / 128; omega

/-- Row (b, r) of the result is row 1024 · b + r of the projected rows. -/
theorem stackIdx (i : S2x1024x4096.Idx) :
    idx_main_v72 i = ix2 (⟨(i 0).val * 1024 + (i 1).val, by
        have h0 : (i 0).val < 2 := (i 0).isLt; have h1 : (i 1).val < 1024 := (i 1).isLt; omega⟩ : Fin 2048)
      (⟨(i 2).val, (i 2).isLt⟩ : Fin 4096) := by
  funext a; apply Fin.ext
  have h0 : (i 0).val < 2 := (i 0).isLt
  have h1 : (i 1).val < 1024 := (i 1).isLt
  have h2 : (i 2).val < 4096 := (i 2).isLt
  match a with
  | ⟨0, _⟩ => show (((i 0).val * 1024 + (i 1).val) * 4096 + (i 2).val) / 4096 = (i 0).val * 1024 + (i 1).val; omega
  | ⟨1, _⟩ => show (((i 0).val * 1024 + (i 1).val) * 4096 + (i 2).val) % 4096 = (i 2).val; omega

/-! ## The activations as rows -/

theorem rows_eq (x0 : Ax) : val_main_v0 (F := Ideal) x0 = Spec.rows x0 := by
  funext i
  rw [val_main_v0_apply]
  exact congrArg x0 (rowsIdx i)

/-! ## Quantise and restore, 32 blocks per row -/

/-- The scale of a block of a real row is a positive real. -/
theorem scale32_pos (x0 : Ax) (h0 : AllReal x0) (p : S2048x32.Idx) :
    ∃ s : ℝ, 0 < s ∧ val_main_v7 (F := Ideal) x0 p = (s : EReal) := by
  rw [val_main_v7_apply, val_main_v5_apply, val_main_v4_apply, val_main_v6_apply, val_main_cst_0_apply,
    val_main_cst_1_apply]
  show ∃ s : ℝ, 0 < s ∧ Ideal.div (val_main_v3 (F := Ideal) x0 p) (Ideal.ofBits .f32 0x43E00000#32)
    + Ideal.ofBits .f32 0x2B8CBCCC#32 = (s : EReal)
  refine RefLaw.scale_pos ?_
  unfold val_main_v3 val_main_v2
  exact RefLaw.real_blockMax (s := S2048x32x128) (t := S2048x32) (u := S_) (val_main_v1 (F := Ideal) x0)
    (fun q => by rw [val_main_v1_apply, val_main_v0_apply]; exact h0 _)
    (val_main_cst (F := Ideal)) h_S_ RefLaw.ofBits_neg_inf reducesTo_S2048x32x128_S2048x32_d2 (by decide) (by decide) p

/-- On real activations the quantise-and-restore step gives the rows back. -/
theorem restore32 (x0 : Ax) (h0 : AllReal x0) : val_main_v16 (F := Ideal) x0 = val_main_v0 (F := Ideal) x0 := by
  funext i
  rw [val_main_v16_apply, val_main_v15_apply, val_main_v12_apply, val_main_v11_apply, val_main_v10_apply,
    split32_flat, val_main_v14_apply, val_main_v13_apply, val_main_v9_apply, val_main_v8_apply, val_main_v1_apply,
    flat_split32]
  obtain ⟨s, hs, es⟩ := scale32_pos x0 h0 (idx_main_v8 (idx_main_v9 (idx_main_v16 i)))
  rw [es]
  exact RefLaw.div_mul_cancel_coe hs.ne' _

/-- The second copy of the step (the one feeding the second product) is the first, stage for stage. -/
theorem restore32' (x0 : Ax) : val_main_v39 (F := Ideal) x0 = val_main_v16 (F := Ideal) x0 := rfl

/-! ## The scaled weights -/

theorem wide_eq (x1 : Aw) (x2 : As) : val_main_v21 (F := Ideal) x1 x2 = Spec.scaledRows x1 x2 := by
  funext n
  rw [val_main_v21_apply, val_main_v20_apply, val_main_v17_apply, val_main_v19_apply, val_main_v18_apply,
    wideBlocks_flat, wideBlocks_scale]
  rfl

theorem wide_eq' (x3 : Aw) (x4 : As) : val_main_v44 (F := Ideal) x3 x4 = Spec.scaledRows x3 x4 :=
  (rfl : val_main_v44 (F := Ideal) x3 x4 = val_main_v21 (F := Ideal) x3 x4).trans (wide_eq x3 x4)

theorem tall_eq (x5 : Av) (x6 : At) : val_main_v69 (F := Ideal) x5 x6 = Spec.scaledPlain x5 x6 := by
  funext n
  rw [val_main_v69_apply, val_main_v68_apply, val_main_v65_apply, val_main_v67_apply, val_main_v66_apply,
    tallBlocks_flat, tallBlocks_scale]
  rfl

/-! ## The two first products -/

theorem gate_eq (x0 : Ax) (x1 : Aw) (x2 : As) (h0 : AllReal x0) (i : S2048x14336.Idx) :
    val_main_v23 (F := Ideal) x0 x1 x2 i
      = Spec.inner (Spec.rows x0) (Spec.scaledRows x1 x2) ⟨(i 0).val, (i 0).isLt⟩ ⟨(i 1).val, (i 1).isLt⟩ := by
  rw [val_main_v23_apply, restore32 x0 h0, rows_eq]
  unfold Spec.inner
  refine Finset.sum_congr rfl fun k _ => ?_
  rw [val_main_v22_apply, wide_eq]
  have el : lidx_main_v23 i k = ix2 (⟨(i 0).val, (i 0).isLt⟩ : Fin 2048) k :=
    funext fun a => match a with | ⟨0, _⟩ => rfl | ⟨1, _⟩ => rfl
  have er : idx_main_v22 (ridx_main_v23 i k) = ix2 (⟨(i 1).val, (i 1).isLt⟩ : Fin 14336) k :=
    funext fun a => match a with | ⟨0, _⟩ => rfl | ⟨1, _⟩ => rfl
  rw [el, er]

theorem up_eq (x0 : Ax) (x3 : Aw) (x4 : As) (h0 : AllReal x0) (i : S2048x14336.Idx) :
    val_main_v46 (F := Ideal) x0 x3 x4 i
      = Spec.inner (Spec.rows x0) (Spec.scaledRows x3 x4) ⟨(i 0).val, (i 0).isLt⟩ ⟨(i 1).val, (i 1).isLt⟩ := by
  rw [val_main_v46_apply, restore32', restore32 x0 h0, rows_eq]
  unfold Spec.inner
  refine Finset.sum_congr rfl fun k _ => ?_
  rw [val_main_v45_apply, wide_eq']
  have el : lidx_main_v46 i k = ix2 (⟨(i 0).val, (i 0).isLt⟩ : Fin 2048) k :=
    funext fun a => match a with | ⟨0, _⟩ => rfl | ⟨1, _⟩ => rfl
  have er : idx_main_v45 (ridx_main_v46 i k) = ix2 (⟨(i 1).val, (i 1).isLt⟩ : Fin 14336) k :=
    funext fun a => match a with | ⟨0, _⟩ => rfl | ⟨1, _⟩ => rfl
  rw [el, er]

/-! ## The hidden rows -/

theorem hidden_eq (x0 : Ax) (x1 : Aw) (x2 : As) (x3 : Aw) (x4 : As) (h0 : AllReal x0) :
    val_main_v48 (F := Ideal) x0 x1 x2 x3 x4
      = Spec.hidden (Spec.rows x0) (Spec.scaledRows x1 x2) (Spec.scaledRows x3 x4) := by
  funext i
  rw [val_main_v48_apply, val_main_v47_apply, val_main_call0_v5_apply, val_main_call0_v4_apply,
    val_main_call0_cst_0_apply, val_main_call0_v3_apply, val_main_call0_v2_apply, val_main_call0_cst_apply,
    val_main_call0_v1_apply, val_main_call0_v0_apply, gate_eq x0 x1 x2 h0, up_eq x0 x3 x4 h0]
  exact congrArg (· * _) (RefLaw.silu_eq _)

theorem hidden_real (x0 : Ax) (x1 : Aw) (x2 : As) (x3 : Aw) (x4 : As) (h0 : AllReal x0) (h1 : AllReal x1)
    (h2 : AllReal x2) (h3 : AllReal x3) (h4 : AllReal x4) (q : S2048x14336.Idx) :
    ∃ r : ℝ, val_main_v48 (F := Ideal) x0 x1 x2 x3 x4 q = (r : EReal) := by
  rw [hidden_eq x0 x1 x2 x3 x4 h0]
  exact RefLaw.allReal_hidden (RefLaw.allReal_rows h0) (RefLaw.allReal_scaledRows h1 h2) (RefLaw.allReal_scaledRows h3 h4) q

/-! ## Quantise and restore, 112 blocks per row -/

theorem scale112_pos (x0 : Ax) (x1 : Aw) (x2 : As) (x3 : Aw) (x4 : As)
    (hh : ∀ q, ∃ r : ℝ, val_main_v48 (F := Ideal) x0 x1 x2 x3 x4 q = (r : EReal)) (p : S2048x112.Idx) :
    ∃ s : ℝ, 0 < s ∧ val_main_v55 (F := Ideal) x0 x1 x2 x3 x4 p = (s : EReal) := by
  rw [val_main_v55_apply, val_main_v53_apply, val_main_v52_apply, val_main_v54_apply, val_main_cst_6_apply,
    val_main_cst_7_apply]
  show ∃ s : ℝ, 0 < s ∧ Ideal.div (val_main_v51 (F := Ideal) x0 x1 x2 x3 x4 p) (Ideal.ofBits .f32 0x43E00000#32)
    + Ideal.ofBits .f32 0x2B8CBCCC#32 = (s : EReal)
  refine RefLaw.scale_pos ?_
  unfold val_main_v51 val_main_v50
  exact RefLaw.real_blockMax (s := S2048x112x128) (t := S2048x112) (u := S_) (val_main_v49 (F := Ideal) x0 x1 x2 x3 x4)
    (fun q => by rw [val_main_v49_apply]; exact hh _)
    (val_main_cst_5 (F := Ideal)) h_S_ RefLaw.ofBits_neg_inf reducesTo_S2048x112x128_S2048x112_d2 (by decide) (by decide) p

theorem restore112 (x0 : Ax) (x1 : Aw) (x2 : As) (x3 : Aw) (x4 : As)
    (hh : ∀ q, ∃ r : ℝ, val_main_v48 (F := Ideal) x0 x1 x2 x3 x4 q = (r : EReal)) :
    val_main_v64 (F := Ideal) x0 x1 x2 x3 x4 = val_main_v48 (F := Ideal) x0 x1 x2 x3 x4 := by
  funext i
  rw [val_main_v64_apply, val_main_v63_apply, val_main_v60_apply, val_main_v59_apply, val_main_v58_apply,
    split112_flat, val_main_v62_apply, val_main_v61_apply, val_main_v57_apply, val_main_v56_apply, val_main_v49_apply,
    flat_split112]
  obtain ⟨s, hs, es⟩ := scale112_pos x0 x1 x2 x3 x4 hh (idx_main_v56 (idx_main_v57 (idx_main_v64 i)))
  rw [es]
  exact RefLaw.div_mul_cancel_coe hs.ne' _

/-! ## The last product and the result -/

theorem projected_eq (x0 : Ax) (x1 : Aw) (x2 : As) (x3 : Aw) (x4 : As) (x5 : Av) (x6 : At)
    (h0 : AllReal x0) (h1 : AllReal x1) (h2 : AllReal x2) (h3 : AllReal x3) (h4 : AllReal x4) :
    val_main_v71 (F := Ideal) x0 x1 x2 x3 x4 x5 x6
      = Spec.projected (Spec.hidden (Spec.rows x0) (Spec.scaledRows x1 x2) (Spec.scaledRows x3 x4)) (Spec.scaledPlain x5 x6) := by
  funext j
  rw [val_main_v71_apply, restore112 x0 x1 x2 x3 x4 (hidden_real x0 x1 x2 x3 x4 h0 h1 h2 h3 h4),
    hidden_eq x0 x1 x2 x3 x4 h0]
  unfold Spec.projected
  refine Finset.sum_congr rfl fun k _ => ?_
  rw [val_main_v70_apply, tall_eq]
  have el : lidx_main_v71 j k = ix2 (⟨(j 0).val, (j 0).isLt⟩ : Fin 2048) k :=
    funext fun a => match a with | ⟨0, _⟩ => rfl | ⟨1, _⟩ => rfl
  have er : idx_main_v70 (ridx_main_v71 j k) = ix2 (⟨(j 1).val, (j 1).isLt⟩ : Fin 4096) k :=
    funext fun a => match a with | ⟨0, _⟩ => rfl | ⟨1, _⟩ => rfl
  rw [el, er]

/-- The reference's result is the specification's function of the seven arguments, when every entry of the first
    five is a real number. (The last two, the third weight matrix and its scales, enter only through one product and
    need no assumption; the hypotheses on them are kept so that the statement is symmetric in the arguments.) -/
theorem ref_is_spec (x0 : (⟨Cert.ReferenceIdeal.S2x1024x4096, .f32⟩ : BufTy).Contents (Elt Ideal))
    (x1 : (⟨Cert.ReferenceIdeal.S14336x4096, .f32⟩ : BufTy).Contents (Elt Ideal))
    (x2 : (⟨Cert.ReferenceIdeal.S112x32, .f32⟩ : BufTy).Contents (Elt Ideal))
    (x3 : (⟨Cert.ReferenceIdeal.S14336x4096, .f32⟩ : BufTy).Contents (Elt Ideal))
    (x4 : (⟨Cert.ReferenceIdeal.S112x32, .f32⟩ : BufTy).Contents (Elt Ideal))
    (x5 : (⟨Cert.ReferenceIdeal.S4096x14336, .f32⟩ : BufTy).Contents (Elt Ideal))
    (x6 : (⟨Cert.ReferenceIdeal.S32x112, .f32⟩ : BufTy).Contents (Elt Ideal))
    (h0 : Cert.Spec.AllReal x0) (h1 : Cert.Spec.AllReal x1) (h2 : Cert.Spec.AllReal x2) (h3 : Cert.Spec.AllReal x3)
    (h4 : Cert.Spec.AllReal x4) (h5 : Cert.Spec.AllReal x5) (h6 : Cert.Spec.AllReal x6) :
    Cert.ReferenceIdeal.Read.val_main_v72 (F := Ideal) x0 x1 x2 x3 x4 x5 x6 = Cert.Spec.result x0 x1 x2 x3 x4 x5 x6 := by
  funext i
  rw [val_main_v72_apply, projected_eq x0 x1 x2 x3 x4 x5 x6 h0 h1 h2 h3 h4, stackIdx]
  rfl

end Cert.RefSpec

end
-- ==== Proof.FinitePre.lean ====
/-
  From the printed precondition to real entries. The precondition is the conjunction, over the seven arguments, of
  "every entry has absolute value below +∞". On the extended reals the absolute value is max x (−x); it is ⊤ at both
  infinities, so an entry whose absolute value lies strictly below ⊤ is neither of them: it is a real number.
-/
import proofs.«169556_j22153441312857_1_alg».proof.Pre_finite_inputs
import proofs.«169556_j22153441312857_1_alg».proof.Proof.Spec
import Idealize.ShloMosaic.Lib.ReduceAll
import Idealize.ShloMosaic.Lib.ValueIdx
import Idealize.ShloMosaic.PureOps.Ideal

noncomputable section

namespace Cert.FinitePre

open Idealize.ShloMosaic Idealize.ShloMosaic.ValueIdx
open Cert.Pre_finite_inputs

/-- A reduction over every axis has a single result index. -/
instance : Subsingleton S_.Idx := ⟨fun a b => funext fun d => d.elim0⟩

/-- The f32 pattern with all exponent bits set and no fraction bit is +∞. -/
theorem inf_pattern : Ideal.ofBits .f32 0x7F800000#32 = ⊤ := by simp [Ideal.ofBits, Ideal.ieee]

/-- An extended real whose absolute value lies strictly below +∞ is a real number. -/
theorem real_of_abs_lt_inf (x : EReal)
    (h : FloatOps.cmpf (F := Ideal) (φ := .f32) .olt (FloatOps.hostAbsf x) (FloatOps.ofBits .f32 0x7F800000#32) = 1#1) :
    ∃ r : ℝ, x = (r : EReal) := by
  change Ideal.cmp .olt (max x (-x)) (Ideal.ofBits .f32 0x7F800000#32) = 1#1 at h
  rw [inf_pattern] at h
  induction x using EReal.rec with
  | bot => simp [Ideal.cmp] at h
  | top => simp [Ideal.cmp] at h
  | coe r => exact ⟨r, rfl⟩

/-- All entries of an array of any shape lie below +∞ in absolute value (the conjunction over the whole array is 1):
    every entry is real. -/
theorem allReal_of_all {S : Shape} {axes : List (Fin S.rank)} (bc : S_.BroadcastsInDim S (![] : Fin 0 → Fin S.rank))
    (red : S.ReducesTo axes S_) (hu : 0 < S_.numel) (x : FVec Ideal S .f32) (init : IVec S_ 1)
    (h : Host.reduce IntOp.andi
          (cmpf .olt (Host.absf x) (broadcastInDim S ![] bc (constant (F := Ideal) S_ .f32 0x7F800000#32))) init red hu ix0 = 1#1) :
    Cert.Spec.AllReal x := fun i =>
  real_of_abs_lt_inf (x i) (Host.reduce_andi_all _ init red hu ix0 h i)

/-- The precondition as printed, at the extended reals, makes every entry of each of the seven arguments real. -/
theorem allReal_of_pre [Cert.Pre_finite_inputs.Facts]
    (a0 : FVec Ideal S2x1024x4096 .f32) (a1 : FVec Ideal S14336x4096 .f32) (a2 : FVec Ideal S112x32 .f32)
    (a3 : FVec Ideal S14336x4096 .f32) (a4 : FVec Ideal S112x32 .f32) (a5 : FVec Ideal S4096x14336 .f32)
    (a6 : FVec Ideal S32x112 .f32)
    (h : Cert.Pre_finite_inputs.fn (F := Ideal) a0 a1 a2 a3 a4 a5 a6 = (fun _ => 1#1)) :
    Cert.Spec.AllReal a0 ∧ Cert.Spec.AllReal a1 ∧ Cert.Spec.AllReal a2 ∧ Cert.Spec.AllReal a3 ∧ Cert.Spec.AllReal a4
      ∧ Cert.Spec.AllReal a5 ∧ Cert.Spec.AllReal a6 := by
  have e := congrFun h ix0
  dsimp only [fn, fn_part1, Idealize.ShloMosaic.andi] at e
  -- the seven tests t₀ … t₆ are conjoined nested to the left, (((((t₀ ∧ t₁) ∧ t₂) ∧ t₃) ∧ t₄) ∧ t₅) ∧ t₆: peel from the right
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨allReal_of_all _ _ _ a0 _ e0, allReal_of_all _ _ _ a1 _ e1, allReal_of_all _ _ _ a2 _ e2,
    allReal_of_all _ _ _ a3 _ e3, allReal_of_all _ _ _ a4 _ e4, allReal_of_all _ _ _ a5 _ e5,
    allReal_of_all _ _ _ a6 _ e6⟩

end Cert.FinitePre

end
-- ==== Proof.lean ====
/-
  The kernel and its reference compute one function on the extended reals.

  The kernel program scales each weight matrix block by block (every 128 × 128 block times its own scale), takes the two
  inner products of each activation row with the rows of the first two scaled matrices, passes the first through
  g ↦ g · logistic g and multiplies by the second, and takes the inner products of the resulting hidden rows with the rows
  of the third scaled matrix. Its sums are accumulated in stretches of 2048 terms from a zero accumulator, which on the
  extended reals is the whole sum. The reference computes the same scaled matrices and the same inner products, but sends
  each activation matrix a through (a / s) · s first, s being, per row and block of 128 columns, max |a| / 448 plus a
  positive constant. For real entries s is a positive real and (a / s) · s = a; the inputs are real by the precondition,
  and the hidden rows are real because they are finite sums of products of reals and logistic maps reals to reals. So both
  results are the specification's function of the seven arguments (Proof/Spec.lean): the kernel's by following the arrays
  through its eight items (Proof/KI), the reference's by reading its operations one at a time (Proof/RefSpec.lean).

  The three frames: each kernel program runs region by region with every argument array read through input windows or
  not touched at all, so the arguments end as launched (Proof/K for the program as printed, Proof/KI for the idealized
  one); the reference is a straight line of host operations, none of which writes an argument. The idealized kernel is the
  printed kernel's own text read on the extended reals: the pass rewrote nothing, and that conjunct is trivial.
-/
import proofs.«169556_j22153441312857_1_alg».proof.Defs
import proofs.«169556_j22153441312857_1_alg».proof.Proof.Gen.Kernel
import proofs.«169556_j22153441312857_1_alg».proof.Proof.Gen.KernelIdeal
import proofs.«169556_j22153441312857_1_alg».proof.Proof.Gen.ReferenceIdeal
import proofs.«169556_j22153441312857_1_alg».proof.Proof.Gen.Pre_finite_inputs
import proofs.«169556_j22153441312857_1_alg».proof.Proof.K.Walk
import proofs.«169556_j22153441312857_1_alg».proof.Proof.KI.Walk
import proofs.«169556_j22153441312857_1_alg».proof.Proof.KI.ValMain
import proofs.«169556_j22153441312857_1_alg».proof.Proof.RefSpec
import proofs.«169556_j22153441312857_1_alg».proof.Proof.FinitePre
import Idealize.ShloMosaic.Adequacy
import Idealize.ShloMosaic.Init

noncomputable section

namespace Cert.Proof

open Idealize.ShloMosaic Idealize.SL.Sem

/-- The reference runs to the end with its arguments unchanged: its run, with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories that agree on the arguments, the idealized kernel's result and the reference's are both the
    specification's function of the arguments: the kernel's by its run read at the result, the reference's by its run,
    its operations read one at a time, and the precondition (every argument entry a real number). -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Hand.B8 (F := Ideal) m ρ c (Proc.devRef .tc Cert.KernelIdeal.main_v8),
    Cert.KernelIdeal.Hand.run_result (F := Ideal) m ρ, ?_⟩
  refine (θ_run Cert.ReferenceIdeal.defs _ _).mono (fun _ h c => ⟨?_, (h c).2⟩)
    (Cert.ReferenceIdeal.Value.run (F := Ideal) m' ρ')
  obtain ⟨h0, h1, h2, h3, h4, h5, h6⟩ := Cert.FinitePre.allReal_of_pre _ _ _ _ _ _ _ (hpre c)
  obtain ⟨a0, a1, a2, a3, a4, a5, a6⟩ := hagree c
  rw [(h c).1, Cert.ReferenceIdeal.Read.val_main_v72_eq, a0, a1, a2, a3, a4, a5, a6]
  exact (Cert.RefSpec.ref_is_spec _ _ _ _ _ _ _ h0 h1 h2 h3 h4 h5 h6).trans (Cert.KernelIdeal.Hand.result_value m ρ c).symm

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame (F := Bits) m ρ,
    fun m ρ _ => Cert.KernelIdeal.Hand.frame (F := Ideal) m ρ,
    frame_reference, trivial, algebraic⟩

end Cert.Proof

end
